-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x3200000 : Shape := ⟨2, ![2, 3200000]⟩
abbrev S100000x8 : Shape := ⟨2, ![100000, 8]⟩
abbrev S3200000x4 : Shape := ⟨2, ![3200000, 4]⟩
abbrev S100000 : Shape := ⟨1, ![100000]⟩
abbrev S20x10 : Shape := ⟨2, ![20, 10]⟩
abbrev S10 : Shape := ⟨1, ![10]⟩
abbrev S10x10 : Shape := ⟨2, ![10, 10]⟩
abbrev S10x5 : Shape := ⟨2, ![10, 5]⟩
abbrev S5 : Shape := ⟨1, ![5]⟩
abbrev S5x5 : Shape := ⟨2, ![5, 5]⟩
abbrev S5x1 : Shape := ⟨2, ![5, 1]⟩
abbrev S1 : Shape := ⟨1, ![1]⟩
abbrev S_ : Shape := ⟨0, ![]⟩

class Facts : Prop where
  bcast_S_S100000x8 : S_.BroadcastsInDim S100000x8 (![] : Fin 0 → Fin S100000x8.rank)
  reducesTo_S100000x8_S_d0_1 : S100000x8.ReducesTo [0, 1] S_
  h_S_ : 0 < S_.numel
  bcast_S_S3200000x4 : S_.BroadcastsInDim S3200000x4 (![] : Fin 0 → Fin S3200000x4.rank)
  reducesTo_S3200000x4_S_d0_1 : S3200000x4.ReducesTo [0, 1] S_
  bcast_S_S20x10 : S_.BroadcastsInDim S20x10 (![] : Fin 0 → Fin S20x10.rank)
  reducesTo_S20x10_S_d0_1 : S20x10.ReducesTo [0, 1] S_
  bcast_S_S10 : S_.BroadcastsInDim S10 (![] : Fin 0 → Fin S10.rank)
  reducesTo_S10_S_d0 : S10.ReducesTo [0] S_
  bcast_S_S10x10 : S_.BroadcastsInDim S10x10 (![] : Fin 0 → Fin S10x10.rank)
  reducesTo_S10x10_S_d0_1 : S10x10.ReducesTo [0, 1] S_
  bcast_S_S10x5 : S_.BroadcastsInDim S10x5 (![] : Fin 0 → Fin S10x5.rank)
  reducesTo_S10x5_S_d0_1 : S10x5.ReducesTo [0, 1] S_
  bcast_S_S5 : S_.BroadcastsInDim S5 (![] : Fin 0 → Fin S5.rank)
  reducesTo_S5_S_d0 : S5.ReducesTo [0] S_
  bcast_S_S5x5 : S_.BroadcastsInDim S5x5 (![] : Fin 0 → Fin S5x5.rank)
  reducesTo_S5x5_S_d0_1 : S5x5.ReducesTo [0, 1] S_
  bcast_S_S5x1 : S_.BroadcastsInDim S5x1 (![] : Fin 0 → Fin S5x1.rank)
  reducesTo_S5x1_S_d0_1 : S5x1.ReducesTo [0, 1] S_
  bcast_S_S1 : S_.BroadcastsInDim S1 (![] : Fin 0 → Fin S1.rank)
  reducesTo_S1_S_d0 : S1.ReducesTo [0] S_
  bcast_S_S2x3200000 : S_.BroadcastsInDim S2x3200000 (![] : Fin 0 → Fin S2x3200000.rank)
  reducesTo_S2x3200000_S_d0_1 : S2x3200000.ReducesTo [0, 1] S_

variable [Facts]

def fn_part4 {F : FTy → Type} [FloatOps F] (main_arg0 : IVec S2x3200000 32) (main_v63 : IVec S_ 1) (main_v67 : IVec S_ 1) : IVec S_ 1 :=
  let main_v68 : IVec S_ 1 := andi main_v63 main_v67
  let main_c_26 : IVec S_ 32 := constantI S_ 32 4294867296#32
  let main_v69 : IVec S2x3200000 32 := broadcastInDim S2x3200000 ![] bcast_S_S2x3200000 main_c_26
  let main_v70 : IVec S2x3200000 1 := cmpi .sge main_arg0 main_v69
  let main_c_27 : IVec S_ 1 := constantI S_ 1 1#1
  let main_v71 : IVec S_ 1 := (fun x v => Host.reduce IntOp.andi x v reducesTo_S2x3200000_S_d0_1 h_S_) main_v70 main_c_27
  let main_v72 : IVec S_ 1 := andi main_v68 main_v71
  let main_c_28 : IVec S_ 32 := constantI S_ 32 100000#32
  let main_v73 : IVec S2x3200000 32 := broadcastInDim S2x3200000 ![] bcast_S_S2x3200000 main_c_28
  let main_v74 : IVec S2x3200000 1 := cmpi .slt main_arg0 main_v73
  let main_c_29 : IVec S_ 1 := constantI S_ 1 1#1
  let main_v75 : IVec S_ 1 := (fun x v => Host.reduce IntOp.andi x v reducesTo_S2x3200000_S_d0_1 h_S_) main_v74 main_c_29
  let main_v76 : IVec S_ 1 := andi main_v72 main_v75
  main_v76

def fn_part3 {F : FTy → Type} [FloatOps F] (main_arg0 : IVec S2x3200000 32) (main_arg13 : FVec F S5 .f32) (main_arg14 : FVec F S5x1 .f32) (main_arg15 : FVec F S1 .f32) (main_v48 : IVec S_ 1) (main_v49 : FVec F S5x5 .f32) (main_v50 : FVec F S5x5 .f32) : IVec S_ 1 :=
  let main_v51 : IVec S5x5 1 := cmpf .olt main_v49 main_v50
  let main_c_19 : IVec S_ 1 := constantI S_ 1 1#1
  let main_v52 : IVec S_ 1 := (fun x v => Host.reduce IntOp.andi x v reducesTo_S5x5_S_d0_1 h_S_) main_v51 main_c_19
  let main_v53 : IVec S_ 1 := andi main_v48 main_v52
  let main_v54 : FVec F S5 .f32 := Host.absf main_arg13
  let main_cst_20 : FVec F S_ .f32 := constant S_ .f32 0x7F800000#32
  let main_v55 : FVec F S5 .f32 := broadcastInDim S5 ![] bcast_S_S5 main_cst_20
  let main_v56 : IVec S5 1 := cmpf .olt main_v54 main_v55
  let main_c_21 : IVec S_ 1 := constantI S_ 1 1#1
  let main_v57 : IVec S_ 1 := (fun x v => Host.reduce IntOp.andi x v reducesTo_S5_S_d0 h_S_) main_v56 main_c_21
  let main_v58 : IVec S_ 1 := andi main_v53 main_v57
  let main_v59 : FVec F S5x1 .f32 := Host.absf main_arg14
  let main_cst_22 : FVec F S_ .f32 := constant S_ .f32 0x7F800000#32
  let main_v60 : FVec F S5x1 .f32 := broadcastInDim S5x1 ![] bcast_S_S5x1 main_cst_22
  let main_v61 : IVec S5x1 1 := cmpf .olt main_v59 main_v60
  let main_c_23 : IVec S_ 1 := constantI S_ 1 1#1
  let main_v62 : IVec S_ 1 := (fun x v => Host.reduce IntOp.andi x v reducesTo_S5x1_S_d0_1 h_S_) main_v61 main_c_23
  let main_v63 : IVec S_ 1 := andi main_v58 main_v62
  let main_v64 : FVec F S1 .f32 := Host.absf main_arg15
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_arg0 main_v63 main_v67

def fn_part2 {F : FTy → Type} [FloatOps F] (main_arg0 : IVec S2x3200000 32) (main_arg9 : FVec F S10 .f32) (main_arg10 : FVec F S10x5 .f32) (main_arg11 : FVec F S5 .f32) (main_arg12 : FVec F S5x5 .f32) (main_arg13 : FVec F S5 .f32) (main_arg14 : FVec F S5x1 .f32) (main_arg15 : FVec F S1 .f32) (main_v33 : IVec S_ 1) : IVec S_ 1 :=
  let main_v34 : FVec F S10 .f32 := Host.absf main_arg9
  let main_cst_12 : FVec F S_ .f32 := constant S_ .f32 0x7F800000#32
  let main_v35 : FVec F S10 .f32 := broadcastInDim S10 ![] bcast_S_S10 main_cst_12
  let main_v36 : IVec S10 1 := cmpf .olt main_v34 main_v35
  let main_c_13 : IVec S_ 1 := constantI S_ 1 1#1
  let main_v37 : IVec S_ 1 := (fun x v => Host.reduce IntOp.andi x v reducesTo_S10_S_d0 h_S_) main_v36 main_c_13
  let main_v38 : IVec S_ 1 := andi main_v33 main_v37
  let main_v39 : FVec F S10x5 .f32 := Host.absf main_arg10
  let main_cst_14 : FVec F S_ .f32 := constant S_ .f32 0x7F800000#32
  let main_v40 : FVec F S10x5 .f32 := broadcastInDim S10x5 ![] bcast_S_S10x5 main_cst_14
  let main_v41 : IVec S10x5 1 := cmpf .olt main_v39 main_v40
  let main_c_15 : IVec S_ 1 := constantI S_ 1 1#1
  let main_v42 : IVec S_ 1 := (fun x v => Host.reduce IntOp.andi x v reducesTo_S10x5_S_d0_1 h_S_) main_v41 main_c_15
  let main_v43 : IVec S_ 1 := andi main_v38 main_v42
  let main_v44 : FVec F S5 .f32 := Host.absf main_arg11
  let main_cst_16 : FVec F S_ .f32 := constant S_ .f32 0x7F800000#32
  let main_v45 : FVec F S5 .f32 := broadcastInDim S5 ![] bcast_S_S5 main_cst_16
  let main_v46 : IVec S5 1 := cmpf .olt main_v44 main_v45
  let main_c_17 : IVec S_ 1 := constantI S_ 1 1#1
  let main_v47 : IVec S_ 1 := (fun x v => Host.reduce IntOp.andi x v reducesTo_S5_S_d0 h_S_) main_v46 main_c_17
  let main_v48 : IVec S_ 1 := andi main_v43 main_v47
  let main_v49 : FVec F S5x5 .f32 := Host.absf main_arg12
  let main_cst_18 : FVec F S_ .f32 := constant S_ .f32 0x7F800000#32
  let main_v50 : FVec F S5x5 .f32 := broadcastInDim S5x5 ![] bcast_S_S5x5 main_cst_18
  fn_part3 (F := F) main_arg0 main_arg13 main_arg14 main_arg15 main_v48 main_v49 main_v50

def fn_part1 {F : FTy → Type} [FloatOps F] (main_arg0 : IVec S2x3200000 32) (main_arg6 : FVec F S10x10 .f32) (main_arg7 : FVec F S10 .f32) (main_arg8 : FVec F S10x10 .f32) (main_arg9 : FVec F S10 .f32) (main_arg10 : FVec F S10x5 .f32) (main_arg11 : FVec F S5 .f32) (main_arg12 : FVec F S5x5 .f32) (main_arg13 : FVec F S5 .f32) (main_arg14 : FVec F S5x1 .f32) (main_arg15 : FVec F S1 .f32) (main_v13 : IVec S_ 1) (main_v16 : IVec S10 1) : IVec S_ 1 :=
  let main_c_5 : IVec S_ 1 := constantI S_ 1 1#1
  let main_v17 : IVec S_ 1 := (fun x v => Host.reduce IntOp.andi x v reducesTo_S10_S_d0 h_S_) main_v16 main_c_5
  let main_v18 : IVec S_ 1 := andi main_v13 main_v17
  let main_v19 : FVec F S10x10 .f32 := Host.absf main_arg6
  let main_cst_6 : FVec F S_ .f32 := constant S_ .f32 0x7F800000#32
  let main_v20 : FVec F S10x10 .f32 := broadcastInDim S10x10 ![] bcast_S_S10x10 main_cst_6
  let main_v21 : IVec S10x10 1 := cmpf .olt main_v19 main_v20
  let main_c_7 : IVec S_ 1 := constantI S_ 1 1#1
  let main_v22 : IVec S_ 1 := (fun x v => Host.reduce IntOp.andi x v reducesTo_S10x10_S_d0_1 h_S_) main_v21 main_c_7
  let main_v23 : IVec S_ 1 := andi main_v18 main_v22
  let main_v24 : FVec F S10 .f32 := Host.absf main_arg7
  let main_cst_8 : FVec F S_ .f32 := constant S_ .f32 0x7F800000#32
  let main_v25 : FVec F S10 .f32 := broadcastInDim S10 ![] bcast_S_S10 main_cst_8
  let main_v26 : IVec S10 1 := cmpf .olt main_v24 main_v25
  let main_c_9 : IVec S_ 1 := constantI S_ 1 1#1
  let main_v27 : IVec S_ 1 := (fun x v => Host.reduce IntOp.andi x v reducesTo_S10_S_d0 h_S_) main_v26 main_c_9
  let main_v28 : IVec S_ 1 := andi main_v23 main_v27
  let main_v29 : FVec F S10x10 .f32 := Host.absf main_arg8
  let main_cst_10 : FVec F S_ .f32 := constant S_ .f32 0x7F800000#32
  let main_v30 : FVec F S10x10 .f32 := broadcastInDim S10x10 ![] bcast_S_S10x10 main_cst_10
  let main_v31 : IVec S10x10 1 := cmpf .olt main_v29 main_v30
  let main_c_11 : IVec S_ 1 := constantI S_ 1 1#1
  let main_v32 : IVec S_ 1 := (fun x v => Host.reduce IntOp.andi x v reducesTo_S10x10_S_d0_1 h_S_) main_v31 main_c_11
  let main_v33 : IVec S_ 1 := andi main_v28 main_v32
  fn_part2 (F := F) main_arg0 main_arg9 main_arg10 main_arg11 main_arg12 main_arg13 main_arg14 main_arg15 main_v33

def fn {F : FTy → Type} [FloatOps F] (main_arg0 : IVec S2x3200000 32) (main_arg1 : FVec F S100000x8 .f32) (main_arg2 : FVec F S3200000x4 .f32) (main_arg3 : IVec S100000 32) (main_arg4 : FVec F S20x10 .f32) (main_arg5 : FVec F S10 .f32) (main_arg6 : FVec F S10x10 .f32) (main_arg7 : FVec F S10 .f32) (main_arg8 : FVec F S10x10 .f32) (main_arg9 : FVec F S10 .f32) (main_arg10 : FVec F S10x5 .f32) (main_arg11 : FVec F S5 .f32) (main_arg12 : FVec F S5x5 .f32) (main_arg13 : FVec F S5 .f32) (main_arg14 : FVec F S5x1 .f32) (main_arg15 : FVec F S1 .f32) : IVec S_ 1 :=
  let main_v0 : FVec F S100000x8 .f32 := Host.absf main_arg1
  let main_cst : FVec F S_ .f32 := constant S_ .f32 0x7F800000#32
  let main_v1 : FVec F S100000x8 .f32 := broadcastInDim S100000x8 ![] bcast_S_S100000x8 main_cst
  let main_v2 : IVec S100000x8 1 := cmpf .olt main_v0 main_v1
  let main_c : IVec S_ 1 := constantI S_ 1 1#1
  let main_v3 : IVec S_ 1 := (fun x v => Host.reduce IntOp.andi x v reducesTo_S100000x8_S_d0_1 h_S_) main_v2 main_c
  let main_v4 : FVec F S3200000x4 .f32 := Host.absf main_arg2
  let main_cst_0 : FVec F S_ .f32 := constant S_ .f32 0x7F800000#32
  let main_v5 : FVec F S3200000x4 .f32 := broadcastInDim S3200000x4 ![] bcast_S_S3200000x4 main_cst_0
  let main_v6 : IVec S3200000x4 1 := cmpf .olt main_v4 main_v5
  let main_c_1 : IVec S_ 1 := constantI S_ 1 1#1
  let main_v7 : IVec S_ 1 := (fun x v => Host.reduce IntOp.andi x v reducesTo_S3200000x4_S_d0_1 h_S_) main_v6 main_c_1
  let main_v8 : IVec S_ 1 := andi main_v3 main_v7
  let main_v9 : FVec F S20x10 .f32 := Host.absf main_arg4
  let main_cst_2 : FVec F S_ .f32 := constant S_ .f32 0x7F800000#32
  let main_v10 : FVec F S20x10 .f32 := broadcastInDim S20x10 ![] bcast_S_S20x10 main_cst_2
  let main_v11 : IVec S20x10 1 := cmpf .olt main_v9 main_v10
  let main_c_3 : IVec S_ 1 := constantI S_ 1 1#1
  let main_v12 : IVec S_ 1 := (fun x v => Host.reduce IntOp.andi x v reducesTo_S20x10_S_d0_1 h_S_) main_v11 main_c_3
  let main_v13 : IVec S_ 1 := andi main_v8 main_v12
  let main_v14 : FVec F S10 .f32 := Host.absf main_arg5
  let main_cst_4 : FVec F S_ .f32 := constant S_ .f32 0x7F800000#32
  let main_v15 : FVec F S10 .f32 := broadcastInDim S10 ![] bcast_S_S10 main_cst_4
  let main_v16 : IVec S10 1 := cmpf .olt main_v14 main_v15
  fn_part1 (F := F) main_arg0 main_arg6 main_arg7 main_arg8 main_arg9 main_arg10 main_arg11 main_arg12 main_arg13 main_arg14 main_arg15 main_v13 main_v16
-- ==== Kernel.lean ====
abbrev S2x3200000 : Shape := ⟨2, ![2, 3200000]⟩
abbrev S100000x8 : Shape := ⟨2, ![100000, 8]⟩
abbrev S3200000x4 : Shape := ⟨2, ![3200000, 4]⟩
abbrev S100000 : Shape := ⟨1, ![100000]⟩
abbrev S20x10 : Shape := ⟨2, ![20, 10]⟩
abbrev S10 : Shape := ⟨1, ![10]⟩
abbrev S10x10 : Shape := ⟨2, ![10, 10]⟩
abbrev S10x5 : Shape := ⟨2, ![10, 5]⟩
abbrev S5 : Shape := ⟨1, ![5]⟩
abbrev S5x5 : Shape := ⟨2, ![5, 5]⟩
abbrev S5x1 : Shape := ⟨2, ![5, 1]⟩
abbrev S1 : Shape := ⟨1, ![1]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S1x1 : Shape := ⟨2, ![1, 1]⟩
abbrev S3200000x8 : Shape := ⟨2, ![3200000, 8]⟩
abbrev S8x10 : Shape := ⟨2, ![8, 10]⟩
abbrev S4x10 : Shape := ⟨2, ![4, 10]⟩
abbrev S1x10 : Shape := ⟨2, ![1, 10]⟩
abbrev S3200000x10 : Shape := ⟨2, ![3200000, 10]⟩
abbrev S6400x8 : Shape := ⟨2, ![6400, 8]⟩
abbrev S6400x4 : Shape := ⟨2, ![6400, 4]⟩
abbrev S6400x10 : Shape := ⟨2, ![6400, 10]⟩
abbrev S100000x10 : Shape := ⟨2, ![100000, 10]⟩
abbrev S1x5 : Shape := ⟨2, ![1, 5]⟩
abbrev S100000x5 : Shape := ⟨2, ![100000, 5]⟩
abbrev S10000x10 : Shape := ⟨2, ![10000, 10]⟩
abbrev S10000x5 : Shape := ⟨2, ![10000, 5]⟩
abbrev S5000x5 : Shape := ⟨2, ![5000, 5]⟩
abbrev S100000x1 : Shape := ⟨2, ![100000, 1]⟩
abbrev S5000x1 : Shape := ⟨2, ![5000, 1]⟩

abbrev nBuf : Space → Nat
  | .hbm => 86
  | .vmem => 28
  | .smem => 0
  | _ => 0

abbrev bufTy : (tb : Table) → Fin (tcTables nBuf tb) → BufTy
  | .hbm, ⟨0, _⟩ => ⟨S2x3200000, .i32⟩
  | .hbm, ⟨1, _⟩ => ⟨S100000x8, .f32⟩
  | .hbm, ⟨2, _⟩ => ⟨S3200000x4, .f32⟩
  | .hbm, ⟨3, _⟩ => ⟨S100000, .i32⟩
  | .hbm, ⟨4, _⟩ => ⟨S20x10, .f32⟩
  | .hbm, ⟨5, _⟩ => ⟨S10, .f32⟩
  | .hbm, ⟨6, _⟩ => ⟨S10x10, .f32⟩
  | .hbm, ⟨7, _⟩ => ⟨S10, .f32⟩
  | .hbm, ⟨8, _⟩ => ⟨S10x10, .f32⟩
  | .hbm, ⟨9, _⟩ => ⟨S10, .f32⟩
  | .hbm, ⟨10, _⟩ => ⟨S10x5, .f32⟩
  | .hbm, ⟨11, _⟩ => ⟨S5, .f32⟩
  | .hbm, ⟨12, _⟩ => ⟨S5x5, .f32⟩
  | .hbm, ⟨13, _⟩ => ⟨S5, .f32⟩
  | .hbm, ⟨14, _⟩ => ⟨S5x1, .f32⟩
  | .hbm, ⟨15, _⟩ => ⟨S1, .f32⟩
  | .hbm, ⟨16, _⟩ => ⟨S1x3200000, .i32⟩
  | .hbm, ⟨17, _⟩ => ⟨S3200000, .i32⟩
  | .hbm, ⟨18, _⟩ => ⟨S1x3200000, .i32⟩
  | .hbm, ⟨19, _⟩ => ⟨S3200000, .i32⟩
  | .hbm, ⟨20, _⟩ => ⟨S_, .i32⟩
  | .hbm, ⟨21, _⟩ => ⟨S3200000, .i32⟩
  | .hbm, ⟨22, _⟩ => ⟨S3200000, .i1⟩
  | .hbm, ⟨23, _⟩ => ⟨S_, .i32⟩
  | .hbm, ⟨24, _⟩ => ⟨S3200000, .i32⟩
  | .hbm, ⟨25, _⟩ => ⟨S3200000, .i32⟩
  | .hbm, ⟨26, _⟩ => ⟨S3200000, .i32⟩
  | .hbm, ⟨27, _⟩ => ⟨S3200000x1, .i32⟩
  | .hbm, ⟨28, _⟩ => ⟨S1, .i32⟩
  | .hbm, ⟨29, _⟩ => ⟨S_, .i32⟩
  | .hbm, ⟨30, _⟩ => ⟨S3200000x1, .i32⟩
  | .hbm, ⟨31, _⟩ => ⟨S3200000x1, .i1⟩
  | .hbm, ⟨32, _⟩ => ⟨S1x1, .i32⟩
  | .hbm, ⟨33, _⟩ => ⟨S3200000x1, .i32⟩
  | .hbm, ⟨34, _⟩ => ⟨S3200000x1, .i1⟩
  | .hbm, ⟨35, _⟩ => ⟨S3200000x1, .i1⟩
  | .hbm, ⟨36, _⟩ => ⟨S_, .i1⟩
  | .hbm, ⟨37, _⟩ => ⟨S3200000, .i1⟩
  | .hbm, ⟨38, _⟩ => ⟨S3200000x8, .f32⟩
  | .hbm, ⟨39, _⟩ => ⟨S3200000x8, .i1⟩
  | .hbm, ⟨40, _⟩ => ⟨S_, .f32⟩
  | .hbm, ⟨41, _⟩ => ⟨S3200000x8, .f32⟩
  | .hbm, ⟨42, _⟩ => ⟨S3200000x8, .f32⟩
  | .hbm, ⟨43, _⟩ => ⟨S_, .i32⟩
  | .hbm, ⟨44, _⟩ => ⟨S3200000, .i32⟩
  | .hbm, ⟨45, _⟩ => ⟨S3200000, .i1⟩
  | .hbm, ⟨46, _⟩ => ⟨S_, .i32⟩
  | .hbm, ⟨47, _⟩ => ⟨S3200000, .i32⟩
  | .hbm, ⟨48, _⟩ => ⟨S3200000, .i32⟩
  | .hbm, ⟨49, _⟩ => ⟨S3200000, .i32⟩
  | .hbm, ⟨50, _⟩ => ⟨S3200000x1, .i32⟩
  | .hbm, ⟨51, _⟩ => ⟨S1, .i32⟩
  | .hbm, ⟨52, _⟩ => ⟨S_, .i32⟩
  | .hbm, ⟨53, _⟩ => ⟨S3200000x1, .i32⟩
  | .hbm, ⟨54, _⟩ => ⟨S3200000x1, .i1⟩
  | .hbm, ⟨55, _⟩ => ⟨S1x1, .i32⟩
  | .hbm, ⟨56, _⟩ => ⟨S3200000x1, .i32⟩
  | .hbm, ⟨57, _⟩ => ⟨S3200000x1, .i1⟩
  | .hbm, ⟨58, _⟩ => ⟨S3200000x1, .i1⟩
  | .hbm, ⟨59, _⟩ => ⟨S_, .i1⟩
  | .hbm, ⟨60, _⟩ => ⟨S3200000, .i1⟩
  | .hbm, ⟨61, _⟩ => ⟨S3200000x8, .f32⟩
  | .hbm, ⟨62, _⟩ => ⟨S3200000x8, .i1⟩
  | .hbm, ⟨63, _⟩ => ⟨S_, .f32⟩
  | .hbm, ⟨64, _⟩ => ⟨S3200000x8, .f32⟩
  | .hbm, ⟨65, _⟩ => ⟨S3200000x8, .f32⟩
  | .hbm, ⟨66, _⟩ => ⟨S8x10, .f32⟩
  | .hbm, ⟨67, _⟩ => ⟨S8x10, .f32⟩
  | .hbm, ⟨68, _⟩ => ⟨S4x10, .f32⟩
  | .hbm, ⟨69, _⟩ => ⟨S1x10, .f32⟩
  | .hbm, ⟨70, _⟩ => ⟨S3200000x10, .f32⟩
  | .hbm, ⟨71, _⟩ => ⟨S_, .f32⟩
  | .hbm, ⟨72, _⟩ => ⟨S100000x10, .f32⟩
  | .hbm, ⟨73, _⟩ => ⟨S3200000x1, .i32⟩
  | .hbm, ⟨74, _⟩ => ⟨S100000x10, .f32⟩
  | .hbm, ⟨75, _⟩ => ⟨S1x10, .f32⟩
  | .hbm, ⟨76, _⟩ => ⟨S1x10, .f32⟩
  | .hbm, ⟨77, _⟩ => ⟨S1x5, .f32⟩
  | .hbm, ⟨78, _⟩ => ⟨S100000x5, .f32⟩
  | .hbm, ⟨79, _⟩ => ⟨S_, .f32⟩
  | .hbm, ⟨80, _⟩ => ⟨S5000x5, .f32⟩
  | .hbm, ⟨81, _⟩ => ⟨S100000x1, .i32⟩
  | .hbm, ⟨82, _⟩ => ⟨S5000x5, .f32⟩
  | .hbm, ⟨83, _⟩ => ⟨S1x5, .f32⟩
  | .hbm, ⟨84, _⟩ => ⟨S1x1, .f32⟩
  | .hbm, ⟨85, _⟩ => ⟨S5000x1, .f32⟩
  | .local _ .vmem, ⟨0, _⟩ => ⟨S6400x8, .f32⟩
  | .local _ .vmem, ⟨1, _⟩ => ⟨S6400x8, .f32⟩
  | .local _ .vmem, ⟨2, _⟩ => ⟨S6400x8, .f32⟩
  | .local _ .vmem, ⟨3, _⟩ => ⟨S6400x8, .f32⟩
  | .local _ .vmem, ⟨4, _⟩ => ⟨S6400x4, .f32⟩
  | .local _ .vmem, ⟨5, _⟩ => ⟨S6400x4, .f32⟩
  | .local _ .vmem, ⟨6, _⟩ => ⟨S8x10, .f32⟩
  | .local _ .vmem, ⟨7, _⟩ => ⟨S8x10, .f32⟩
  | .local _ .vmem, ⟨8, _⟩ => ⟨S4x10, .f32⟩
  | .local _ .vmem, ⟨9, _⟩ => ⟨S1x10, .f32⟩
  | .local _ .vmem, ⟨10, _⟩ => ⟨S6400x10, .f32⟩
  | .local _ .vmem, ⟨11, _⟩ => ⟨S6400x10, .f32⟩
  | .local _ .vmem, ⟨12, _⟩ => ⟨S10000x10, .f32⟩
  | .local _ .vmem, ⟨13, _⟩ => ⟨S10000x10, .f32⟩
  | .local _ .vmem, ⟨14, _⟩ => ⟨S10x10, .f32⟩
  | .local _ .vmem, ⟨15, _⟩ => ⟨S1x10, .f32⟩
  | .local _ .vmem, ⟨16, _⟩ => ⟨S10x10, .f32⟩
  | .local _ .vmem, ⟨17, _⟩ => ⟨S1x10, .f32⟩
  | .local _ .vmem, ⟨18, _⟩ => ⟨S10x5, .f32⟩
  | .local _ .vmem, ⟨19, _⟩ => ⟨S1x5, .f32⟩
  | .local _ .vmem, ⟨20, _⟩ => ⟨S10000x5, .f32⟩
  | .local _ .vmem, ⟨21, _⟩ => ⟨S10000x5, .f32⟩
  | .local _ .vmem, ⟨22, _⟩ => ⟨S5000x5, .f32⟩
  | .local _ .vmem, ⟨23, _⟩ => ⟨S5x5, .f32⟩
  | .local _ .vmem, ⟨24, _⟩ => ⟨S1x5, .f32⟩
  | .local _ .vmem, ⟨25, _⟩ => ⟨S5x1, .f32⟩
  | .local _ .vmem, ⟨26, _⟩ => ⟨S1x1, .f32⟩
  | .local _ .vmem, ⟨27, _⟩ => ⟨S5000x1, .f32⟩
  | _, _ => ⟨S2x3200000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_call0_c : Ref sig .tc := ⟨.hbm, 20, rfl⟩
abbrev main_call0_v0 : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_c_1 : Ref sig .tc := ⟨.hbm, 28, rfl⟩
abbrev main_call0_c_2 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_c_3 : Ref sig .tc := ⟨.hbm, 36, rfl⟩
abbrev main_call0_v12 : Ref sig .tc := ⟨.hbm, 37, rfl⟩
abbrev main_call0_v13 : Ref sig .tc := ⟨.hbm, 38, rfl⟩
abbrev main_call0_v14 : Ref sig .tc := ⟨.hbm, 39, rfl⟩
abbrev main_call0_cst : Ref sig .tc := ⟨.hbm, 40, rfl⟩
abbrev main_call0_v15 : Ref sig .tc := ⟨.hbm, 41, rfl⟩
abbrev main_v4 : Ref sig .tc := ⟨.hbm, 42, rfl⟩
abbrev main_call1_c : Ref sig .tc := ⟨.hbm, 43, rfl⟩
abbrev main_call1_v0 : Ref sig .tc := ⟨.hbm, 44, rfl⟩
abbrev main_call1_v1 : Ref sig .tc := ⟨.hbm, 45, rfl⟩
abbrev main_call1_c_0 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_v5 : Ref sig .tc := ⟨.hbm, 50, rfl⟩
abbrev main_call1_c_1 : Ref sig .tc := ⟨.hbm, 51, rfl⟩
abbrev main_call1_c_2 : Ref sig .tc := ⟨.hbm, 52, rfl⟩
abbrev main_call1_v6 : Ref sig .tc := ⟨.hbm, 53, rfl⟩
abbrev main_call1_v7 : Ref sig .tc := ⟨.hbm, 54, rfl⟩
abbrev main_call1_v8 : Ref sig .tc := ⟨.hbm, 55, rfl⟩
abbrev main_call1_v9 : Ref sig .tc := ⟨.hbm, 56, rfl⟩
abbrev main_call1_v10 : Ref sig .tc := ⟨.hbm, 57, rfl⟩
abbrev main_call1_v11 : Ref sig .tc := ⟨.hbm, 58, rfl⟩
abbrev main_call1_c_3 : Ref sig .tc := ⟨.hbm, 59, rfl⟩
abbrev main_call1_v12 : Ref sig .tc := ⟨.hbm, 60, rfl⟩
abbrev main_call1_v13 : Ref sig .tc := ⟨.hbm, 61, rfl⟩
abbrev main_call1_v14 : Ref sig .tc := ⟨.hbm, 62, rfl⟩
abbrev main_call1_cst : Ref sig .tc := ⟨.hbm, 63, rfl⟩
abbrev main_call1_v15 : Ref sig .tc := ⟨.hbm, 64, rfl⟩
abbrev main_v5 : Ref sig .tc := ⟨.hbm, 65, rfl⟩
abbrev main_v6 : Ref sig .tc := ⟨.hbm, 66, rfl⟩
abbrev main_v7 : Ref sig .tc := ⟨.hbm, 67, rfl⟩
abbrev main_v8 : Ref sig .tc := ⟨.hbm, 68, rfl⟩
abbrev main_v9 : Ref sig .tc := ⟨.hbm, 69, rfl⟩
abbrev main_v10 : Ref sig .tc := ⟨.hbm, 70, rfl⟩
abbrev main_cst : Ref sig .tc := ⟨.hbm, 71, rfl⟩
abbrev main_v11 : Ref sig .tc := ⟨.hbm, 72, rfl⟩
abbrev main_v12 : Ref sig .tc := ⟨.hbm, 73, rfl⟩
abbrev main_v13 : Ref sig .tc := ⟨.hbm, 74, rfl⟩
abbrev main_v14 : Ref sig .tc := ⟨.hbm, 75, rfl⟩
abbrev main_v15 : Ref sig .tc := ⟨.hbm, 76, rfl⟩
abbrev main_v16 : Ref sig .tc := ⟨.hbm, 77, rfl⟩
abbrev main_v17 : Ref sig .tc := ⟨.hbm, 78, rfl⟩
abbrev main_cst_0 : Ref sig .tc := ⟨.hbm, 79, rfl⟩
abbrev main_v18 : Ref sig .tc := ⟨.hbm, 80, rfl⟩
abbrev main_v19 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_v23 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc2_stg0_0 : Ref sig .tc := ⟨.vmem, 22, rfl⟩
abbrev cc2_stg1_0 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem7_1 : DmaSem sig := 21
abbrev cc2_sem0_0 : DmaSem sig := 22
abbrev cc2_sem1_0 : DmaSem sig := 23
abbrev cc2_sem2_0 : DmaSem sig := 24
abbrev cc2_sem3_0 : DmaSem sig := 25
abbrev cc2_sem4_0 : DmaSem sig := 26
abbrev cc2_sem5_0 : DmaSem sig := 27

abbrev nD : Nat := 1
abbrev τ : Topo := Topo.v7x

variable {F : FTy → Type} [FloatOps F]

abbrev grid0 : Pipeline.Grid := ⟨1, ![500], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x8 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S6400x4 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x10 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x10 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x10 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x10 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S6400x10 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x10 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10x10 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x10 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S10x10 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x10 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S10x5 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x5 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S10000x5 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![1], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S5000x5 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S5x5 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x5 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S5x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S5000x1 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  bcast_S_S3200000x1 : S_.BroadcastsInDim S3200000x1 (![] : Fin 0 → Fin S3200000x1.rank)
  bcast_S1_S1x1_1 : S1.BroadcastsInDim S1x1 (![1] : Fin 1 → Fin S1x1.rank)
  bcast_S1x1_S3200000x1_0_1 : S1x1.BroadcastsInDim S3200000x1 (![0, 1] : Fin 2 → Fin S3200000x1.rank)
  reducesTo_S3200000x1_S3200000_d1 : S3200000x1.ReducesTo [1] S3200000
  h_S_ : 0 < S_.numel
  bcast_S3200000_S3200000x8_0 : S3200000.BroadcastsInDim S3200000x8 (![0] : Fin 1 → Fin S3200000x8.rank)
  bcast_S_S3200000x8 : S_.BroadcastsInDim S3200000x8 (![] : Fin 0 → Fin S3200000x8.rank)
  slices_S20x10_S8x10_0_0 : S20x10.Slices ![0, 0] S8x10
  slices_S20x10_S8x10_8_0 : S20x10.Slices ![8, 0] S8x10
  slices_S20x10_S4x10_16_0 : S20x10.Slices ![16, 0] S4x10
  shapeCasts_S10_S1x10 : S10.ShapeCasts S1x10
  inb_S6400x8_S6400x8_0_0 : ∀ a, (![0, 0] : Fin 2 → Nat) a + S6400x8.size a ≤ S6400x8.size a
  h_S6400x8 : 0 < S6400x8.numel
  shapeCasts_S6400x8_S6400x8 : S6400x8.ShapeCasts S6400x8
  bitsLt_bf16_f32 : FTy.bits .bf16 < FTy.bits .f32
  inb_S6400x4_S6400x4_0_0 : ∀ a, (![0, 0] : Fin 2 → Nat) a + S6400x4.size a ≤ S6400x4.size a
  h_S6400x4 : 0 < S6400x4.numel
  inb_S8x10_S8x10_0_0 : ∀ a, (![0, 0] : Fin 2 → Nat) a + S8x10.size a ≤ S8x10.size a
  h_S8x10 : 0 < S8x10.numel
  shapeCasts_S8x10_S8x10 : S8x10.ShapeCasts S8x10
  inb_S4x10_S4x10_0_0 : ∀ a, (![0, 0] : Fin 2 → Nat) a + S4x10.size a ≤ S4x10.size a
  h_S4x10 : 0 < S4x10.numel
  shapeCasts_S4x10_S4x10 : S4x10.ShapeCasts S4x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S6400x10 : S1x10.Broadcasts S6400x10
  inb_S6400x10_S6400x10_0_0 : ∀ a, (![0, 0] : Fin 2 → Nat) a + S6400x10.size a ≤ S6400x10.size a
  h_S6400x10 : 0 < S6400x10.numel
  bcast_S_S100000x10 : S_.BroadcastsInDim S100000x10 (![] : Fin 0 → Fin S100000x10.rank)
  shapeCasts_S5_S1x5 : S5.ShapeCasts S1x5
  inb_S10000x10_S10000x10_0_0 : ∀ a, (![0, 0] : Fin 2 → Nat) a + S10000x10.size a ≤ S10000x10.size a
  h_S10000x10 : 0 < S10000x10.numel
  shapeCasts_S10000x10_S10000x10 : S10000x10.ShapeCasts S10000x10
  inb_S10x10_S10x10_0_0 : ∀ a, (![0, 0] : Fin 2 → Nat) a + S10x10.size a ≤ S10x10.size a
  h_S10x10 : 0 < S10x10.numel
  broadcasts_S1x10_S10000x10 : S1x10.Broadcasts S10000x10
  inb_S10x5_S10x5_0_0 : ∀ a, (![0, 0] : Fin 2 → Nat) a + S10x5.size a ≤ S10x5.size a
  h_S10x5 : 0 < S10x5.numel
  inb_S1x5_S1x5_0_0 : ∀ a, (![0, 0] : Fin 2 → Nat) a + S1x5.size a ≤ S1x5.size a
  h_S1x5 : 0 < S1x5.numel
  shapeCasts_S1x5_S1x5 : S1x5.ShapeCasts S1x5
  broadcasts_S1x5_S10000x5 : S1x5.Broadcasts S10000x5
  inb_S10000x5_S10000x5_0_0 : ∀ a, (![0, 0] : Fin 2 → Nat) a + S10000x5.size a ≤ S10000x5.size a
  h_S10000x5 : 0 < S10000x5.numel
  bcast_S_S5000x5 : S_.BroadcastsInDim S5000x5 (![] : Fin 0 → Fin S5000x5.rank)
  bcast_S100000_S100000x1_0 : S100000.BroadcastsInDim S100000x1 (![0] : Fin 1 → Fin S100000x1.rank)
  shapeCasts_S1_S1x1 : S1.ShapeCasts S1x1
  inb_S5000x5_S5000x5_0_0 : ∀ a, (![0, 0] : Fin 2 → Nat) a + S5000x5.size a ≤ S5000x5.size a
  h_S5000x5 : 0 < S5000x5.numel
  shapeCasts_S5000x5_S5000x5 : S5000x5.ShapeCasts S5000x5
  inb_S5x5_S5x5_0_0 : ∀ a, (![0, 0] : Fin 2 → Nat) a + S5x5.size a ≤ S5x5.size a
  h_S5x5 : 0 < S5x5.numel
  broadcasts_S1x5_S5000x5 : S1x5.Broadcasts S5000x5
  inb_S5x1_S5x1_0_0 : ∀ a, (![0, 0] : Fin 2 → Nat) a + S5x1.size a ≤ S5x1.size a
  h_S5x1 : 0 < S5x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  gather_S100000x8_S3200000x1_S3200000x8_1_0_n_n_0_1_18_wf : GatherDims.WF S100000x8 S3200000x1 S3200000x8 [1] [0] [] [0] [] 1 ![1, 8]
  dot_S6400x8_S8x10_S6400x10_1_0_0_1_n_n_wf : DotDims.WF S6400x8 S8x10 S6400x10 [1] [0] [0] [1] [] []
  dot_S6400x4_S4x10_S6400x10_1_0_0_1_n_n_wf : DotDims.WF S6400x4 S4x10 S6400x10 [1] [0] [0] [1] [] []
  scatter_S100000x10_S3200000x1_S3200000x10_1_0_0_1_wf : ScatterDims.WF S100000x10 S3200000x1 S3200000x10 [1] [0] [0] 1
  dot_S10000x10_S10x10_S10000x10_1_0_0_1_n_n_wf : DotDims.WF S10000x10 S10x10 S10000x10 [1] [0] [0] [1] [] []
  dot_S10000x10_S10x5_S10000x5_1_0_0_1_n_n_wf : DotDims.WF S10000x10 S10x5 S10000x5 [1] [0] [0] [1] [] []
  scatter_S5000x5_S100000x1_S100000x5_1_0_0_1_wf : ScatterDims.WF S5000x5 S100000x1 S100000x5 [1] [0] [0] 1
  dot_S5000x5_S5x5_S5000x5_1_0_0_1_n_n_wf : DotDims.WF S5000x5 S5x5 S5000x5 [1] [0] [0] [1] [] []
  dot_S5000x5_S5x1_S5000x1_1_0_0_1_n_n_wf : DotDims.WF S5000x5 S5x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x8.size a ≤ S3200000x8.size a
  hwx0_0 : ∀ i : grid0.Coords, EltTy.bits .f32 = 32 ∨ (Rect.block (s := S3200000x8) S6400x8.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x8.size a ≤ S3200000x8.size a
  hwx0_1 : ∀ i : grid0.Coords, EltTy.bits .f32 = 32 ∨ (Rect.block (s := S3200000x8) S6400x8.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S6400x4.size a ≤ S3200000x4.size a
  hwx0_2 : ∀ i : grid0.Coords, EltTy.bits .f32 = 32 ∨ (Rect.block (s := S3200000x4) S6400x4.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x10.size a ≤ S8x10.size a
  hwx0_3 : ∀ i : grid0.Coords, EltTy.bits .f32 = 32 ∨ (Rect.block (s := S8x10) S8x10.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S8x10.size a ≤ S8x10.size a
  hwx0_4 : ∀ i : grid0.Coords, EltTy.bits .f32 = 32 ∨ (Rect.block (s := S8x10) S8x10.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S4x10.size a ≤ S4x10.size a
  hwx0_5 : ∀ i : grid0.Coords, EltTy.bits .f32 = 32 ∨ (Rect.block (s := S4x10) S4x10.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x10.size a ≤ S1x10.size a
  hwx0_6 : ∀ i : grid0.Coords, EltTy.bits .f32 = 32 ∨ (Rect.block (s := S1x10) S1x10.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S6400x10.size a ≤ S3200000x10.size a
  hwx0_7 : ∀ i : grid0.Coords, EltTy.bits .f32 = 32 ∨ (Rect.block (s := S3200000x10) S6400x10.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x10.size a ≤ S100000x10.size a
  hwx1_0 : ∀ i : grid1.Coords, EltTy.bits .f32 = 32 ∨ (Rect.block (s := S100000x10) S10000x10.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10x10.size a ≤ S10x10.size a
  hwx1_1 : ∀ i : grid1.Coords, EltTy.bits .f32 = 32 ∨ (Rect.block (s := S10x10) S10x10.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x10.size a ≤ S1x10.size a
  hwx1_2 : ∀ i : grid1.Coords, EltTy.bits .f32 = 32 ∨ (Rect.block (s := S1x10) S1x10.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S10x10.size a ≤ S10x10.size a
  hwx1_3 : ∀ i : grid1.Coords, EltTy.bits .f32 = 32 ∨ (Rect.block (s := S10x10) S10x10.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x10.size a ≤ S1x10.size a
  hwx1_4 : ∀ i : grid1.Coords, EltTy.bits .f32 = 32 ∨ (Rect.block (s := S1x10) S1x10.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S10x5.size a ≤ S10x5.size a
  hwx1_5 : ∀ i : grid1.Coords, EltTy.bits .f32 = 32 ∨ (Rect.block (s := S10x5) S10x5.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x5.size a ≤ S1x5.size a
  hwx1_6 : ∀ i : grid1.Coords, EltTy.bits .f32 = 32 ∨ (Rect.block (s := S1x5) S1x5.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S10000x5.size a ≤ S100000x5.size a
  hwx1_7 : ∀ i : grid1.Coords, EltTy.bits .f32 = 32 ∨ (Rect.block (s := S100000x5) S10000x5.size (cc1_transform_7 i) (hinb1_7 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S5000x5.size a ≤ S5000x5.size a
  hwx2_0 : ∀ i : grid2.Coords, EltTy.bits .f32 = 32 ∨ (Rect.block (s := S5000x5) S5000x5.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S5x5.size a ≤ S5x5.size a
  hwx2_1 : ∀ i : grid2.Coords, EltTy.bits .f32 = 32 ∨ (Rect.block (s := S5x5) S5x5.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x5.size a ≤ S1x5.size a
  hwx2_2 : ∀ i : grid2.Coords, EltTy.bits .f32 = 32 ∨ (Rect.block (s := S1x5) S1x5.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S5x1.size a ≤ S5x1.size a
  hwx2_3 : ∀ i : grid2.Coords, EltTy.bits .f32 = 32 ∨ (Rect.block (s := S5x1) S5x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1.size a ≤ S1x1.size a
  hwx2_4 : ∀ i : grid2.Coords, EltTy.bits .f32 = 32 ∨ (Rect.block (s := S1x1) S1x1.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S5000x1.size a ≤ S5000x1.size a
  hwx2_5 : ∀ i : grid2.Coords, EltTy.bits .f32 = 32 ∨ (Rect.block (s := S5000x1) S5000x1.size (cc2_transform_5 i) (hinb2_5 i)).WholeWords (EltTy.packing .f32)

variable [Facts₀]

def gather_S100000x8_S3200000x1_S3200000x8_1_0_n_n_0_1_18 : GatherDims S100000x8 S3200000x1 S3200000x8 where
  offsetDims := [1]
  collapsedSliceDims := [0]
  operandBatchingDims := []
  startIndicesBatchingDims := []
  startIndexMap := [0]
  indexVectorDim := 1
  sliceSizes := ![1, 8]
  wf := gather_S100000x8_S3200000x1_S3200000x8_1_0_n_n_0_1_18_wf
def dot_S6400x8_S8x10_S6400x10_1_0_0_1_n_n : DotDims S6400x8 S8x10 S6400x10 where
  lhsContracting := [1]
  rhsContracting := [0]
  lhsNonContracting := [0]
  rhsNonContracting := [1]
  lhsBatch := []
  rhsBatch := []
  wf := dot_S6400x8_S8x10_S6400x10_1_0_0_1_n_n_wf
def dot_S6400x4_S4x10_S6400x10_1_0_0_1_n_n : DotDims S6400x4 S4x10 S6400x10 where
  lhsContracting := [1]
  rhsContracting := [0]
  lhsNonContracting := [0]
  rhsNonContracting := [1]
  lhsBatch := []
  rhsBatch := []
  wf := dot_S6400x4_S4x10_S6400x10_1_0_0_1_n_n_wf
def scatter_S100000x10_S3200000x1_S3200000x10_1_0_0_1 : ScatterDims S100000x10 S3200000x1 S3200000x10 where
  updateWindowDims := [1]
  insertedWindowDims := [0]
  scatterDimsToOperandDims := [0]
  indexVectorDim := 1
  wf := scatter_S100000x10_S3200000x1_S3200000x10_1_0_0_1_wf
def dot_S10000x10_S10x10_S10000x10_1_0_0_1_n_n : DotDims S10000x10 S10x10 S10000x10 where
  lhsContracting := [1]
  rhsContracting := [0]
  lhsNonContracting := [0]
  rhsNonContracting := [1]
  lhsBatch := []
  rhsBatch := []
  wf := dot_S10000x10_S10x10_S10000x10_1_0_0_1_n_n_wf
def dot_S10000x10_S10x5_S10000x5_1_0_0_1_n_n : DotDims S10000x10 S10x5 S10000x5 where
  lhsContracting := [1]
  rhsContracting := [0]
  lhsNonContracting := [0]
  rhsNonContracting := [1]
  lhsBatch := []
  rhsBatch := []
  wf := dot_S10000x10_S10x5_S10000x5_1_0_0_1_n_n_wf
def scatter_S5000x5_S100000x1_S100000x5_1_0_0_1 : ScatterDims S5000x5 S100000x1 S100000x5 where
  updateWindowDims := [1]
  insertedWindowDims := [0]
  scatterDimsToOperandDims := [0]
  indexVectorDim := 1
  wf := scatter_S5000x5_S100000x1_S100000x5_1_0_0_1_wf
def dot_S5000x5_S5x5_S5000x5_1_0_0_1_n_n : DotDims S5000x5 S5x5 S5000x5 where
  lhsContracting := [1]
  rhsContracting := [0]
  lhsNonContracting := [0]
  rhsNonContracting := [1]
  lhsBatch := []
  rhsBatch := []
  wf := dot_S5000x5_S5x5_S5000x5_1_0_0_1_n_n_wf
def dot_S5000x5_S5x1_S5000x1_1_0_0_1_n_n : DotDims S5000x5 S5x1 S5000x1 where
  lhsContracting := [1]
  rhsContracting := [0]
  lhsNonContracting := [0]
  rhsNonContracting := [1]
  lhsBatch := []
  rhsBatch := []
  wf := dot_S5000x5_S5x1_S5000x1_1_0_0_1_n_n_wf

abbrev win0_0 : Pipeline.Window sig grid0 :=
  Pipeline.Window.ofSpec (Memref.whole main_v4) S6400x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S6400x8.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S6400x4.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S8x10.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S8x10.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S4x10.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9) S1x10.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10) S6400x10.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v13) S10000x10.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg6) S10x10.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v14) S1x10.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S10x10.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v15) S1x10.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg10) S10x5.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v16) S1x5.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v17) S10000x5.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v20) S5000x5.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg12) S5x5.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v21) S1x5.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg14) S5x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v22) S1x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v23) S5000x1.size cc2_transform_5 reads2_5 true true 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S2x3200000 : Shape := ⟨2, ![2, 3200000]⟩
abbrev S100000x8 : Shape := ⟨2, ![100000, 8]⟩
abbrev S3200000x4 : Shape := ⟨2, ![3200000, 4]⟩
abbrev S100000 : Shape := ⟨1, ![100000]⟩
abbrev S20x10 : Shape := ⟨2, ![20, 10]⟩
abbrev S10 : Shape := ⟨1, ![10]⟩
abbrev S10x10 : Shape := ⟨2, ![10, 10]⟩
abbrev S10x5 : Shape := ⟨2, ![10, 5]⟩
abbrev S5 : Shape := ⟨1, ![5]⟩
abbrev S5x5 : Shape := ⟨2, ![5, 5]⟩
abbrev S5x1 : Shape := ⟨2, ![5, 1]⟩
abbrev S1 : Shape := ⟨1, ![1]⟩
abbrev S1x3200000 : Shape := ⟨2, ![1, 3200000]⟩
abbrev S3200000 : Shape := ⟨1, ![3200000]⟩
abbrev S_ : Shape := ⟨0, ![]⟩
abbrev S3200000x1 : Shape := ⟨2, ![3200000, 1]⟩
abbrev S3200000x8 : Shape := ⟨2, ![3200000, 8]⟩
abbrev S3200000x20 : Shape := ⟨2, ![3200000, 20]⟩
abbrev S3200000x10 : Shape := ⟨2, ![3200000, 10]⟩
abbrev S1x10 : Shape := ⟨2, ![1, 10]⟩
abbrev S100000x10 : Shape := ⟨2, ![100000, 10]⟩
abbrev S100000x5 : Shape := ⟨2, ![100000, 5]⟩
abbrev S1x5 : Shape := ⟨2, ![1, 5]⟩
abbrev S5000x5 : Shape := ⟨2, ![5000, 5]⟩
abbrev S100000x1 : Shape := ⟨2, ![100000, 1]⟩
abbrev S5000x1 : Shape := ⟨2, ![5000, 1]⟩
abbrev S1x1 : Shape := ⟨2, ![1, 1]⟩

abbrev nBuf : Space → Nat
  | .hbm => 86
  | .vmem => 0
  | .smem => 0
  | _ => 0

abbrev bufTy : (tb : Table) → Fin (tcTables nBuf tb) → BufTy
  | .hbm, ⟨0, _⟩ => ⟨S2x3200000, .i32⟩
  | .hbm, ⟨1, _⟩ => ⟨S100000x8, .f32⟩
  | .hbm, ⟨2, _⟩ => ⟨S3200000x4, .f32⟩
  | .hbm, ⟨3, _⟩ => ⟨S100000, .i32⟩
  | .hbm, ⟨4, _⟩ => ⟨S20x10, .f32⟩
  | .hbm, ⟨5, _⟩ => ⟨S10, .f32⟩
  | .hbm, ⟨6, _⟩ => ⟨S10x10, .f32⟩
  | .hbm, ⟨7, _⟩ => ⟨S10, .f32⟩
  | .hbm, ⟨8, _⟩ => ⟨S10x10, .f32⟩
  | .hbm, ⟨9, _⟩ => ⟨S10, .f32⟩
  | .hbm, ⟨10, _⟩ => ⟨S10x5, .f32⟩
  | .hbm, ⟨11, _⟩ => ⟨S5, .f32⟩
  | .hbm, ⟨12, _⟩ => ⟨S5x5, .f32⟩
  | .hbm, ⟨13, _⟩ => ⟨S5, .f32⟩
  | .hbm, ⟨14, _⟩ => ⟨S5x1, .f32⟩
  | .hbm, ⟨15, _⟩ => ⟨S1, .f32⟩
  | .hbm, ⟨16, _⟩ => ⟨S1x3200000, .i32⟩
  | .hbm, ⟨17, _⟩ => ⟨S3200000, .i32⟩
  | .hbm, ⟨18, _⟩ => ⟨S1x3200000, .i32⟩
  | .hbm, ⟨19, _⟩ => ⟨S3200000, .i32⟩
  | .hbm, ⟨20, _⟩ => ⟨S_, .i32⟩
  | .hbm, ⟨21, _⟩ => ⟨S3200000, .i32⟩
  | .hbm, ⟨22, _⟩ => ⟨S3200000, .i1⟩
  | .hbm, ⟨23, _⟩ => ⟨S_, .i32⟩
  | .hbm, ⟨24, _⟩ => ⟨S3200000, .i32⟩
  | .hbm, ⟨25, _⟩ => ⟨S3200000, .i32⟩
  | .hbm, ⟨26, _⟩ => ⟨S3200000, .i32⟩
  | .hbm, ⟨27, _⟩ => ⟨S3200000x1, .i32⟩
  | .hbm, ⟨28, _⟩ => ⟨S3200000x8, .f32⟩
  | .hbm, ⟨29, _⟩ => ⟨S_, .i32⟩
  | .hbm, ⟨30, _⟩ => ⟨S3200000, .i32⟩
  | .hbm, ⟨31, _⟩ => ⟨S3200000, .i1⟩
  | .hbm, ⟨32, _⟩ => ⟨S_, .i32⟩
  | .hbm, ⟨33, _⟩ => ⟨S3200000, .i32⟩
  | .hbm, ⟨34, _⟩ => ⟨S3200000, .i32⟩
  | .hbm, ⟨35, _⟩ => ⟨S3200000, .i32⟩
  | .hbm, ⟨36, _⟩ => ⟨S3200000x1, .i32⟩
  | .hbm, ⟨37, _⟩ => ⟨S3200000x8, .f32⟩
  | .hbm, ⟨38, _⟩ => ⟨S3200000x20, .f32⟩
  | .hbm, ⟨39, _⟩ => ⟨S3200000x10, .f32⟩
  | .hbm, ⟨40, _⟩ => ⟨S1x10, .f32⟩
  | .hbm, ⟨41, _⟩ => ⟨S3200000x10, .f32⟩
  | .hbm, ⟨42, _⟩ => ⟨S3200000x10, .f32⟩
  | .hbm, ⟨43, _⟩ => ⟨S_, .f32⟩
  | .hbm, ⟨44, _⟩ => ⟨S3200000x10, .f32⟩
  | .hbm, ⟨45, _⟩ => ⟨S3200000x10, .f32⟩
  | .hbm, ⟨46, _⟩ => ⟨S_, .f32⟩
  | .hbm, ⟨47, _⟩ => ⟨S100000x10, .f32⟩
  | .hbm, ⟨48, _⟩ => ⟨S3200000x1, .i32⟩
  | .hbm, ⟨49, _⟩ => ⟨S100000x10, .f32⟩
  | .hbm, ⟨50, _⟩ => ⟨S100000x10, .f32⟩
  | .hbm, ⟨51, _⟩ => ⟨S1x10, .f32⟩
  | .hbm, ⟨52, _⟩ => ⟨S100000x10, .f32⟩
  | .hbm, ⟨53, _⟩ => ⟨S100000x10, .f32⟩
  | .hbm, ⟨54, _⟩ => ⟨S_, .f32⟩
  | .hbm, ⟨55, _⟩ => ⟨S100000x10, .f32⟩
  | .hbm, ⟨56, _⟩ => ⟨S100000x10, .f32⟩
  | .hbm, ⟨57, _⟩ => ⟨S100000x10, .f32⟩
  | .hbm, ⟨58, _⟩ => ⟨S1x10, .f32⟩
  | .hbm, ⟨59, _⟩ => ⟨S100000x10, .f32⟩
  | .hbm, ⟨60, _⟩ => ⟨S100000x10, .f32⟩
  | .hbm, ⟨61, _⟩ => ⟨S_, .f32⟩
  | .hbm, ⟨62, _⟩ => ⟨S100000x10, .f32⟩
  | .hbm, ⟨63, _⟩ => ⟨S100000x10, .f32⟩
  | .hbm, ⟨64, _⟩ => ⟨S100000x5, .f32⟩
  | .hbm, ⟨65, _⟩ => ⟨S1x5, .f32⟩
  | .hbm, ⟨66, _⟩ => ⟨S100000x5, .f32⟩
  | .hbm, ⟨67, _⟩ => ⟨S100000x5, .f32⟩
  | .hbm, ⟨68, _⟩ => ⟨S_, .f32⟩
  | .hbm, ⟨69, _⟩ => ⟨S100000x5, .f32⟩
  | .hbm, ⟨70, _⟩ => ⟨S100000x5, .f32⟩
  | .hbm, ⟨71, _⟩ => ⟨S_, .f32⟩
  | .hbm, ⟨72, _⟩ => ⟨S5000x5, .f32⟩
  | .hbm, ⟨73, _⟩ => ⟨S100000x1, .i32⟩
  | .hbm, ⟨74, _⟩ => ⟨S5000x5, .f32⟩
  | .hbm, ⟨75, _⟩ => ⟨S5000x5, .f32⟩
  | .hbm, ⟨76, _⟩ => ⟨S1x5, .f32⟩
  | .hbm, ⟨77, _⟩ => ⟨S5000x5, .f32⟩
  | .hbm, ⟨78, _⟩ => ⟨S5000x5, .f32⟩
  | .hbm, ⟨79, _⟩ => ⟨S_, .f32⟩
  | .hbm, ⟨80, _⟩ => ⟨S5000x5, .f32⟩
  | .hbm, ⟨81, _⟩ => ⟨S5000x5, .f32⟩
  | .hbm, ⟨82, _⟩ => ⟨S5000x1, .f32⟩
  | .hbm, ⟨83, _⟩ => ⟨S1x1, .f32⟩
  | .hbm, ⟨84, _⟩ => ⟨S5000x1, .f32⟩
  | .hbm, ⟨85, _⟩ => ⟨S5000x1, .f32⟩
  | _, _ => ⟨S2x3200000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_c : Ref sig .tc := ⟨.hbm, 20, rfl⟩
abbrev main_v4 : Ref sig .tc := ⟨.hbm, 21, rfl⟩
abbrev main_v5 : Ref sig .tc := ⟨.hbm, 22, rfl⟩
abbrev main_c_0 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_c_1 : Ref sig .tc := ⟨.hbm, 29, rfl⟩
abbrev main_v11 : Ref sig .tc := ⟨.hbm, 30, rfl⟩
abbrev main_v12 : Ref sig .tc := ⟨.hbm, 31, rfl⟩
abbrev main_c_2 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_call0_cst : Ref sig .tc := ⟨.hbm, 43, rfl⟩
abbrev main_call0_v0 : Ref sig .tc := ⟨.hbm, 44, rfl⟩
abbrev main_v23 : Ref sig .tc := ⟨.hbm, 45, rfl⟩
abbrev main_cst : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_call1_cst : Ref sig .tc := ⟨.hbm, 54, rfl⟩
abbrev main_call1_v0 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_call2_cst : Ref sig .tc := ⟨.hbm, 61, rfl⟩
abbrev main_call2_v0 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_call3_cst : Ref sig .tc := ⟨.hbm, 68, rfl⟩
abbrev main_call3_v0 : Ref sig .tc := ⟨.hbm, 69, rfl⟩
abbrev main_v41 : Ref sig .tc := ⟨.hbm, 70, rfl⟩
abbrev main_cst_3 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_call4_cst : Ref sig .tc := ⟨.hbm, 79, rfl⟩
abbrev main_call4_v0 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  bcast_S_S3200000 : S_.BroadcastsInDim S3200000 (![] : Fin 0 → Fin S3200000.rank)
  bcast_S3200000_S3200000x1_0 : S3200000.BroadcastsInDim S3200000x1 (![0] : Fin 1 → Fin S3200000x1.rank)
  concatenates_S3200000x8_S3200000x8_S3200000x4_S3200000x20_d1 : Shape.Concatenates [S3200000x8, S3200000x8, S3200000x4] S3200000x20 1
  bcast_S10_S1x10_1 : S10.BroadcastsInDim S1x10 (![1] : Fin 1 → Fin S1x10.rank)
  bcast_S1x10_S3200000x10_0_1 : S1x10.BroadcastsInDim S3200000x10 (![0, 1] : Fin 2 → Fin S3200000x10.rank)
  bcast_S_S3200000x10 : S_.BroadcastsInDim S3200000x10 (![] : Fin 0 → Fin S3200000x10.rank)
  bcast_S_S100000x10 : S_.BroadcastsInDim S100000x10 (![] : Fin 0 → Fin S100000x10.rank)
  bcast_S1x10_S100000x10_0_1 : S1x10.BroadcastsInDim S100000x10 (![0, 1] : Fin 2 → Fin S100000x10.rank)
  bcast_S5_S1x5_1 : S5.BroadcastsInDim S1x5 (![1] : Fin 1 → Fin S1x5.rank)
  bcast_S1x5_S100000x5_0_1 : S1x5.BroadcastsInDim S100000x5 (![0, 1] : Fin 2 → Fin S100000x5.rank)
  bcast_S_S100000x5 : S_.BroadcastsInDim S100000x5 (![] : Fin 0 → Fin S100000x5.rank)
  bcast_S_S5000x5 : S_.BroadcastsInDim S5000x5 (![] : Fin 0 → Fin S5000x5.rank)
  bcast_S100000_S100000x1_0 : S100000.BroadcastsInDim S100000x1 (![0] : Fin 1 → Fin S100000x1.rank)
  bcast_S1x5_S5000x5_0_1 : S1x5.BroadcastsInDim S5000x5 (![0, 1] : Fin 2 → Fin S5000x5.rank)
  bcast_S1_S1x1_1 : S1.BroadcastsInDim S1x1 (![1] : Fin 1 → Fin S1x1.rank)
  bcast_S1x1_S5000x1_0_1 : S1x1.BroadcastsInDim S5000x1 (![0, 1] : Fin 2 → Fin S5000x1.rank)
  gather_S100000x8_S3200000x1_S3200000x8_1_0_n_n_0_1_18_wf : GatherDims.WF S100000x8 S3200000x1 S3200000x8 [1] [0] [] [0] [] 1 ![1, 8]
  dot_S3200000x20_S20x10_S3200000x10_1_0_0_1_n_n_wf : DotDims.WF S3200000x20 S20x10 S3200000x10 [1] [0] [0] [1] [] []
  scatter_S100000x10_S3200000x1_S3200000x10_1_0_0_1_wf : ScatterDims.WF S100000x10 S3200000x1 S3200000x10 [1] [0] [0] 1
  dot_S100000x10_S10x10_S100000x10_1_0_0_1_n_n_wf : DotDims.WF S100000x10 S10x10 S100000x10 [1] [0] [0] [1] [] []
  dot_S100000x10_S10x5_S100000x5_1_0_0_1_n_n_wf : DotDims.WF S100000x10 S10x5 S100000x5 [1] [0] [0] [1] [] []
  scatter_S5000x5_S100000x1_S100000x5_1_0_0_1_wf : ScatterDims.WF S5000x5 S100000x1 S100000x5 [1] [0] [0] 1
  dot_S5000x5_S5x5_S5000x5_1_0_0_1_n_n_wf : DotDims.WF S5000x5 S5x5 S5000x5 [1] [0] [0] [1] [] []
  dot_S5000x5_S5x1_S5000x1_1_0_0_1_n_n_wf : DotDims.WF S5000x5 S5x1 S5000x1 [1] [0] [0] [1] [] []

variable [Facts₀]

def gather_S100000x8_S3200000x1_S3200000x8_1_0_n_n_0_1_18 : GatherDims S100000x8 S3200000x1 S3200000x8 where
  offsetDims := [1]
  collapsedSliceDims := [0]
  operandBatchingDims := []
  startIndicesBatchingDims := []
  startIndexMap := [0]
  indexVectorDim := 1
  sliceSizes := ![1, 8]
  wf := gather_S100000x8_S3200000x1_S3200000x8_1_0_n_n_0_1_18_wf
def dot_S3200000x20_S20x10_S3200000x10_1_0_0_1_n_n : DotDims S3200000x20 S20x10 S3200000x10 where
  lhsContracting := [1]
  rhsContracting := [0]
  lhsNonContracting := [0]
  rhsNonContracting := [1]
  lhsBatch := []
  rhsBatch := []
  wf := dot_S3200000x20_S20x10_S3200000x10_1_0_0_1_n_n_wf
def scatter_S100000x10_S3200000x1_S3200000x10_1_0_0_1 : ScatterDims S100000x10 S3200000x1 S3200000x10 where
  updateWindowDims := [1]
  insertedWindowDims := [0]
  scatterDimsToOperandDims := [0]
  indexVectorDim := 1
  wf := scatter_S100000x10_S3200000x1_S3200000x10_1_0_0_1_wf
def dot_S100000x10_S10x10_S100000x10_1_0_0_1_n_n : DotDims S100000x10 S10x10 S100000x10 where
  lhsContracting := [1]
  rhsContracting := [0]
  lhsNonContracting := [0]
  rhsNonContracting := [1]
  lhsBatch := []
  rhsBatch := []
  wf := dot_S100000x10_S10x10_S100000x10_1_0_0_1_n_n_wf
def dot_S100000x10_S10x5_S100000x5_1_0_0_1_n_n : DotDims S100000x10 S10x5 S100000x5 where
  lhsContracting := [1]
  rhsContracting := [0]
  lhsNonContracting := [0]
  rhsNonContracting := [1]
  lhsBatch := []
  rhsBatch := []
  wf := dot_S100000x10_S10x5_S100000x5_1_0_0_1_n_n_wf
def scatter_S5000x5_S100000x1_S100000x5_1_0_0_1 : ScatterDims S5000x5 S100000x1 S100000x5 where
  updateWindowDims := [1]
  insertedWindowDims := [0]
  scatterDimsToOperandDims := [0]
  indexVectorDim := 1
  wf := scatter_S5000x5_S100000x1_S100000x5_1_0_0_1_wf
def dot_S5000x5_S5x5_S5000x5_1_0_0_1_n_n : DotDims S5000x5 S5x5 S5000x5 where
  lhsContracting := [1]
  rhsContracting := [0]
  lhsNonContracting := [0]
  rhsNonContracting := [1]
  lhsBatch := []
  rhsBatch := []
  wf := dot_S5000x5_S5x5_S5000x5_1_0_0_1_n_n_wf
def dot_S5000x5_S5x1_S5000x1_1_0_0_1_n_n : DotDims S5000x5 S5x1 S5000x1 where
  lhsContracting := [1]
  rhsContracting := [0]
  lhsNonContracting := [0]
  rhsNonContracting := [1]
  lhsBatch := []
  rhsBatch := []
  wf := dot_S5000x5_S5x1_S5000x1_1_0_0_1_n_n_wf

class Facts : Prop extends Facts₀ where

variable [Facts]
-- ==== Proof.Windows.lean ====
/-
  Which buffer of the program each window of each pipelined region stages: the operands of the three calls in the order
  the program passes them, the last window of each the call's result.
-/
import proofs.«421814_j64630667870280_2_alg».proof.Proof.Gen.KernelIdeal.Launch

namespace Cert.KernelIdeal.Windows

open Idealize.ShloMosaic Cert.KernelIdeal Cert.KernelIdeal.Gen

theorem arr0_0 : Pipeline.arrRef spec0 0 = main_v4 := rfl
theorem arr0_1 : Pipeline.arrRef spec0 1 = main_v5 := rfl
theorem arr0_2 : Pipeline.arrRef spec0 2 = main_arg2 := rfl
theorem arr0_3 : Pipeline.arrRef spec0 3 = main_v6 := rfl
theorem arr0_4 : Pipeline.arrRef spec0 4 = main_v7 := rfl
theorem arr0_5 : Pipeline.arrRef spec0 5 = main_v8 := rfl
theorem arr0_6 : Pipeline.arrRef spec0 6 = main_v9 := rfl
theorem arr0_7 : Pipeline.arrRef spec0 7 = main_v10 := rfl
theorem arr1_0 : Pipeline.arrRef spec1 0 = main_v13 := rfl
theorem arr1_1 : Pipeline.arrRef spec1 1 = main_arg6 := rfl
theorem arr1_2 : Pipeline.arrRef spec1 2 = main_v14 := rfl
theorem arr1_3 : Pipeline.arrRef spec1 3 = main_arg8 := rfl
theorem arr1_4 : Pipeline.arrRef spec1 4 = main_v15 := rfl
theorem arr1_5 : Pipeline.arrRef spec1 5 = main_arg10 := rfl
theorem arr1_6 : Pipeline.arrRef spec1 6 = main_v16 := rfl
theorem arr1_7 : Pipeline.arrRef spec1 7 = main_v17 := rfl
theorem arr2_0 : Pipeline.arrRef spec2 0 = main_v20 := rfl
theorem arr2_1 : Pipeline.arrRef spec2 1 = main_arg12 := rfl
theorem arr2_2 : Pipeline.arrRef spec2 2 = main_v21 := rfl
theorem arr2_3 : Pipeline.arrRef spec2 3 = main_arg14 := rfl
theorem arr2_4 : Pipeline.arrRef spec2 4 = main_v22 := rfl
theorem arr2_5 : Pipeline.arrRef spec2 5 = main_v23 := rfl

end Cert.KernelIdeal.Windows
-- ==== Proof.KernelHost.lean ====
/-
  What each pipelined region finds in the arrays it reads, as whole-array terms of the arrays the program was launched
  with.  Between the regions the program only gathers, slices, reshapes and scatter-adds whole arrays, so each array a
  region reads is one such operation applied to launch arrays or to the region before's output.
  The two gathered arrays need the index range.  The program wraps a negative index i to i + 100000, gathers the row
  at the wrapped index, and keeps the gathered row only where the wrapped index w satisfies 0 <= w <= 99999, filling the
  row otherwise.  For -100000 <= i < 100000 the wrapped index is i + 100000 in [0, 100000) when i < 0 and i itself in
  [0, 100000) otherwise, so the test holds at every edge and the array is the plain gather at the wrapped indices.
-/
import proofs.«421814_j64630667870280_2_alg».proof.Proof.Gen.KernelIdeal.Frame
import proofs.«421814_j64630667870280_2_alg».proof.Proof.Gen.Pre_finite_inputs
import proofs.«421814_j64630667870280_2_alg».proof.Proof.Windows
import Idealize.ShloMosaic.Lib.StableHlo.Run
import Idealize.ShloMosaic.Lib.StableHlo.Predicate
import Idealize.ShloMosaic.Lib.ReduceAll
import Idealize.ShloMosaic.Lib.Pipeline.Value
import Idealize.ShloMosaic.Lib.ValueIdx

set_option maxRecDepth 16384

noncomputable section

open scoped BigOperators

namespace Cert.KernelIdeal.Host

open Idealize.ShloMosaic Idealize.ShloMosaic.TcCoe Idealize.ShloMosaic.ValueIdx Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

/-! ## The launch arrays, each at its literal shape -/

abbrev edgeIndex (c : Dev nD) : IVec S2x3200000 32 := m ((c.tc : Thread nD τ).loc main_arg0)
abbrev nodeAttr (c : Dev nD) : Vec Ideal S100000x8 .f32 := m ((c.tc : Thread nD τ).loc main_arg1)
abbrev edgeAttr (c : Dev nD) : Vec Ideal S3200000x4 .f32 := m ((c.tc : Thread nD τ).loc main_arg2)
abbrev batchIdx (c : Dev nD) : IVec S100000 32 := m ((c.tc : Thread nD τ).loc main_arg3)
abbrev wm (c : Dev nD) : Vec Ideal S20x10 .f32 := m ((c.tc : Thread nD τ).loc main_arg4)
abbrev bmArg (c : Dev nD) : Vec Ideal S10 .f32 := m ((c.tc : Thread nD τ).loc main_arg5)
abbrev w1Arg (c : Dev nD) : Vec Ideal S10x10 .f32 := m ((c.tc : Thread nD τ).loc main_arg6)
abbrev b1Arg (c : Dev nD) : Vec Ideal S10 .f32 := m ((c.tc : Thread nD τ).loc main_arg7)
abbrev w2Arg (c : Dev nD) : Vec Ideal S10x10 .f32 := m ((c.tc : Thread nD τ).loc main_arg8)
abbrev b2Arg (c : Dev nD) : Vec Ideal S10 .f32 := m ((c.tc : Thread nD τ).loc main_arg9)
abbrev w3Arg (c : Dev nD) : Vec Ideal S10x5 .f32 := m ((c.tc : Thread nD τ).loc main_arg10)
abbrev b3Arg (c : Dev nD) : Vec Ideal S5 .f32 := m ((c.tc : Thread nD τ).loc main_arg11)
abbrev w4Arg (c : Dev nD) : Vec Ideal S5x5 .f32 := m ((c.tc : Thread nD τ).loc main_arg12)
abbrev b4Arg (c : Dev nD) : Vec Ideal S5 .f32 := m ((c.tc : Thread nD τ).loc main_arg13)
abbrev w5Arg (c : Dev nD) : Vec Ideal S5x1 .f32 := m ((c.tc : Thread nD τ).loc main_arg14)
abbrev b5Arg (c : Dev nD) : Vec Ideal S1 .f32 := m ((c.tc : Thread nD τ).loc main_arg15)

/-- Row 0 (sources) and row 1 (destinations) of the edge index, as flat arrays. -/
def srcIdx (c : Dev nD) : IVec S3200000 32 :=
  shapeCast S3200000 (extractStridedSlice S1x3200000 ![0, 0] (edgeIndex m c) slices_S2x3200000_S1x3200000_0_0) shapeCasts_S1x3200000_S3200000
def dstIdx (c : Dev nD) : IVec S3200000 32 :=
  shapeCast S3200000 (extractStridedSlice S1x3200000 ![1, 0] (edgeIndex m c) slices_S2x3200000_S1x3200000_1_0) shapeCasts_S1x3200000_S3200000

/-- A flat index array with every negative entry raised by 100000, as a column of start indices. -/
def wrapCol (v : IVec S3200000 32) : IVec S3200000x1 32 :=
  broadcastInDim S3200000x1 ![0] bcast_S3200000_S3200000x1_0
    (select (cmpi .slt v (broadcastInDim S3200000 ![] bcast_S_S3200000 (constantI S_ 32 0#32)))
      (addi v (broadcastInDim S3200000 ![] bcast_S_S3200000 (constantI S_ 32 100000#32))) v)

/-- The rows of the node features at the wrapped indices. -/
def gathered (c : Dev nD) (v : IVec S3200000 32) : Vec Ideal S3200000x8 .f32 :=
  Host.gather gather_S100000x8_S3200000x1_S3200000x8_1_0_n_n_0_1_18 (nodeAttr m c) (wrapCol v)

/-! ## Walking a buffer back to the launch memory

A stretch of whole-array operations leaves a buffer that none of its operations writes as it found it, and a
pipelined region leaves a buffer that is not one of its windows' arrays as it found it.  So a launch array read at
a later boundary is the launch array, and an operation's result read at a later boundary is that operation applied
to what its operands held when it ran. -/

/-- The buffer at hand is the result of no operation of the named stretch, so the stretch leaves it alone. -/
local macro "stretch_keeps " ops:ident : tactic =>
  `(tactic| exact StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes,
        StableHlo.ternary_writes, StableHlo.quaternary_writes, StableHlo.reshape_writes,
        StableHlo.binaryIndexed_writes, Finset.mem_singleton]
      repeat' apply And.intro
      all_goals exact StableHlo.devRef_ne_of_ne (by decide))))

/-- Region 0's windows are the two gathered arrays, the edge features, the three weight slices, the bias row and
    its output: the later launch arrays and the destination row pass it untouched, and no stretch before it writes
    a launch array. -/
theorem W5_main_arg3 (c : Dev nD) : W5 m ρ c (Proc.devRef .tc main_arg3) = batchIdx m c := by
  rw [W5_of_ne m ρ c main_arg3 (by decide)]
  after_results <;> rfl

theorem W5_main_arg6 (c : Dev nD) : W5 m ρ c (Proc.devRef .tc main_arg6) = w1Arg m c := by
  rw [W5_of_ne m ρ c main_arg6 (by decide)]
  after_results <;> rfl

theorem W5_main_arg7 (c : Dev nD) : W5 m ρ c (Proc.devRef .tc main_arg7) = b1Arg m c := by
  rw [W5_of_ne m ρ c main_arg7 (by decide)]
  after_results <;> rfl

theorem W5_main_arg8 (c : Dev nD) : W5 m ρ c (Proc.devRef .tc main_arg8) = w2Arg m c := by
  rw [W5_of_ne m ρ c main_arg8 (by decide)]
  after_results <;> rfl

theorem W5_main_arg9 (c : Dev nD) : W5 m ρ c (Proc.devRef .tc main_arg9) = b2Arg m c := by
  rw [W5_of_ne m ρ c main_arg9 (by decide)]
  after_results <;> rfl

theorem W5_main_arg10 (c : Dev nD) : W5 m ρ c (Proc.devRef .tc main_arg10) = w3Arg m c := by
  rw [W5_of_ne m ρ c main_arg10 (by decide)]
  after_results <;> rfl

theorem W5_main_arg11 (c : Dev nD) : W5 m ρ c (Proc.devRef .tc main_arg11) = b3Arg m c := by
  rw [W5_of_ne m ρ c main_arg11 (by decide)]
  after_results <;> rfl

theorem W5_main_arg12 (c : Dev nD) : W5 m ρ c (Proc.devRef .tc main_arg12) = w4Arg m c := by
  rw [W5_of_ne m ρ c main_arg12 (by decide)]
  after_results <;> rfl

theorem W5_main_arg13 (c : Dev nD) : W5 m ρ c (Proc.devRef .tc main_arg13) = b4Arg m c := by
  rw [W5_of_ne m ρ c main_arg13 (by decide)]
  after_results <;> rfl

theorem W5_main_arg14 (c : Dev nD) : W5 m ρ c (Proc.devRef .tc main_arg14) = w5Arg m c := by
  rw [W5_of_ne m ρ c main_arg14 (by decide)]
  after_results <;> rfl

theorem W5_main_arg15 (c : Dev nD) : W5 m ρ c (Proc.devRef .tc main_arg15) = b5Arg m c := by
  rw [W5_of_ne m ρ c main_arg15 (by decide)]
  after_results <;> rfl

/-- The destination row is written in the first stretch and by nothing after it up to region 0's exit. -/
theorem W5_main_v3 (c : Dev nD) : W5 m ρ c (Proc.devRef .tc main_v3) = dstIdx m c := by
  rw [W5_of_ne m ρ c main_v3 (by decide)]
  after_results <;> rfl

/-- Region 1's windows are the scattered messages, three weights, three bias rows and its output: the launch arrays
    region 2's stretch reads pass it, and the stretch before it, untouched. -/
theorem W7_main_arg3 (c : Dev nD) : W7 m ρ c (Proc.devRef .tc main_arg3) = batchIdx m c := by
  rw [W7_of_ne m ρ c main_arg3 (by decide)]
  after_results
  exact W5_main_arg3 m ρ c

theorem W7_main_arg12 (c : Dev nD) : W7 m ρ c (Proc.devRef .tc main_arg12) = w4Arg m c := by
  rw [W7_of_ne m ρ c main_arg12 (by decide)]
  after_results
  exact W5_main_arg12 m ρ c

theorem W7_main_arg13 (c : Dev nD) : W7 m ρ c (Proc.devRef .tc main_arg13) = b4Arg m c := by
  rw [W7_of_ne m ρ c main_arg13 (by decide)]
  after_results
  exact W5_main_arg13 m ρ c

theorem W7_main_arg14 (c : Dev nD) : W7 m ρ c (Proc.devRef .tc main_arg14) = w5Arg m c := by
  rw [W7_of_ne m ρ c main_arg14 (by decide)]
  after_results
  exact W5_main_arg14 m ρ c

theorem W7_main_arg15 (c : Dev nD) : W7 m ρ c (Proc.devRef .tc main_arg15) = b5Arg m c := by
  rw [W7_of_ne m ρ c main_arg15 (by decide)]
  after_results
  exact W5_main_arg15 m ρ c

/-! ## The guarded row gather

The program's take of rows: wrap the index, gather at the wrapped index, and keep the gathered row only where the
wrapped index lies in [0, 99999].  Under the index range the guard holds at every row, so the take is the gather. -/

/-- The column test 0 <= w <= 99999, as the program writes it. -/
def inRangeCol (w : IVec S3200000x1 32) : IVec S3200000x1 1 :=
  andi (cmpi .sge w (broadcastInDim S3200000x1 ![] bcast_S_S3200000x1 (constantI S_ 32 0#32)))
    (cmpi .sle w (broadcastInDim S3200000x1 ![0, 1] bcast_S1x1_S3200000x1_0_1
      (broadcastInDim S1x1 ![1] bcast_S1_S1x1_1 (constantI S1 32 99999#32))))

/-- The test reduced over the column's one entry per row and laid along the rows' eight entries. -/
def rowMask (w : IVec S3200000x1 32) : IVec S3200000x8 1 :=
  broadcastInDim S3200000x8 ![0] bcast_S3200000_S3200000x8_0
    (Host.reduce IntOp.andi (inRangeCol w) (constantI S_ 1 1#1) reducesTo_S3200000x1_S3200000_d1 h_S_)

/-- The rows gathered at a column of start indices, kept where the column passes the test, a fill elsewhere. -/
def guardedCol (x : Vec Ideal S100000x8 .f32) (w : IVec S3200000x1 32) : Vec Ideal S3200000x8 .f32 :=
  select (rowMask w)
    (Host.gather gather_S100000x8_S3200000x1_S3200000x8_1_0_n_n_0_1_18 x w)
    (broadcastInDim S3200000x8 ![] bcast_S_S3200000x8 (constant (F := Ideal) S_ .f32 0x7FC00000#32))

/-- The take as the program computes it: the guarded gather at the wrapped indices. -/
def guardedRows (x : Vec Ideal S100000x8 .f32) (v : IVec S3200000 32) : Vec Ideal S3200000x8 .f32 :=
  guardedCol x (wrapCol v)

/-- A 32-bit word i with -100000 <= i < 100000 as a signed integer, raised by 100000 when it is negative, is a word w
    with 0 <= w <= 99999: i + 100000 lies in [0, 100000) when i < 0 (no wrap-around: the sum is far inside the signed
    range), and i itself does otherwise. -/
theorem wrap_inRange (i : BitVec 32) (hlo : IntOp.cmpi .sge i 4294867296#32 = 1#1) (hhi : IntOp.cmpi .slt i 100000#32 = 1#1) :
    IntOp.andi
      (IntOp.cmpi .sge (Scalar.select (IntOp.cmpi .slt i 0#32) (IntOp.addi i 100000#32) i) 0#32)
      (IntOp.cmpi .sle (Scalar.select (IntOp.cmpi .slt i 0#32) (IntOp.addi i 100000#32) i) 99999#32) = 1#1 := by
  have e1 : (4294867296#32 : BitVec 32).toInt = -100000 := by decide
  have e2 : (100000#32 : BitVec 32).toInt = 100000 := by decide
  have e3 : (0#32 : BitVec 32).toInt = 0 := by decide
  have e4 : (99999#32 : BitVec 32).toInt = 99999 := by decide
  simp only [IntOp.cmpi, StableHlo.Predicate.ofBool_eq_one_iff, BitVec.sle, BitVec.slt, decide_eq_true_eq, e1, e2] at hlo hhi
  rw [IntOp.andi_eq_one]
  by_cases hn : i.toInt < 0
  · have hc : IntOp.cmpi .slt i 0#32 = 1#1 := by
      simp only [IntOp.cmpi, StableHlo.Predicate.ofBool_eq_one_iff, BitVec.slt, decide_eq_true_eq, e3]; exact hn
    have ew : (IntOp.addi i 100000#32).toInt = i.toInt + 100000 := by
      show (i + 100000#32).toInt = _
      rw [BitVec.toInt_add, e2]
      exact Int.bmod_eq_of_le_mul_two (by omega) (by omega)
    rw [hc, ValueIdx.select_one]
    constructor <;>
      simp only [IntOp.cmpi, StableHlo.Predicate.ofBool_eq_one_iff, BitVec.sle, decide_eq_true_eq, e3, e4, ew] <;> omega
  · have hc : IntOp.cmpi .slt i 0#32 = 0#1 := by
      have : ¬ IntOp.cmpi .slt i 0#32 = 1#1 := by
        simp only [IntOp.cmpi, StableHlo.Predicate.ofBool_eq_one_iff, BitVec.slt, decide_eq_true_eq, e3]; exact hn
      exact ValueIdx.eq_zero_of_ne_one this
    rw [hc, ValueIdx.select_zero]
    constructor <;>
      simp only [IntOp.cmpi, StableHlo.Predicate.ofBool_eq_one_iff, BitVec.sle, decide_eq_true_eq, e3, e4] <;> omega

/-- A left fold by "and" from 1 over bits that are all 1 is 1. -/
theorem foldl_andi_one {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a List.mem_cons_self, show IntOp.andi 1#1 1#1 = 1#1 from by decide]
    exact foldl_andi_one f l fun n hn => h n (List.mem_cons_of_mem _ hn)

/-- A reduction by "and" from the constant 1 of an array of bits that are all 1 is 1 at every result index. -/
theorem reduce_andi_one {s t u : Shape} {axes : List (Fin s.rank)} (x : s.Idx → BitVec 1) (h : s.ReducesTo axes t)
    (hu : 0 < u.numel) (hx : ∀ i, x i = 1#1) (j : t.Idx) :
    Host.reduce IntOp.andi x (constantI u 1 1#1) h hu j = 1#1 := by
  rw [Host.reduce_eq_foldl]
  exact foldl_andi_one x _ fun n _ => hx n

/-- An array of bits that are all 1, laid along the rows of a rectangle, is 1 at every entry. -/
theorem bcast_rows_one (R : IVec S3200000 1) (hR : ∀ j, R j = 1#1) (y : S3200000x8.Idx) :
    broadcastInDim S3200000x8 ![0] bcast_S3200000_S3200000x8_0 R y = 1#1 := hR _

/-- Under the index range the column test holds at every row of the wrapped column. -/
theorem inRangeCol_wrapCol (v : IVec S3200000 32)
    (hv : ∀ j, IntOp.cmpi .sge (v j) 4294867296#32 = 1#1 ∧ IntOp.cmpi .slt (v j) 100000#32 = 1#1) (p : S3200000x1.Idx) :
    inRangeCol (wrapCol v) p = 1#1 :=
  wrap_inRange (v _) (hv _).1 (hv _).2

/-- So the row mask is 1 everywhere. -/
theorem rowMask_wrapCol (v : IVec S3200000 32)
    (hv : ∀ j, IntOp.cmpi .sge (v j) 4294867296#32 = 1#1 ∧ IntOp.cmpi .slt (v j) 100000#32 = 1#1) (y : S3200000x8.Idx) :
    rowMask (wrapCol v) y = 1#1 := by
  unfold rowMask
  exact bcast_rows_one _ (fun j => reduce_andi_one _ _ _ (inRangeCol_wrapCol v hv) j) y

/-- And the take is the plain gather at the wrapped indices. -/
theorem guardedRows_eq (x : Vec Ideal S100000x8 .f32) (v : IVec S3200000 32)
    (hv : ∀ j, IntOp.cmpi .sge (v j) 4294867296#32 = 1#1 ∧ IntOp.cmpi .slt (v j) 100000#32 = 1#1) :
    guardedRows x v = Host.gather gather_S100000x8_S3200000x1_S3200000x8_1_0_n_n_0_1_18 x (wrapCol v) := by
  funext y
  unfold guardedRows guardedCol
  rw [ValueIdx.select_apply, rowMask_wrapCol v hv y, ValueIdx.select_one]

/-! ## The index range, read off the precondition

The precondition is a chain of conjunctions, each conjunct a test reduced by "and" over a whole array; its last two
conjuncts test every entry i of the edge index for -100000 <= i and for i < 100000 as signed 32-bit words (the word
4294867296 is -100000).  A chain of conjunctions that is 1 has every conjunct 1, and a reduction by "and" that is 1
met only 1s. -/

theorem edge_range_of_part4 (a0 : IVec S2x3200000 32) (X Y : IVec S_ 1)
    (h : Cert.Pre_finite_inputs.fn_part4 (F := Ideal) a0 X Y ix0 = 1#1) (i : S2x3200000.Idx) :
    IntOp.cmpi .sge (a0 i) 4294867296#32 = 1#1 ∧ IntOp.cmpi .slt (a0 i) 100000#32 = 1#1 := by
  haveI : Subsingleton S_.Idx := ⟨fun a b => funext fun d => d.elim0⟩
  unfold Cert.Pre_finite_inputs.fn_part4 at h
  obtain ⟨h1, hB⟩ := IntOp.andi_eq_one.1 h
  obtain ⟨_, hA⟩ := IntOp.andi_eq_one.1 h1
  exact ⟨Host.reduce_andi_all _ _ _ _ _ hA i, Host.reduce_andi_all _ _ _ _ _ hB i⟩

/-- An entry of either row of the edge index, read as a flat array, is an entry of the edge index. -/
theorem srcIdx_entry (c : Dev nD) (j : S3200000.Idx) : ∃ i, srcIdx m c j = edgeIndex m c i := ⟨_, rfl⟩
theorem dstIdx_entry (c : Dev nD) (j : S3200000.Idx) : ∃ i, dstIdx m c j = edgeIndex m c i := ⟨_, rfl⟩

/-! ## What region 0 finds (the contents after the program's first four stretches of whole-array operations) -/

abbrev e_xs (c : Dev nD) : Vec Ideal S3200000x8 .f32 := V4 m ρ c main_v4
abbrev e_xd (c : Dev nD) : Vec Ideal S3200000x8 .f32 := V4 m ρ c main_v5
abbrev e_ea (c : Dev nD) : Vec Ideal S3200000x4 .f32 := V4 m ρ c main_arg2
abbrev e_wa (c : Dev nD) : Vec Ideal S8x10 .f32 := V4 m ρ c main_v6
abbrev e_wb (c : Dev nD) : Vec Ideal S8x10 .f32 := V4 m ρ c main_v7
abbrev e_wc (c : Dev nD) : Vec Ideal S4x10 .f32 := V4 m ρ c main_v8
abbrev e_bm (c : Dev nD) : Vec Ideal S1x10 .f32 := V4 m ρ c main_v9

/-- Under the precondition every entry of the edge index is in range. -/
theorem edge_range (c : Dev nD) (hpre : Cert.Pre_finite_inputs.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) = (fun _ => 1#1)) (i : S2x3200000.Idx) :
    IntOp.cmpi .sge (edgeIndex m c i) 4294867296#32 = 1#1 ∧ IntOp.cmpi .slt (edgeIndex m c i) 100000#32 = 1#1 :=
  edge_range_of_part4 (edgeIndex m c) _ _ (congrFun hpre ix0) i

/-- A stretch run as two halves: the contents after the whole are the contents after the second half from the
    contents after the first. -/
theorem after_append (l₁ l₂ : List (HloOp τ sig (Elt Ideal))) (V : Valuation τ sig (Elt Ideal)) :
    StableHlo.after (l₁ ++ l₂) V = StableHlo.after l₂ (StableHlo.after l₁ V) := by
  induction l₁ generalizing V with
  | nil => rfl
  | cons op l ih => exact ih _

/-- Contents written through a typed reference and read back through it are the contents. -/
theorem ofBuf_toBuf {T : BufTy} (x : StableHlo.TRef sig T) (v : T.Contents (Elt Ideal)) : x.ofBuf (x.toBuf v) = v := by
  obtain ⟨r, h, _, _⟩ := x
  subst h
  rfl

/-- Reading contents through the typed reference of the node features' buffer, or of either take's column buffer,
    changes nothing. -/
theorem ofBuf_x (x : Vec Ideal S100000x8 .f32) :
    (StableHlo.TRef.of (T := ⟨S100000x8, .f32⟩) main_arg1).ofBuf (Val := Elt Ideal) x = x := rfl
theorem ofBuf_col0 (w : IVec S3200000x1 32) :
    (StableHlo.TRef.of (T := ⟨S3200000x1, .i32⟩) main_call0_v5).ofBuf (Val := Elt Ideal) w = w := rfl
theorem ofBuf_col1 (w : IVec S3200000x1 32) :
    (StableHlo.TRef.of (T := ⟨S3200000x1, .i32⟩) main_call1_v5).ofBuf (Val := Elt Ideal) w = w := rfl

/-! ### The take at the sources (the second stretch) and at the destinations (the third) -/

/-- The take's first eight operations build the wrapped column from the flat index row, and write no launch array. -/
theorem e_xs_head_col (c : Dev nD) :
    StableHlo.after (List.take 8 (hostOps0_1 (F := Ideal))) (W1 m ρ c) (Proc.devRef .tc main_call0_v5) = wrapCol (srcIdx m c) := by
  simp only [hostOps0_1, List.take_succ_cons, List.take_zero]
  after_results_simp
  simp only [ofBuf_toBuf]
  rfl

theorem e_xs_head_x (c : Dev nD) :
    StableHlo.after (List.take 8 (hostOps0_1 (F := Ideal))) (W1 m ρ c) (Proc.devRef .tc main_arg1) = nodeAttr m c := by
  simp only [hostOps0_1, List.take_succ_cons, List.take_zero]
  after_results_simp

/-- Writing the take's result through its typed reference changes nothing. -/
theorem e_xs_toBuf (h1 h2 h3) (v : Vec Ideal S3200000x8 .f32) :
    (StableHlo.TRef.of (T := ⟨S3200000x8, .f32⟩) main_v4 h1 h2 h3).toBuf (Val := Elt Ideal) v = v := rfl

/-- Its last fifteen operations, from contents that hold x in the node features' buffer and w in the column's buffer:
    the guarded gather of x at w (each read through its typed reference). -/
theorem e_xs_tail (V : Valuation τ sig (Elt Ideal)) (x : Vec Ideal S100000x8 .f32) (w : IVec S3200000x1 32)
    (hx : V (Proc.devRef .tc main_arg1) = x) (hw : V (Proc.devRef .tc main_call0_v5) = w) :
    StableHlo.after (List.drop 8 (hostOps0_1 (F := Ideal))) V (Proc.devRef .tc main_v4)
      = guardedCol ((StableHlo.TRef.of (T := ⟨S100000x8, .f32⟩) main_arg1).ofBuf (Val := Elt Ideal) x)
          ((StableHlo.TRef.of (T := ⟨S3200000x1, .i32⟩) main_call0_v5).ofBuf (Val := Elt Ideal) w) := by
  subst hx hw
  simp only [hostOps0_1, List.drop_succ_cons, List.drop_zero]
  after_results_simp
  simp only [ofBuf_toBuf]
  rw [e_xs_toBuf]
  unfold guardedCol rowMask inRangeCol
  rfl

theorem e_xs_guarded (c : Dev nD) : e_xs m ρ c = guardedRows (nodeAttr m c) (srcIdx m c) := by
  have hsplit : W2 m ρ c = StableHlo.after (List.drop 8 (hostOps0_1 (F := Ideal)))
      (StableHlo.after (List.take 8 (hostOps0_1 (F := Ideal))) (W1 m ρ c)) :=
    (congrArg (fun l => StableHlo.after l (W1 m ρ c)) (List.take_append_drop 8 (hostOps0_1 (F := Ideal))).symm).trans
      (after_append _ _ _)
  calc W4 m ρ c (Proc.devRef .tc main_v4)
    _ = W3 m ρ c (Proc.devRef .tc main_v4) := by stretch_keeps hostOps0_3
    _ = W2 m ρ c (Proc.devRef .tc main_v4) := by stretch_keeps hostOps0_2
    _ = StableHlo.after (List.drop 8 (hostOps0_1 (F := Ideal)))
          (StableHlo.after (List.take 8 (hostOps0_1 (F := Ideal))) (W1 m ρ c)) (Proc.devRef .tc main_v4) :=
        congrFun hsplit _
    _ = guardedCol ((StableHlo.TRef.of (T := ⟨S100000x8, .f32⟩) main_arg1).ofBuf (Val := Elt Ideal) (nodeAttr m c))
          ((StableHlo.TRef.of (T := ⟨S3200000x1, .i32⟩) main_call0_v5).ofBuf (Val := Elt Ideal) (wrapCol (srcIdx m c))) :=
        e_xs_tail _ _ _ (e_xs_head_x m ρ c) (e_xs_head_col m ρ c)
    _ = guardedCol (nodeAttr m c) (wrapCol (srcIdx m c)) := by rw [ofBuf_x, ofBuf_col0]
    _ = guardedRows (nodeAttr m c) (srcIdx m c) := rfl

/-- The take's first eight operations build the wrapped column from the flat index row, and write no launch array. -/
theorem e_xd_head_col (c : Dev nD) :
    StableHlo.after (List.take 8 (hostOps0_2 (F := Ideal))) (W2 m ρ c) (Proc.devRef .tc main_call1_v5) = wrapCol (dstIdx m c) := by
  simp only [hostOps0_2, List.take_succ_cons, List.take_zero]
  after_results_simp
  simp only [ofBuf_toBuf]
  rfl

theorem e_xd_head_x (c : Dev nD) :
    StableHlo.after (List.take 8 (hostOps0_2 (F := Ideal))) (W2 m ρ c) (Proc.devRef .tc main_arg1) = nodeAttr m c := by
  simp only [hostOps0_2, List.take_succ_cons, List.take_zero]
  after_results_simp

/-- Writing the take's result through its typed reference changes nothing. -/
theorem e_xd_toBuf (h1 h2 h3) (v : Vec Ideal S3200000x8 .f32) :
    (StableHlo.TRef.of (T := ⟨S3200000x8, .f32⟩) main_v5 h1 h2 h3).toBuf (Val := Elt Ideal) v = v := rfl

/-- Its last fifteen operations, from contents that hold x in the node features' buffer and w in the column's buffer:
    the guarded gather of x at w (each read through its typed reference). -/
theorem e_xd_tail (V : Valuation τ sig (Elt Ideal)) (x : Vec Ideal S100000x8 .f32) (w : IVec S3200000x1 32)
    (hx : V (Proc.devRef .tc main_arg1) = x) (hw : V (Proc.devRef .tc main_call1_v5) = w) :
    StableHlo.after (List.drop 8 (hostOps0_2 (F := Ideal))) V (Proc.devRef .tc main_v5)
      = guardedCol ((StableHlo.TRef.of (T := ⟨S100000x8, .f32⟩) main_arg1).ofBuf (Val := Elt Ideal) x)
          ((StableHlo.TRef.of (T := ⟨S3200000x1, .i32⟩) main_call1_v5).ofBuf (Val := Elt Ideal) w) := by
  subst hx hw
  simp only [hostOps0_2, List.drop_succ_cons, List.drop_zero]
  after_results_simp
  simp only [ofBuf_toBuf]
  rw [e_xd_toBuf]
  unfold guardedCol rowMask inRangeCol
  rfl

theorem e_xd_guarded (c : Dev nD) : e_xd m ρ c = guardedRows (nodeAttr m c) (dstIdx m c) := by
  have hsplit : W3 m ρ c = StableHlo.after (List.drop 8 (hostOps0_2 (F := Ideal)))
      (StableHlo.after (List.take 8 (hostOps0_2 (F := Ideal))) (W2 m ρ c)) :=
    (congrArg (fun l => StableHlo.after l (W2 m ρ c)) (List.take_append_drop 8 (hostOps0_2 (F := Ideal))).symm).trans
      (after_append _ _ _)
  calc W4 m ρ c (Proc.devRef .tc main_v5)
    _ = W3 m ρ c (Proc.devRef .tc main_v5) := by stretch_keeps hostOps0_3
    _ = StableHlo.after (List.drop 8 (hostOps0_2 (F := Ideal)))
          (StableHlo.after (List.take 8 (hostOps0_2 (F := Ideal))) (W2 m ρ c)) (Proc.devRef .tc main_v5) :=
        congrFun hsplit _
    _ = guardedCol ((StableHlo.TRef.of (T := ⟨S100000x8, .f32⟩) main_arg1).ofBuf (Val := Elt Ideal) (nodeAttr m c))
          ((StableHlo.TRef.of (T := ⟨S3200000x1, .i32⟩) main_call1_v5).ofBuf (Val := Elt Ideal) (wrapCol (dstIdx m c))) :=
        e_xd_tail _ _ _ (e_xd_head_x m ρ c) (e_xd_head_col m ρ c)
    _ = guardedCol (nodeAttr m c) (wrapCol (dstIdx m c)) := by rw [ofBuf_x, ofBuf_col1]
    _ = guardedRows (nodeAttr m c) (dstIdx m c) := rfl

theorem e_xs_eq (c : Dev nD) (hpre : Cert.Pre_finite_inputs.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) = (fun _ => 1#1)) :
    e_xs m ρ c = gathered m c (srcIdx m c) := by
  rw [e_xs_guarded]
  refine guardedRows_eq _ _ fun j => ?_
  obtain ⟨i, hi⟩ := srcIdx_entry m c j
  rw [hi]
  exact edge_range m c hpre i

theorem e_xd_eq (c : Dev nD) (hpre : Cert.Pre_finite_inputs.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) = (fun _ => 1#1)) :
    e_xd m ρ c = gathered m c (dstIdx m c) := by
  rw [e_xd_guarded]
  refine guardedRows_eq _ _ fun j => ?_
  obtain ⟨i, hi⟩ := dstIdx_entry m c j
  rw [hi]
  exact edge_range m c hpre i

theorem e_ea_eq (c : Dev nD) :
    e_ea m ρ c = edgeAttr m c := by
  calc W4 m ρ c (Proc.devRef .tc main_arg2)
    _ = W3 m ρ c (Proc.devRef .tc main_arg2) := by stretch_keeps hostOps0_3
    _ = W2 m ρ c (Proc.devRef .tc main_arg2) := by stretch_keeps hostOps0_2
    _ = W1 m ρ c (Proc.devRef .tc main_arg2) := by stretch_keeps hostOps0_1
    _ = W0 m ρ c (Proc.devRef .tc main_arg2) := by stretch_keeps hostOps0
    _ = edgeAttr m c := rfl

theorem e_wa_eq (c : Dev nD) :
    e_wa m ρ c = extractStridedSlice S8x10 ![0, 0] (wm m c) slices_S20x10_S8x10_0_0 := by
  show W4 m ρ c (Proc.devRef .tc main_v6) = _
  after_results <;> rfl

theorem e_wb_eq (c : Dev nD) :
    e_wb m ρ c = extractStridedSlice S8x10 ![8, 0] (wm m c) slices_S20x10_S8x10_8_0 := by
  show W4 m ρ c (Proc.devRef .tc main_v7) = _
  after_results <;> rfl

theorem e_wc_eq (c : Dev nD) :
    e_wc m ρ c = extractStridedSlice S4x10 ![16, 0] (wm m c) slices_S20x10_S4x10_16_0 := by
  show W4 m ρ c (Proc.devRef .tc main_v8) = _
  after_results <;> rfl

theorem e_bm_eq (c : Dev nD) :
    e_bm m ρ c = shapeCast S1x10 (bmArg m c) shapeCasts_S10_S1x10 := by
  show W4 m ρ c (Proc.devRef .tc main_v9) = _
  after_results <;> rfl

/-! ## What region 1 finds (the contents after the stretch that follows region 0) -/

abbrev msgOut (c : Dev nD) : Vec Ideal S3200000x10 .f32 := W5 m ρ c (Proc.devRef .tc main_v10)
abbrev n_x (c : Dev nD) : Vec Ideal S100000x10 .f32 := V6 m ρ c main_v13
abbrev n_w1 (c : Dev nD) : Vec Ideal S10x10 .f32 := V6 m ρ c main_arg6
abbrev n_b1 (c : Dev nD) : Vec Ideal S1x10 .f32 := V6 m ρ c main_v14
abbrev n_w2 (c : Dev nD) : Vec Ideal S10x10 .f32 := V6 m ρ c main_arg8
abbrev n_b2 (c : Dev nD) : Vec Ideal S1x10 .f32 := V6 m ρ c main_v15
abbrev n_w3 (c : Dev nD) : Vec Ideal S10x5 .f32 := V6 m ρ c main_arg10
abbrev n_b3 (c : Dev nD) : Vec Ideal S1x5 .f32 := V6 m ρ c main_v16

theorem n_x_eq (c : Dev nD) :
    n_x m ρ c = Host.scatterAdd (F := Ideal) (φ := .f32) scatter_S100000x10_S3200000x1_S3200000x10_1_0_0_1
        (broadcastInDim S100000x10 ![] bcast_S_S100000x10 (constant (F := Ideal) S_ .f32 0x00000000#32))
        (broadcastInDim S3200000x1 ![0] bcast_S3200000_S3200000x1_0 (dstIdx m c)) (msgOut m ρ c) := by
  show W6 m ρ c (Proc.devRef .tc main_v13) = _
  after_results
  rw [W5_main_v3]

theorem n_w1_eq (c : Dev nD) :
    n_w1 m ρ c = w1Arg m c := by
  show W6 m ρ c (Proc.devRef .tc main_arg6) = _
  after_results
  exact W5_main_arg6 m ρ c

theorem n_b1_eq (c : Dev nD) :
    n_b1 m ρ c = shapeCast S1x10 (b1Arg m c) shapeCasts_S10_S1x10 := by
  show W6 m ρ c (Proc.devRef .tc main_v14) = _
  after_results
  rw [W5_main_arg7]
  rfl

theorem n_w2_eq (c : Dev nD) :
    n_w2 m ρ c = w2Arg m c := by
  show W6 m ρ c (Proc.devRef .tc main_arg8) = _
  after_results
  exact W5_main_arg8 m ρ c

theorem n_b2_eq (c : Dev nD) :
    n_b2 m ρ c = shapeCast S1x10 (b2Arg m c) shapeCasts_S10_S1x10 := by
  show W6 m ρ c (Proc.devRef .tc main_v15) = _
  after_results
  rw [W5_main_arg9]
  rfl

theorem n_w3_eq (c : Dev nD) :
    n_w3 m ρ c = w3Arg m c := by
  show W6 m ρ c (Proc.devRef .tc main_arg10) = _
  after_results
  exact W5_main_arg10 m ρ c

theorem n_b3_eq (c : Dev nD) :
    n_b3 m ρ c = shapeCast S1x5 (b3Arg m c) shapeCasts_S5_S1x5 := by
  show W6 m ρ c (Proc.devRef .tc main_v16) = _
  after_results
  rw [W5_main_arg11]
  rfl

/-! ## What region 2 finds (the contents after the stretch that follows region 1) -/

abbrev nodeOut (c : Dev nD) : Vec Ideal S100000x5 .f32 := W7 m ρ c (Proc.devRef .tc main_v17)
abbrev g_x (c : Dev nD) : Vec Ideal S5000x5 .f32 := V8 m ρ c main_v20
abbrev g_w4 (c : Dev nD) : Vec Ideal S5x5 .f32 := V8 m ρ c main_arg12
abbrev g_b4 (c : Dev nD) : Vec Ideal S1x5 .f32 := V8 m ρ c main_v21
abbrev g_w5 (c : Dev nD) : Vec Ideal S5x1 .f32 := V8 m ρ c main_arg14
abbrev g_b5 (c : Dev nD) : Vec Ideal S1x1 .f32 := V8 m ρ c main_v22

theorem g_x_eq (c : Dev nD) :
    g_x m ρ c = Host.scatterAdd (F := Ideal) (φ := .f32) scatter_S5000x5_S100000x1_S100000x5_1_0_0_1
        (broadcastInDim S5000x5 ![] bcast_S_S5000x5 (constant (F := Ideal) S_ .f32 0x00000000#32))
        (broadcastInDim S100000x1 ![0] bcast_S100000_S100000x1_0 (batchIdx m c)) (nodeOut m ρ c) := by
  show W8 m ρ c (Proc.devRef .tc main_v20) = _
  after_results
  rw [W7_main_arg3]

theorem g_w4_eq (c : Dev nD) :
    g_w4 m ρ c = w4Arg m c := by
  show W8 m ρ c (Proc.devRef .tc main_arg12) = _
  after_results
  exact W7_main_arg12 m ρ c

theorem g_b4_eq (c : Dev nD) :
    g_b4 m ρ c = shapeCast S1x5 (b4Arg m c) shapeCasts_S5_S1x5 := by
  show W8 m ρ c (Proc.devRef .tc main_v21) = _
  after_results
  rw [W7_main_arg13]
  rfl

theorem g_w5_eq (c : Dev nD) :
    g_w5 m ρ c = w5Arg m c := by
  show W8 m ρ c (Proc.devRef .tc main_arg14) = _
  after_results
  exact W7_main_arg14 m ρ c

theorem g_b5_eq (c : Dev nD) :
    g_b5 m ρ c = shapeCast S1x1 (b5Arg m c) shapeCasts_S1_S1x1 := by
  show W8 m ρ c (Proc.devRef .tc main_v22) = _
  after_results
  rw [W7_main_arg15]
  rfl

end Cert.KernelIdeal.Host

end
-- ==== Proof.Spec.lean ====
/-
  What the three dense stages of the message-passing network compute, entry by entry, over the extended reals.

  Edge stage: for edge e and output channel j, the message is the positive part of
      (sum over k < 8 of xs[e,k] * W[k,j]) + (sum over k < 8 of xd[e,k] * W[8+k,j]) + (sum over k < 4 of ea[e,k] * W[16+k,j]) + b[j],
  the three partial sums being the contraction of the row (xs[e,:], xd[e,:], ea[e,:]) of length 20 against column j of W,
  cut where the row is joined.  Addition of extended reals is commutative and associative, so the cut sum IS the whole
  sum (`sum_fin20_split`): no entry needs to be finite for that.
  Node stage: three affine layers, each followed by the positive part.  Graph stage: an affine layer, the positive part,
  an affine layer.  An affine layer's entry (r, j) is (sum over k of x[r,k] * W[k,j]) + b[j].
-/
import Idealize.ShloMosaic.PureOps.Ideal
import Idealize.ShloMosaic.Lib.ValueIdx

noncomputable section

open scoped BigOperators

namespace Cert.Spec

open Idealize.ShloMosaic Idealize.ShloMosaic.ValueIdx

/-- The positive part of an extended real. -/
abbrev pos (x : EReal) : EReal := max x 0

/-- One affine layer read at row `r`, column `j`: the row of `x` against the column of `W`, plus the bias. -/
def affine {R K J : Nat} (x : Fin R → Fin K → EReal) (W : Fin K → Fin J → EReal) (b : Fin J → EReal)
    (r : Fin R) (j : Fin J) : EReal :=
  (∑ k : Fin K, x r k * W k j) + b j

/-- The edge stage's message at edge `e`, channel `j`, from three separate weight blocks: the source row against `Wa`,
    the destination row against `Wb`, the edge's own row against `Wc`, the bias, the positive part. -/
def edgeMsg3 {E : Nat} (xs xd : Fin E → Fin 8 → EReal) (ea : Fin E → Fin 4 → EReal)
    (Wa Wb : Fin 8 → Fin 10 → EReal) (Wc : Fin 4 → Fin 10 → EReal) (b : Fin 10 → EReal) (e : Fin E) (j : Fin 10) : EReal :=
  pos ((((∑ k : Fin 8, xs e k * Wa k j) + (∑ k : Fin 8, xd e k * Wb k j)) + (∑ k : Fin 4, ea e k * Wc k j)) + b j)

/-- Rows 0–7, 8–15 and 16–19 of a twenty-row weight matrix. -/
abbrev rowsA (W : Fin 20 → Fin 10 → EReal) : Fin 8 → Fin 10 → EReal := fun k j => W ⟨k.val, by omega⟩ j
abbrev rowsB (W : Fin 20 → Fin 10 → EReal) : Fin 8 → Fin 10 → EReal := fun k j => W ⟨8 + k.val, by omega⟩ j
abbrev rowsC (W : Fin 20 → Fin 10 → EReal) : Fin 4 → Fin 10 → EReal := fun k j => W ⟨16 + k.val, by omega⟩ j

/-- The edge stage's message with ONE weight matrix of twenty rows, cut 8 + 8 + 4 where the edge's row is joined. -/
def edgeMsg {E : Nat} (xs xd : Fin E → Fin 8 → EReal) (ea : Fin E → Fin 4 → EReal)
    (W : Fin 20 → Fin 10 → EReal) (b : Fin 10 → EReal) (e : Fin E) (j : Fin 10) : EReal :=
  edgeMsg3 xs xd ea (rowsA W) (rowsB W) (rowsC W) b e j

/-- The node stage at node `n`, channel `j`: three affine layers, each followed by the positive part. -/
def nodeMlp {N : Nat} (x : Fin N → Fin 10 → EReal)
    (W1 : Fin 10 → Fin 10 → EReal) (b1 : Fin 10 → EReal) (W2 : Fin 10 → Fin 10 → EReal) (b2 : Fin 10 → EReal)
    (W3 : Fin 10 → Fin 5 → EReal) (b3 : Fin 5 → EReal) (n : Fin N) (j : Fin 5) : EReal :=
  pos (affine (fun n k => pos (affine (fun n k => pos (affine x W1 b1 n k)) W2 b2 n k)) W3 b3 n j)

/-- The graph stage at graph `g`, its one output channel: affine, positive part, affine. -/
def graphMlp {G : Nat} (x : Fin G → Fin 5 → EReal)
    (W4 : Fin 5 → Fin 5 → EReal) (b4 : Fin 5 → EReal) (W5 : Fin 5 → Fin 1 → EReal) (b5 : Fin 1 → EReal)
    (g : Fin G) (j : Fin 1) : EReal :=
  affine (fun g k => pos (affine x W4 b4 g k)) W5 b5 g j

/-- A sum of twenty extended reals is the sum of its first eight, its next eight and its last four. -/
theorem sum_fin20_split (f : Fin 20 → EReal) :
    (∑ k : Fin 20, f k)
      = ((∑ k : Fin 8, f ⟨k.val, by omega⟩) + (∑ k : Fin 8, f ⟨8 + k.val, by omega⟩)) + (∑ k : Fin 4, f ⟨16 + k.val, by omega⟩) := by
  simp only [Fin.sum_univ_succ, Fin.sum_univ_zero, Fin.val_zero, Fin.val_succ, add_zero]
  simp only [add_assoc]
  rfl

end Cert.Spec

end
-- ==== Proof.Region0.lean ====
/-
  The edge stage as the first pipelined region leaves it.  The region walks the 3,200,000 edges in 500 blocks of 6,400
  rows; at each block it reads the block's rows of the source features, the destination features and the edge features,
  and the three weight blocks and the bias whole, and writes the block's rows of the messages.  Row e of the result
  therefore depends only on row e of each feature array: the whole array is `Cert.Spec.edgeMsg3` of the whole operands.
-/
import proofs.«421814_j64630667870280_2_alg».proof.Proof.Gen.KernelIdeal.Frame
import proofs.«421814_j64630667870280_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Edge

open Idealize.ShloMosaic Idealize.ShloMosaic.TcCoe Idealize.ShloMosaic.ValueIdx Idealize.SL.Sem
open Idealize.ShloMosaic.Pipeline (Dat Cfg Window)
open Cert.KernelIdeal Cert.KernelIdeal.Gen
variable (V : (c : Dev nD) → (b : Ref sig .tc) → Buf (Elt Ideal) ((c : Thread nD τ).loc b))

/-- The region's operand arrays as it finds them, each at its literal shape. -/
abbrev xs (c : Dev nD) : Vec Ideal S3200000x8 .f32 := V c (Pipeline.arrRef spec0 0)
abbrev xd (c : Dev nD) : Vec Ideal S3200000x8 .f32 := V c (Pipeline.arrRef spec0 1)
abbrev ea (c : Dev nD) : Vec Ideal S3200000x4 .f32 := V c (Pipeline.arrRef spec0 2)
abbrev wa (c : Dev nD) : Vec Ideal S8x10 .f32 := V c (Pipeline.arrRef spec0 3)
abbrev wb (c : Dev nD) : Vec Ideal S8x10 .f32 := V c (Pipeline.arrRef spec0 4)
abbrev wc (c : Dev nD) : Vec Ideal S4x10 .f32 := V c (Pipeline.arrRef spec0 5)
abbrev bm (c : Dev nD) : Vec Ideal S1x10 .f32 := V c (Pipeline.arrRef spec0 6)

/-! ## The two contractions read at an index

The body multiplies a block of rows by a weight block three times, each into the zero accumulator.  At the extended
reals such a product read at row `r`, channel `j` is the row against the column: the contraction's one index is
carried to `Fin 8` (or `Fin 4`) and the operands' indices at it are `(r, k)` and `(k, j)`. -/

theorem lhs8_0 (i : S6400x10.Idx) (q : dot_S6400x8_S8x10_S6400x10_1_0_0_1_n_n.contr.Idx) :
    (dot_S6400x8_S8x10_S6400x10_1_0_0_1_n_n.lhsIdx i q 0).val = (i 0).val := by
  unfold DotDims.lhsIdx
  rw [dif_neg (show ¬(0 : Fin S6400x8.rank) ∈ dot_S6400x8_S8x10_S6400x10_1_0_0_1_n_n.lhsBatch by decide), dif_pos (show (0 : Fin S6400x8.rank) ∈ dot_S6400x8_S8x10_S6400x10_1_0_0_1_n_n.lhsNonContracting by decide)]
  rfl
theorem lhs8_1 (i : S6400x10.Idx) (q : dot_S6400x8_S8x10_S6400x10_1_0_0_1_n_n.contr.Idx) :
    (dot_S6400x8_S8x10_S6400x10_1_0_0_1_n_n.lhsIdx i q 1).val = (q ⟨0, by decide⟩).val :=
  dot_S6400x8_S8x10_S6400x10_1_0_0_1_n_n.lhsIdx_val_of_single rfl i q
theorem rhs8_0 (i : S6400x10.Idx) (q : dot_S6400x8_S8x10_S6400x10_1_0_0_1_n_n.contr.Idx) :
    (dot_S6400x8_S8x10_S6400x10_1_0_0_1_n_n.rhsIdx i q 0).val = (q ⟨0, by decide⟩).val :=
  dot_S6400x8_S8x10_S6400x10_1_0_0_1_n_n.rhsIdx_val_of_single rfl i q
theorem rhs8_1 (i : S6400x10.Idx) (q : dot_S6400x8_S8x10_S6400x10_1_0_0_1_n_n.contr.Idx) :
    (dot_S6400x8_S8x10_S6400x10_1_0_0_1_n_n.rhsIdx i q 1).val = (i 1).val := by
  unfold DotDims.rhsIdx
  rw [dif_neg (show ¬(1 : Fin S8x10.rank) ∈ dot_S6400x8_S8x10_S6400x10_1_0_0_1_n_n.rhsBatch by decide), dif_pos (show (1 : Fin S8x10.rank) ∈ dot_S6400x8_S8x10_S6400x10_1_0_0_1_n_n.rhsNonContracting by decide)]
  rfl

/-- A block of eight-column rows times an eight-row weight block, into the zero accumulator, read at row `r`,
    channel `j`: the row against the column. -/
theorem matmul8_apply (l : FVec Ideal S6400x8 .bf16) (w : FVec Ideal S8x10 .bf16) (r : Fin 6400) (j : Fin 10) :
    matmul dot_S6400x8_S8x10_S6400x10_1_0_0_1_n_n none l w (constant (F := Ideal) S6400x10 .f32 0x00000000#32) (ix2 r j)
      = ∑ k : Fin 8, l (ix2 r k) * w (ix2 k j) := by
  simp only [matmul]
  rw [Ideal.matmul_constant_zero_apply, ← Equiv.sum_comp (ValueIdx.contrEquiv1 dot_S6400x8_S8x10_S6400x10_1_0_0_1_n_n 8 rfl rfl).symm]
  refine Finset.sum_congr rfl fun k _ => ?_
  have hk := ValueIdx.contrEquiv1_symm_val dot_S6400x8_S8x10_S6400x10_1_0_0_1_n_n 8 rfl rfl k
  have el : dot_S6400x8_S8x10_S6400x10_1_0_0_1_n_n.lhsIdx (ix2 r j) ((ValueIdx.contrEquiv1 dot_S6400x8_S8x10_S6400x10_1_0_0_1_n_n 8 rfl rfl).symm k) = ix2 r k := funext fun a => Fin.ext (by
    match a with
    | ⟨0, _⟩ => exact lhs8_0 _ _
    | ⟨1, _⟩ => exact (lhs8_1 _ _).trans hk)
  have er : dot_S6400x8_S8x10_S6400x10_1_0_0_1_n_n.rhsIdx (ix2 r j) ((ValueIdx.contrEquiv1 dot_S6400x8_S8x10_S6400x10_1_0_0_1_n_n 8 rfl rfl).symm k) = ix2 k j := funext fun a => Fin.ext (by
    match a with
    | ⟨0, _⟩ => exact (rhs8_0 _ _).trans hk
    | ⟨1, _⟩ => exact rhs8_1 _ _)
  rw [el, er]

theorem lhs4_0 (i : S6400x10.Idx) (q : dot_S6400x4_S4x10_S6400x10_1_0_0_1_n_n.contr.Idx) :
    (dot_S6400x4_S4x10_S6400x10_1_0_0_1_n_n.lhsIdx i q 0).val = (i 0).val := by
  unfold DotDims.lhsIdx
  rw [dif_neg (show ¬(0 : Fin S6400x4.rank) ∈ dot_S6400x4_S4x10_S6400x10_1_0_0_1_n_n.lhsBatch by decide), dif_pos (show (0 : Fin S6400x4.rank) ∈ dot_S6400x4_S4x10_S6400x10_1_0_0_1_n_n.lhsNonContracting by decide)]
  rfl
theorem lhs4_1 (i : S6400x10.Idx) (q : dot_S6400x4_S4x10_S6400x10_1_0_0_1_n_n.contr.Idx) :
    (dot_S6400x4_S4x10_S6400x10_1_0_0_1_n_n.lhsIdx i q 1).val = (q ⟨0, by decide⟩).val :=
  dot_S6400x4_S4x10_S6400x10_1_0_0_1_n_n.lhsIdx_val_of_single rfl i q
theorem rhs4_0 (i : S6400x10.Idx) (q : dot_S6400x4_S4x10_S6400x10_1_0_0_1_n_n.contr.Idx) :
    (dot_S6400x4_S4x10_S6400x10_1_0_0_1_n_n.rhsIdx i q 0).val = (q ⟨0, by decide⟩).val :=
  dot_S6400x4_S4x10_S6400x10_1_0_0_1_n_n.rhsIdx_val_of_single rfl i q
theorem rhs4_1 (i : S6400x10.Idx) (q : dot_S6400x4_S4x10_S6400x10_1_0_0_1_n_n.contr.Idx) :
    (dot_S6400x4_S4x10_S6400x10_1_0_0_1_n_n.rhsIdx i q 1).val = (i 1).val := by
  unfold DotDims.rhsIdx
  rw [dif_neg (show ¬(1 : Fin S4x10.rank) ∈ dot_S6400x4_S4x10_S6400x10_1_0_0_1_n_n.rhsBatch by decide), dif_pos (show (1 : Fin S4x10.rank) ∈ dot_S6400x4_S4x10_S6400x10_1_0_0_1_n_n.rhsNonContracting by decide)]
  rfl

/-- A block of four-column rows times a four-row weight block, into the zero accumulator, read at row `r`,
    channel `j`: the row against the column. -/
theorem matmul4_apply (l : FVec Ideal S6400x4 .bf16) (w : FVec Ideal S4x10 .bf16) (r : Fin 6400) (j : Fin 10) :
    matmul dot_S6400x4_S4x10_S6400x10_1_0_0_1_n_n none l w (constant (F := Ideal) S6400x10 .f32 0x00000000#32) (ix2 r j)
      = ∑ k : Fin 4, l (ix2 r k) * w (ix2 k j) := by
  simp only [matmul]
  rw [Ideal.matmul_constant_zero_apply, ← Equiv.sum_comp (ValueIdx.contrEquiv1 dot_S6400x4_S4x10_S6400x10_1_0_0_1_n_n 4 rfl rfl).symm]
  refine Finset.sum_congr rfl fun k _ => ?_
  have hk := ValueIdx.contrEquiv1_symm_val dot_S6400x4_S4x10_S6400x10_1_0_0_1_n_n 4 rfl rfl k
  have el : dot_S6400x4_S4x10_S6400x10_1_0_0_1_n_n.lhsIdx (ix2 r j) ((ValueIdx.contrEquiv1 dot_S6400x4_S4x10_S6400x10_1_0_0_1_n_n 4 rfl rfl).symm k) = ix2 r k := funext fun a => Fin.ext (by
    match a with
    | ⟨0, _⟩ => exact lhs4_0 _ _
    | ⟨1, _⟩ => exact (lhs4_1 _ _).trans hk)
  have er : dot_S6400x4_S4x10_S6400x10_1_0_0_1_n_n.rhsIdx (ix2 r j) ((ValueIdx.contrEquiv1 dot_S6400x4_S4x10_S6400x10_1_0_0_1_n_n 4 rfl rfl).symm k) = ix2 k j := funext fun a => Fin.ext (by
    match a with
    | ⟨0, _⟩ => exact (rhs4_0 _ _).trans hk
    | ⟨1, _⟩ => exact rhs4_1 _ _)
  rw [el, er]

/-! ## The body's arithmetic at a row and a channel -/

/-- What the body computes from its seven blocks, at row `r` of the block and channel `j`: the three rows against
    the three weight columns, the bias, the positive part.  (The narrowing of the operands before each product is the
    identity on the extended reals, and the zero the sum is compared with is the real zero.) -/
theorem payload_apply (x0 x1 : Vec Ideal S6400x8 .f32) (x2 : Vec Ideal S6400x4 .f32) (x3 x4 : Vec Ideal S8x10 .f32)
    (x5 : Vec Ideal S4x10 .f32) (x6 : Vec Ideal S1x10 .f32) (r : Fin 6400) (j : Fin 10) :
    k0_pay1 (F := Ideal) x0 x1 x2 x3 x4 x5 x6 (ix2 r j)
      = max ((((∑ k : Fin 8, x0 (ix2 r k) * x3 (ix2 k j)) + (∑ k : Fin 8, x1 (ix2 r k) * x4 (ix2 k j)))
          + (∑ k : Fin 4, x2 (ix2 r k) * x5 (ix2 k j))) + x6 (ix2 (0 : Fin 1) j)) 0 := by
  unfold k0_pay1
  simp only [shapeCast_self]
  have e1 := matmul8_apply (truncf .bf16 x0 bitsLt_bf16_f32) (truncf .bf16 x3 bitsLt_bf16_f32) r j
  have e2 := matmul8_apply (truncf .bf16 x1 bitsLt_bf16_f32) (truncf .bf16 x4 bitsLt_bf16_f32) r j
  have e3 := matmul4_apply (truncf .bf16 x2 bitsLt_bf16_f32) (truncf .bf16 x5 bitsLt_bf16_f32) r j
  have e4 := broadcastTo_1b_ab_apply x6 broadcasts_S1x10_S6400x10 r j
  show max (((_ + _) + _) + _) (Ideal.ofBits .f32 0x00000000#32) = _
  rw [Ideal.ofBits_zero_f32]
  exact congrArg (fun z => max z 0) (congrArg₂ (· + ·) (congrArg₂ (· + ·) (congrArg₂ (· + ·) e1 e2) e3) e4)

/-- One entry of a block of the result, when the three row blocks are rows `n · 6400 …` of three row arrays and the
    four small blocks are four small arrays whole: the edge stage's message of that row of the arrays. -/
theorem block_entry (x0 x1 : Vec Ideal S6400x8 .f32) (x2 : Vec Ideal S6400x4 .f32) (x3 x4 : Vec Ideal S8x10 .f32)
    (x5 : Vec Ideal S4x10 .f32) (x6 : Vec Ideal S1x10 .f32)
    (A0 A1 : Vec Ideal S3200000x8 .f32) (A2 : Vec Ideal S3200000x4 .f32) (B3 B4 : Vec Ideal S8x10 .f32)
    (B5 : Vec Ideal S4x10 .f32) (B6 : Vec Ideal S1x10 .f32) (n : Nat)
    (h0 : ∀ (r : Fin 6400) (k : Fin 8) (e : Fin 3200000), e.val = n * 6400 + r.val → x0 (ix2 r k) = A0 (ix2 e k))
    (h1 : ∀ (r : Fin 6400) (k : Fin 8) (e : Fin 3200000), e.val = n * 6400 + r.val → x1 (ix2 r k) = A1 (ix2 e k))
    (h2 : ∀ (r : Fin 6400) (k : Fin 4) (e : Fin 3200000), e.val = n * 6400 + r.val → x2 (ix2 r k) = A2 (ix2 e k))
    (h3 : ∀ (k : Fin 8) (j : Fin 10), x3 (ix2 k j) = B3 (ix2 k j))
    (h4 : ∀ (k : Fin 8) (j : Fin 10), x4 (ix2 k j) = B4 (ix2 k j))
    (h5 : ∀ (k : Fin 4) (j : Fin 10), x5 (ix2 k j) = B5 (ix2 k j))
    (h6 : ∀ (j : Fin 10), x6 (ix2 (0 : Fin 1) j) = B6 (ix2 (0 : Fin 1) j))
    (y : S6400x10.Idx) (i : S3200000x10.Idx) (hi0 : (i 0).val = n * 6400 + (y 0).val) (hi1 : (i 1).val = (y 1).val) :
    k0_pay1 (F := Ideal) x0 x1 x2 x3 x4 x5 x6 y
      = Cert.Spec.edgeMsg3 (fun e k => A0 (ix2 e k)) (fun e k => A1 (ix2 e k)) (fun e k => A2 (ix2 e k))
          (fun k j => B3 (ix2 k j)) (fun k j => B4 (ix2 k j)) (fun k j => B5 (ix2 k j))
          (fun j => B6 (ix2 (0 : Fin 1) j)) (i 0) (i 1) := by
  obtain ⟨r, j, rfl⟩ : ∃ (r : Fin 6400) (j : Fin 10), y = ix2 r j := ⟨y 0, y 1, eq_ix2 y⟩
  obtain ⟨e, j', rfl⟩ : ∃ (e : Fin 3200000) (j' : Fin 10), i = ix2 e j' := ⟨i 0, i 1, eq_ix2 i⟩
  have he : e.val = n * 6400 + r.val := hi0
  obtain rfl : j' = j := Fin.ext hi1
  refine (payload_apply x0 x1 x2 x3 x4 x5 x6 r j').trans ?_
  show max _ 0 = max _ 0
  refine congrArg (fun z => max z 0) ?_
  refine congrArg₂ (· + ·) (congrArg₂ (· + ·) (congrArg₂ (· + ·) ?_ ?_) ?_) (h6 j')
  · exact Finset.sum_congr rfl fun k _ => congrArg₂ (· * ·) (h0 r k e he) (h3 k j')
  · exact Finset.sum_congr rfl fun k _ => congrArg₂ (· * ·) (h1 r k e he) (h4 k j')
  · exact Finset.sum_congr rfl fun k _ => congrArg₂ (· * ·) (h2 r k e he) (h5 k j')

/-! ## From the blocks to the array -/

theorem zero_offsets : (![0, 0] : Fin 2 → Nat) = fun _ => 0 := funext fun a => by fin_cases a <;> rfl

/-- The printed index maps, decided over the grid: at point `t` the three row windows and the output window sit at
    block `t` of their arrays' rows, and the three weight blocks and the bias at their arrays' one block. -/
theorem block_index_at : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = t.val ∧ win0_7.index t (1 : Fin 2) = 0) :=
  (by decide +kernel : ∀ t : Fin grid0.N, _)

/-- The source window's block at point `t` is rows `6400 t …` of the source array. -/
theorem xs_block (c : Dev nD) (t : Fin cfg0.N) (r : Fin 6400) (k : Fin 8) (e : Fin 3200000)
    (he : e.val = t.val * 6400 + r.val) :
    (iblk0 V c 0 t : Vec Ideal S6400x8 .f32) (ix2 r k) = xs V c (ix2 e k) := by
  obtain ⟨⟨a0, a1⟩, -, -, -, -, -, -, -⟩ := block_index_at t
  show V c (Pipeline.arrRef spec0 0) (((cfg0.win 0).blk t).view.emb (ix2 r k)) = V c (Pipeline.arrRef spec0 0) (ix2 e k)
  refine congrArg (V c (Pipeline.arrRef spec0 0)) (funext fun a => Fin.ext ?_)
  match a with
  | ⟨0, _⟩ => show win0_0.index t (0 : Fin 2) * 6400 + 1 * r.val = e.val; omega
  | ⟨1, _⟩ => show win0_0.index t (1 : Fin 2) * 8 + 1 * k.val = k.val; omega

/-- The destination window's block at point `t` is rows `6400 t …` of the destination array. -/
theorem xd_block (c : Dev nD) (t : Fin cfg0.N) (r : Fin 6400) (k : Fin 8) (e : Fin 3200000)
    (he : e.val = t.val * 6400 + r.val) :
    (iblk0 V c 1 t : Vec Ideal S6400x8 .f32) (ix2 r k) = xd V c (ix2 e k) := by
  obtain ⟨-, ⟨a0, a1⟩, -, -, -, -, -, -⟩ := block_index_at t
  show V c (Pipeline.arrRef spec0 1) (((cfg0.win 1).blk t).view.emb (ix2 r k)) = V c (Pipeline.arrRef spec0 1) (ix2 e k)
  refine congrArg (V c (Pipeline.arrRef spec0 1)) (funext fun a => Fin.ext ?_)
  match a with
  | ⟨0, _⟩ => show win0_1.index t (0 : Fin 2) * 6400 + 1 * r.val = e.val; omega
  | ⟨1, _⟩ => show win0_1.index t (1 : Fin 2) * 8 + 1 * k.val = k.val; omega

/-- The edge window's block at point `t` is rows `6400 t …` of the edge array. -/
theorem ea_block (c : Dev nD) (t : Fin cfg0.N) (r : Fin 6400) (k : Fin 4) (e : Fin 3200000)
    (he : e.val = t.val * 6400 + r.val) :
    (iblk0 V c 2 t : Vec Ideal S6400x4 .f32) (ix2 r k) = ea V c (ix2 e k) := by
  obtain ⟨-, -, ⟨a0, a1⟩, -, -, -, -, -⟩ := block_index_at t
  show V c (Pipeline.arrRef spec0 2) (((cfg0.win 2).blk t).view.emb (ix2 r k)) = V c (Pipeline.arrRef spec0 2) (ix2 e k)
  refine congrArg (V c (Pipeline.arrRef spec0 2)) (funext fun a => Fin.ext ?_)
  match a with
  | ⟨0, _⟩ => show win0_2.index t (0 : Fin 2) * 6400 + 1 * r.val = e.val; omega
  | ⟨1, _⟩ => show win0_2.index t (1 : Fin 2) * 4 + 1 * k.val = k.val; omega

/-- The first weight window's block is its array, at every point. -/
theorem wa_block (c : Dev nD) (t : Fin cfg0.N) (k : Fin 8) (j : Fin 10) :
    (iblk0 V c 3 t : Vec Ideal S8x10 .f32) (ix2 k j) = wa V c (ix2 k j) := by
  obtain ⟨-, -, -, ⟨a0, a1⟩, -, -, -, -⟩ := block_index_at t
  show V c (Pipeline.arrRef spec0 3) (((cfg0.win 3).blk t).view.emb (ix2 k j)) = V c (Pipeline.arrRef spec0 3) (ix2 k j)
  refine congrArg (V c (Pipeline.arrRef spec0 3)) (funext fun a => Fin.ext ?_)
  match a with
  | ⟨0, _⟩ => show win0_3.index t (0 : Fin 2) * 8 + 1 * k.val = k.val; omega
  | ⟨1, _⟩ => show win0_3.index t (1 : Fin 2) * 10 + 1 * j.val = j.val; omega

/-- The second weight window's block is its array, at every point. -/
theorem wb_block (c : Dev nD) (t : Fin cfg0.N) (k : Fin 8) (j : Fin 10) :
    (iblk0 V c 4 t : Vec Ideal S8x10 .f32) (ix2 k j) = wb V c (ix2 k j) := by
  obtain ⟨-, -, -, -, ⟨a0, a1⟩, -, -, -⟩ := block_index_at t
  show V c (Pipeline.arrRef spec0 4) (((cfg0.win 4).blk t).view.emb (ix2 k j)) = V c (Pipeline.arrRef spec0 4) (ix2 k j)
  refine congrArg (V c (Pipeline.arrRef spec0 4)) (funext fun a => Fin.ext ?_)
  match a with
  | ⟨0, _⟩ => show win0_4.index t (0 : Fin 2) * 8 + 1 * k.val = k.val; omega
  | ⟨1, _⟩ => show win0_4.index t (1 : Fin 2) * 10 + 1 * j.val = j.val; omega

/-- The third weight window's block is its array, at every point. -/
theorem wc_block (c : Dev nD) (t : Fin cfg0.N) (k : Fin 4) (j : Fin 10) :
    (iblk0 V c 5 t : Vec Ideal S4x10 .f32) (ix2 k j) = wc V c (ix2 k j) := by
  obtain ⟨-, -, -, -, -, ⟨a0, a1⟩, -, -⟩ := block_index_at t
  show V c (Pipeline.arrRef spec0 5) (((cfg0.win 5).blk t).view.emb (ix2 k j)) = V c (Pipeline.arrRef spec0 5) (ix2 k j)
  refine congrArg (V c (Pipeline.arrRef spec0 5)) (funext fun a => Fin.ext ?_)
  match a with
  | ⟨0, _⟩ => show win0_5.index t (0 : Fin 2) * 4 + 1 * k.val = k.val; omega
  | ⟨1, _⟩ => show win0_5.index t (1 : Fin 2) * 10 + 1 * j.val = j.val; omega

/-- The bias window's block is its array, at every point. -/
theorem bm_block (c : Dev nD) (t : Fin cfg0.N) (j : Fin 10) :
    (iblk0 V c 6 t : Vec Ideal S1x10 .f32) (ix2 (0 : Fin 1) j) = bm V c (ix2 (0 : Fin 1) j) := by
  obtain ⟨-, -, -, -, -, -, ⟨a0, a1⟩, -⟩ := block_index_at t
  show V c (Pipeline.arrRef spec0 6) (((cfg0.win 6).blk t).view.emb (ix2 (0 : Fin 1) j)) = V c (Pipeline.arrRef spec0 6) (ix2 (0 : Fin 1) j)
  refine congrArg (V c (Pipeline.arrRef spec0 6)) (funext fun a => Fin.ext ?_)
  match a with
  | ⟨0, _⟩ => show win0_6.index t (0 : Fin 2) * 1 + 1 * 0 = 0; omega
  | ⟨1, _⟩ => show win0_6.index t (1 : Fin 2) * 10 + 1 * j.val = j.val; omega

/-- The message array: entry (e, j) is the edge stage's message of row e of the operand arrays. -/
abbrev msgs (c : Dev nD) : Vec Ideal S3200000x10 .f32 :=
  fun i => Cert.Spec.edgeMsg3 (fun e k => xs V c (ix2 e k)) (fun e k => xd V c (ix2 e k)) (fun e k => ea V c (ix2 e k))
    (fun k j => wa V c (ix2 k j)) (fun k j => wb V c (ix2 k j)) (fun k j => wc V c (ix2 k j))
    (fun j => bm V c (ix2 (0 : Fin 1) j)) (i 0) (i 1)

/-- What point `t` writes back is block `t` of the message array. -/
theorem writeback_eq_msgs_block (c : Dev nD) (t : Fin cfg0.N) :
    (dat0 (F := Ideal) V c).flushed 7 t = ((cfg0.win 7).blk t).view.read (Elt Ideal) (msgs V c) := by
  show (cfg0.win 7).cut (grid0.coords t) ((dat0 (F := Ideal) V c).after 7 t) = _
  rw [after0_7]
  unfold out0_7
  rw [View.canon_unit_zero zero_offsets]
  simp only [View.ld_unit_zero (S := S6400x8) zero_offsets, View.ld_unit_zero (S := S6400x4) zero_offsets,
    View.ld_unit_zero (S := S8x10) zero_offsets, View.ld_unit_zero (S := S4x10) zero_offsets, View.ld_unit_zero (S := S1x10) zero_offsets]
  obtain ⟨-, -, -, -, -, -, -, o0, o1⟩ := block_index_at t
  funext y
  show k0_pay1 (F := Ideal) (iblk0 V c 0 t) (iblk0 V c 1 t) (iblk0 V c 2 t) (iblk0 V c 3 t) (iblk0 V c 4 t) (iblk0 V c 5 t)
      (iblk0 V c 6 t) y = msgs V c (((cfg0.win 7).blk t).view.emb y)
  refine block_entry (iblk0 V c 0 t) (iblk0 V c 1 t) (iblk0 V c 2 t) (iblk0 V c 3 t) (iblk0 V c 4 t) (iblk0 V c 5 t)
    (iblk0 V c 6 t) (xs V c) (xd V c) (ea V c) (wa V c) (wb V c) (wc V c) (bm V c) t.val
    (xs_block V c t) (xd_block V c t) (ea_block V c t) (wa_block V c t) (wb_block V c t) (wc_block V c t) (bm_block V c t)
    y (((cfg0.win 7).blk t).view.emb y) ?_ ?_
  · show win0_7.index t (0 : Fin 2) * 6400 + 1 * (y 0).val = t.val * 6400 + (y 0).val; omega
  · show win0_7.index t (1 : Fin 2) * 10 + 1 * (y 1).val = (y 1).val; omega

/-- An index of the message array is in point `t`'s block iff each coordinate is in the block's range on its axis. -/
theorem mem_msgs_block (t : Fin cfg0.N) (i : S3200000x10.Idx) :
    i ∈ ((cfg0.win 7).blk t).view.set ↔ ∀ a : Fin 2, win0_7.index t a * S6400x10.size a ≤ (i a).val ∧ (i a).val < win0_7.index t a * S6400x10.size a + S6400x10.size a := by
  show i ∈ ((View.whole main_v10).slice (win0_7.rect t)).set ↔ _
  rw [View.set_slice_whole, Rect.mem_set_unit]
  exact Iff.rfl

/-- Every row of the message array is in the block of the point its row number divided by 6400 names, and that point
    writes its block back. -/
theorem row_covered (i : S3200000x10.Idx) :
    ∃ t : Fin cfg0.N, (cfg0.win 7).flush t = true ∧ i ∈ ((cfg0.win 7).blk t).view.set := by
  have hi0 : (i 0).val < 3200000 := (i 0).isLt
  have hi1 : (i 1).val < 10 := (i 1).isLt
  have hN : cfg0.N = 500 := N_0
  have hlt : (i 0).val / 6400 < cfg0.N := by rw [hN]; omega
  obtain ⟨-, -, -, -, -, -, -, o0, o1⟩ := block_index_at ⟨(i 0).val / 6400, hlt⟩
  have o0' : win0_7.index ⟨(i 0).val / 6400, hlt⟩ (0 : Fin 2) = (i 0).val / 6400 := o0
  refine ⟨⟨(i 0).val / 6400, hlt⟩, flush0_7 _, ?_⟩
  rw [mem_msgs_block]
  intro a
  match a with
  | ⟨0, _⟩ => show win0_7.index ⟨(i 0).val / 6400, hlt⟩ (0 : Fin 2) * 6400 ≤ (i 0).val ∧ (i 0).val < win0_7.index ⟨(i 0).val / 6400, hlt⟩ (0 : Fin 2) * 6400 + 6400; omega
  | ⟨1, _⟩ => show win0_7.index ⟨(i 0).val / 6400, hlt⟩ (1 : Fin 2) * 10 ≤ (i 1).val ∧ (i 1).val < win0_7.index ⟨(i 0).val / 6400, hlt⟩ (1 : Fin 2) * 10 + 10; omega

/-- The message array after the region: entry (e, j) is the edge stage's message of row e of the operands. -/
theorem value (c : Dev nD) :
    ((dat0 (F := Ideal) V c).arrAt 7 cfg0.N : Vec Ideal S3200000x10 .f32)
      = fun i => Cert.Spec.edgeMsg3 (fun e k => xs V c (ix2 e k)) (fun e k => xd V c (ix2 e k)) (fun e k => ea V c (ix2 e k))
          (fun k j => wa V c (ix2 k j)) (fun k j => wb V c (ix2 k j)) (fun k j => wc V c (ix2 k j))
          (fun j => bm V c (ix2 (0 : Fin 1) j)) (i 0) (i 1) :=
  (dat0 (F := Ideal) V c).arrAt_eq_of_cover 7 (msgs V c) (fun t _ => writeback_eq_msgs_block V c t) row_covered

end Cert.KernelIdeal.Edge

end
-- ==== Proof.Region1.lean ====
/-
  The node stage as the second pipelined region leaves it.  The region walks the 100,000 nodes in 10 blocks of 10,000
  rows; at each block it reads the block's rows of the aggregated messages and the three weight matrices and biases
  whole, and writes the block's rows of the result.  Row n of the result depends only on row n of the input: the whole
  array is `Cert.Spec.nodeMlp` of the whole operands.
-/
import proofs.«421814_j64630667870280_2_alg».proof.Proof.Gen.KernelIdeal.Frame
import proofs.«421814_j64630667870280_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.Node

open Idealize.ShloMosaic Idealize.ShloMosaic.TcCoe Idealize.ShloMosaic.ValueIdx Idealize.SL.Sem
open Idealize.ShloMosaic.Pipeline (Dat Cfg Window)
open Cert.KernelIdeal Cert.KernelIdeal.Gen
variable (V : (c : Dev nD) → (b : Ref sig .tc) → Buf (Elt Ideal) ((c : Thread nD τ).loc b))

/-- The region's operand arrays as it finds them, each at its literal shape. -/
abbrev x (c : Dev nD) : Vec Ideal S100000x10 .f32 := V c (Pipeline.arrRef spec1 0)
abbrev w1 (c : Dev nD) : Vec Ideal S10x10 .f32 := V c (Pipeline.arrRef spec1 1)
abbrev b1 (c : Dev nD) : Vec Ideal S1x10 .f32 := V c (Pipeline.arrRef spec1 2)
abbrev w2 (c : Dev nD) : Vec Ideal S10x10 .f32 := V c (Pipeline.arrRef spec1 3)
abbrev b2 (c : Dev nD) : Vec Ideal S1x10 .f32 := V c (Pipeline.arrRef spec1 4)
abbrev w3 (c : Dev nD) : Vec Ideal S10x5 .f32 := V c (Pipeline.arrRef spec1 5)
abbrev b3 (c : Dev nD) : Vec Ideal S1x5 .f32 := V c (Pipeline.arrRef spec1 6)

/-! ## The two contractions read at an index -/

theorem lhs10_0 (i : S10000x10.Idx) (q : dot_S10000x10_S10x10_S10000x10_1_0_0_1_n_n.contr.Idx) :
    (dot_S10000x10_S10x10_S10000x10_1_0_0_1_n_n.lhsIdx i q 0).val = (i 0).val := by
  unfold DotDims.lhsIdx
  rw [dif_neg (show ¬(0 : Fin S10000x10.rank) ∈ dot_S10000x10_S10x10_S10000x10_1_0_0_1_n_n.lhsBatch by decide), dif_pos (show (0 : Fin S10000x10.rank) ∈ dot_S10000x10_S10x10_S10000x10_1_0_0_1_n_n.lhsNonContracting by decide)]
  rfl
theorem lhs10_1 (i : S10000x10.Idx) (q : dot_S10000x10_S10x10_S10000x10_1_0_0_1_n_n.contr.Idx) :
    (dot_S10000x10_S10x10_S10000x10_1_0_0_1_n_n.lhsIdx i q 1).val = (q ⟨0, by decide⟩).val :=
  dot_S10000x10_S10x10_S10000x10_1_0_0_1_n_n.lhsIdx_val_of_single rfl i q
theorem rhs10_0 (i : S10000x10.Idx) (q : dot_S10000x10_S10x10_S10000x10_1_0_0_1_n_n.contr.Idx) :
    (dot_S10000x10_S10x10_S10000x10_1_0_0_1_n_n.rhsIdx i q 0).val = (q ⟨0, by decide⟩).val :=
  dot_S10000x10_S10x10_S10000x10_1_0_0_1_n_n.rhsIdx_val_of_single rfl i q
theorem rhs10_1 (i : S10000x10.Idx) (q : dot_S10000x10_S10x10_S10000x10_1_0_0_1_n_n.contr.Idx) :
    (dot_S10000x10_S10x10_S10000x10_1_0_0_1_n_n.rhsIdx i q 1).val = (i 1).val := by
  unfold DotDims.rhsIdx
  rw [dif_neg (show ¬(1 : Fin S10x10.rank) ∈ dot_S10000x10_S10x10_S10000x10_1_0_0_1_n_n.rhsBatch by decide), dif_pos (show (1 : Fin S10x10.rank) ∈ dot_S10000x10_S10x10_S10000x10_1_0_0_1_n_n.rhsNonContracting by decide)]
  rfl

theorem lhs5_0 (i : S10000x5.Idx) (q : dot_S10000x10_S10x5_S10000x5_1_0_0_1_n_n.contr.Idx) :
    (dot_S10000x10_S10x5_S10000x5_1_0_0_1_n_n.lhsIdx i q 0).val = (i 0).val := by
  unfold DotDims.lhsIdx
  rw [dif_neg (show ¬(0 : Fin S10000x10.rank) ∈ dot_S10000x10_S10x5_S10000x5_1_0_0_1_n_n.lhsBatch by decide), dif_pos (show (0 : Fin S10000x10.rank) ∈ dot_S10000x10_S10x5_S10000x5_1_0_0_1_n_n.lhsNonContracting by decide)]
  rfl
theorem lhs5_1 (i : S10000x5.Idx) (q : dot_S10000x10_S10x5_S10000x5_1_0_0_1_n_n.contr.Idx) :
    (dot_S10000x10_S10x5_S10000x5_1_0_0_1_n_n.lhsIdx i q 1).val = (q ⟨0, by decide⟩).val :=
  dot_S10000x10_S10x5_S10000x5_1_0_0_1_n_n.lhsIdx_val_of_single rfl i q
theorem rhs5_0 (i : S10000x5.Idx) (q : dot_S10000x10_S10x5_S10000x5_1_0_0_1_n_n.contr.Idx) :
    (dot_S10000x10_S10x5_S10000x5_1_0_0_1_n_n.rhsIdx i q 0).val = (q ⟨0, by decide⟩).val :=
  dot_S10000x10_S10x5_S10000x5_1_0_0_1_n_n.rhsIdx_val_of_single rfl i q
theorem rhs5_1 (i : S10000x5.Idx) (q : dot_S10000x10_S10x5_S10000x5_1_0_0_1_n_n.contr.Idx) :
    (dot_S10000x10_S10x5_S10000x5_1_0_0_1_n_n.rhsIdx i q 1).val = (i 1).val := by
  unfold DotDims.rhsIdx
  rw [dif_neg (show ¬(1 : Fin S10x5.rank) ∈ dot_S10000x10_S10x5_S10000x5_1_0_0_1_n_n.rhsBatch by decide), dif_pos (show (1 : Fin S10x5.rank) ∈ dot_S10000x10_S10x5_S10000x5_1_0_0_1_n_n.rhsNonContracting by decide)]
  rfl

/-- The contraction into a zero accumulator, read at row `r`, column `j`: the row of the left operand against the
    column of the right one. -/
theorem matmul10_apply {φ₁ φ₂ : FTy} (A : FVec Ideal S10000x10 φ₁) (B : FVec Ideal S10x10 φ₂) (r : Fin 10000) (j : Fin 10) :
    matmul dot_S10000x10_S10x10_S10000x10_1_0_0_1_n_n none A B (constant (F := Ideal) S10000x10 .f32 0x00000000#32) (ix2 r j)
      = ∑ k : Fin 10, A (ix2 r k) * B (ix2 k j) := by
  simp only [matmul]
  rw [Ideal.matmul_constant_zero_apply, ← Equiv.sum_comp (contrEquiv1 dot_S10000x10_S10x10_S10000x10_1_0_0_1_n_n 10 rfl rfl).symm]
  refine Finset.sum_congr rfl fun k _ => ?_
  have hk := contrEquiv1_symm_val dot_S10000x10_S10x10_S10000x10_1_0_0_1_n_n 10 rfl rfl k
  have el : dot_S10000x10_S10x10_S10000x10_1_0_0_1_n_n.lhsIdx (ix2 r j) ((contrEquiv1 dot_S10000x10_S10x10_S10000x10_1_0_0_1_n_n 10 rfl rfl).symm k) = ix2 r k := funext fun a => Fin.ext (by
    match a with
    | ⟨0, _⟩ => exact lhs10_0 _ _
    | ⟨1, _⟩ => exact (lhs10_1 _ _).trans hk)
  have er : dot_S10000x10_S10x10_S10000x10_1_0_0_1_n_n.rhsIdx (ix2 r j) ((contrEquiv1 dot_S10000x10_S10x10_S10000x10_1_0_0_1_n_n 10 rfl rfl).symm k) = ix2 k j := funext fun a => Fin.ext (by
    match a with
    | ⟨0, _⟩ => exact (rhs10_0 _ _).trans hk
    | ⟨1, _⟩ => exact rhs10_1 _ _)
  rw [el, er]

/-- The contraction into a zero accumulator, read at row `r`, column `j`: the row of the left operand against the
    column of the right one. -/
theorem matmul5_apply {φ₁ φ₂ : FTy} (A : FVec Ideal S10000x10 φ₁) (B : FVec Ideal S10x5 φ₂) (r : Fin 10000) (j : Fin 5) :
    matmul dot_S10000x10_S10x5_S10000x5_1_0_0_1_n_n none A B (constant (F := Ideal) S10000x5 .f32 0x00000000#32) (ix2 r j)
      = ∑ k : Fin 10, A (ix2 r k) * B (ix2 k j) := by
  simp only [matmul]
  rw [Ideal.matmul_constant_zero_apply, ← Equiv.sum_comp (contrEquiv1 dot_S10000x10_S10x5_S10000x5_1_0_0_1_n_n 10 rfl rfl).symm]
  refine Finset.sum_congr rfl fun k _ => ?_
  have hk := contrEquiv1_symm_val dot_S10000x10_S10x5_S10000x5_1_0_0_1_n_n 10 rfl rfl k
  have el : dot_S10000x10_S10x5_S10000x5_1_0_0_1_n_n.lhsIdx (ix2 r j) ((contrEquiv1 dot_S10000x10_S10x5_S10000x5_1_0_0_1_n_n 10 rfl rfl).symm k) = ix2 r k := funext fun a => Fin.ext (by
    match a with
    | ⟨0, _⟩ => exact lhs5_0 _ _
    | ⟨1, _⟩ => exact (lhs5_1 _ _).trans hk)
  have er : dot_S10000x10_S10x5_S10000x5_1_0_0_1_n_n.rhsIdx (ix2 r j) ((contrEquiv1 dot_S10000x10_S10x5_S10000x5_1_0_0_1_n_n 10 rfl rfl).symm k) = ix2 k j := funext fun a => Fin.ext (by
    match a with
    | ⟨0, _⟩ => exact (rhs5_0 _ _).trans hk
    | ⟨1, _⟩ => exact rhs5_1 _ _)
  rw [el, er]

/-! ## A layer, and the body's payload, read at an index -/

/-- One layer of the body read at row `r`, column `j`: the contraction, the bias row laid over every row, the
    positive part. Stated against any reading `a`, `w`, `β` of the three operands by coordinates. -/
theorem layer10_apply (A : FVec Ideal S10000x10 .bf16) (W : FVec Ideal S10x10 .bf16) (b : FVec Ideal S1x10 .f32)
    (a : Fin 10000 → Fin 10 → EReal) (w : Fin 10 → Fin 10 → EReal) (β : Fin 10 → EReal)
    (hA : ∀ n k, A (ix2 n k) = a n k) (hW : ∀ k j, W (ix2 k j) = w k j) (hb : ∀ j, b (ix2 (0 : Fin 1) j) = β j)
    (r : Fin 10000) (j : Fin 10) :
    maximumf (addf (matmul dot_S10000x10_S10x10_S10000x10_1_0_0_1_n_n none A W (constant (F := Ideal) S10000x10 .f32 0x00000000#32))
        (broadcastTo S10000x10 (shapeCast S1x10 b shapeCasts_S1x10_S1x10) broadcasts_S1x10_S10000x10))
      (broadcast S10000x10 (Scalar.ofBits (F := Ideal) .f32 0x00000000#32)) (ix2 r j)
      = Cert.Spec.pos (Cert.Spec.affine a w β r j) := by
  rw [maximumf_apply, addf_apply, matmul10_apply, broadcast_apply, broadcastTo_1b_ab_apply, shapeCast_self, hb]
  show max _ (Ideal.ofBits .f32 0x00000000#32) = max _ 0
  rw [Ideal.ofBits_zero_f32]
  unfold Cert.Spec.affine
  simp only [hA, hW]

/-- One layer of the body read at row `r`, column `j`: the contraction, the bias row laid over every row, the
    positive part. Stated against any reading `a`, `w`, `β` of the three operands by coordinates. -/
theorem layer5_apply (A : FVec Ideal S10000x10 .bf16) (W : FVec Ideal S10x5 .bf16) (b : FVec Ideal S1x5 .f32)
    (a : Fin 10000 → Fin 10 → EReal) (w : Fin 10 → Fin 5 → EReal) (β : Fin 5 → EReal)
    (hA : ∀ n k, A (ix2 n k) = a n k) (hW : ∀ k j, W (ix2 k j) = w k j) (hb : ∀ j, b (ix2 (0 : Fin 1) j) = β j)
    (r : Fin 10000) (j : Fin 5) :
    maximumf (addf (matmul dot_S10000x10_S10x5_S10000x5_1_0_0_1_n_n none A W (constant (F := Ideal) S10000x5 .f32 0x00000000#32))
        (broadcastTo S10000x5 (shapeCast S1x5 b shapeCasts_S1x5_S1x5) broadcasts_S1x5_S10000x5))
      (broadcast S10000x5 (Scalar.ofBits (F := Ideal) .f32 0x00000000#32)) (ix2 r j)
      = Cert.Spec.pos (Cert.Spec.affine a w β r j) := by
  rw [maximumf_apply, addf_apply, matmul5_apply, broadcast_apply, broadcastTo_1b_ab_apply, shapeCast_self, hb]
  show max _ (Ideal.ofBits .f32 0x00000000#32) = max _ 0
  rw [Ideal.ofBits_zero_f32]
  unfold Cert.Spec.affine
  simp only [hA, hW]

/-- The body's first operand, cast to its own shape and narrowed, reads as it was. -/
theorem narrowed_apply (x0 : Vec Ideal S10000x10 .f32) (i : S10000x10.Idx) :
    (truncf .bf16 (shapeCast S10000x10 x0 shapeCasts_S10000x10_S10000x10) bitsLt_bf16_f32 : FVec Ideal S10000x10 .bf16) i = x0 i := by
  rw [truncf_apply, shapeCast_self]

/-- THE PAYLOAD AT AN INDEX: entry (r, j) of what the body stores is the node stage of row r of its first operand. -/
theorem pay_apply (x0 : Vec Ideal S10000x10 .f32) (W1 : Vec Ideal S10x10 .f32) (B1 : Vec Ideal S1x10 .f32)
    (W2 : Vec Ideal S10x10 .f32) (B2 : Vec Ideal S1x10 .f32) (W3 : Vec Ideal S10x5 .f32) (B3 : Vec Ideal S1x5 .f32)
    (r : Fin 10000) (j : Fin 5) :
    k1_pay1 (F := Ideal) x0 W1 B1 W2 B2 W3 B3 (ix2 r j)
      = Cert.Spec.nodeMlp (fun n k => x0 (ix2 n k)) (fun k j => W1 (ix2 k j)) (fun j => B1 (ix2 (0 : Fin 1) j))
          (fun k j => W2 (ix2 k j)) (fun j => B2 (ix2 (0 : Fin 1) j))
          (fun k j => W3 (ix2 k j)) (fun j => B3 (ix2 (0 : Fin 1) j)) r j := by
  unfold k1_pay1 Cert.Spec.nodeMlp
  refine layer5_apply _ _ _ _ _ _ (fun n k => ?_) (fun _ _ => rfl) (fun _ => rfl) r j
  refine layer10_apply _ _ _ _ _ _ (fun n k => ?_) (fun _ _ => rfl) (fun _ => rfl) n k
  refine layer10_apply _ _ _ _ _ _ (fun n k => ?_) (fun _ _ => rfl) (fun _ => rfl) n k
  exact narrowed_apply x0 (ix2 n k)

/-! ## From blocks to the array -/

/-- The node stage of the region's operand arrays, entry by entry. -/
abbrev nodeStage (c : Dev nD) : Vec Ideal S100000x5 .f32 := fun i =>
  Cert.Spec.nodeMlp (fun n k => x V c (ix2 n k))
    (fun k j => w1 V c (ix2 k j)) (fun j => b1 V c (ix2 (0 : Fin 1) j))
    (fun k j => w2 V c (ix2 k j)) (fun j => b2 V c (ix2 (0 : Fin 1) j))
    (fun k j => w3 V c (ix2 k j)) (fun j => b3 V c (ix2 (0 : Fin 1) j)) (i 0) (i 1)

/-- The node stage at a node reads only that node's row of the input: inputs that agree on one row each, under
    weights and biases that agree entry by entry, give the same value there. -/
theorem nodeMlp_congr {N M : Nat} (u : Fin N → Fin 10 → EReal) (u' : Fin M → Fin 10 → EReal)
    (W1 W1' : Fin 10 → Fin 10 → EReal) (β1 β1' : Fin 10 → EReal) (W2 W2' : Fin 10 → Fin 10 → EReal) (β2 β2' : Fin 10 → EReal)
    (W3 W3' : Fin 10 → Fin 5 → EReal) (β3 β3' : Fin 5 → EReal) (n : Fin N) (n' : Fin M)
    (hu : ∀ k, u n k = u' n' k) (h1 : ∀ k j, W1 k j = W1' k j) (hb1 : ∀ j, β1 j = β1' j)
    (h2 : ∀ k j, W2 k j = W2' k j) (hb2 : ∀ j, β2 j = β2' j) (h3 : ∀ k j, W3 k j = W3' k j) (hb3 : ∀ j, β3 j = β3' j)
    (j : Fin 5) :
    Cert.Spec.nodeMlp u W1 β1 W2 β2 W3 β3 n j = Cert.Spec.nodeMlp u' W1' β1' W2' β2' W3' β3' n' j := by
  unfold Cert.Spec.nodeMlp Cert.Spec.affine
  simp only [hu, h1, hb1, h2, hb2, h3, hb3]

theorem zero_offsets : (![0, 0] : Fin 2 → Nat) = fun _ => 0 := funext fun a => by fin_cases a <;> rfl

/-- The windows' index maps over the grid: the input's and the output's block index is the point itself on the row
    axis and zero on the column axis. -/
theorem rows_index : ∀ t : Fin cfg1.N,
      win1_0.index t (0 : Fin 2) = t.val ∧ win1_0.index t (1 : Fin 2) = 0
    ∧ win1_7.index t (0 : Fin 2) = t.val ∧ win1_7.index t (1 : Fin 2) = 0 :=
  (by decide +kernel : ∀ t : Fin grid1.N, _)

/-- The weights' and biases' block index is zero at every point. -/
theorem whole_index : ∀ t : Fin cfg1.N,
      win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0 :=
  (by decide +kernel : ∀ t : Fin grid1.N, _)

/-- Row `p` of point `t`'s block is row `10000 t + p` of the array. -/
def row (t : Fin cfg1.N) (p : Fin 10000) : Fin 100000 :=
  ⟨t.val * 10000 + p.val, by have ht := t.isLt; have hN : cfg1.N = 10 := N_1; have hp := p.isLt; omega⟩

/-- The input's block at point `t` is rows `10000 t … 10000 t + 9999` of the input array. -/
theorem xblk_apply (c : Dev nD) (t : Fin cfg1.N) (p : Fin 10000) (k : Fin 10) :
    (iblk1 (F := Ideal) V c 0 t : Vec Ideal S10000x10 .f32) (ix2 p k) = x V c (ix2 (row t p) k) := by
  have e := rows_index t
  show x V c (((cfg1.win 0).blk t).view.emb (ix2 p k)) = x V c (ix2 (row t p) k)
  refine congrArg (x V c) (funext fun a => Fin.ext ?_)
  match a with
  | ⟨0, _⟩ => show win1_0.index t (0 : Fin 2) * 10000 + 1 * p.val = t.val * 10000 + p.val; omega
  | ⟨1, _⟩ => show win1_0.index t (1 : Fin 2) * 10 + 1 * k.val = k.val; omega

/-- Window 1's block is its whole array at every point. -/
theorem w1blk_apply (c : Dev nD) (t : Fin cfg1.N) (k : Fin 10) (j : Fin 10) :
    (iblk1 (F := Ideal) V c 1 t : Vec Ideal S10x10 .f32) (ix2 k j) = w1 V c (ix2 k j) := by
  have e := whole_index t
  show w1 V c (((cfg1.win 1).blk t).view.emb (ix2 k j)) = w1 V c (ix2 k j)
  refine congrArg (w1 V c) (funext fun a => Fin.ext ?_)
  match a with
  | ⟨0, _⟩ => show win1_1.index t (0 : Fin 2) * 10 + 1 * k.val = k.val; omega
  | ⟨1, _⟩ => show win1_1.index t (1 : Fin 2) * 10 + 1 * j.val = j.val; omega

/-- Window 2's block is its whole array at every point. -/
theorem b1blk_apply (c : Dev nD) (t : Fin cfg1.N) (z : Fin 1) (j : Fin 10) :
    (iblk1 (F := Ideal) V c 2 t : Vec Ideal S1x10 .f32) (ix2 z j) = b1 V c (ix2 z j) := by
  have e := whole_index t
  show b1 V c (((cfg1.win 2).blk t).view.emb (ix2 z j)) = b1 V c (ix2 z j)
  refine congrArg (b1 V c) (funext fun a => Fin.ext ?_)
  match a with
  | ⟨0, _⟩ => show win1_2.index t (0 : Fin 2) * 1 + 1 * z.val = z.val; omega
  | ⟨1, _⟩ => show win1_2.index t (1 : Fin 2) * 10 + 1 * j.val = j.val; omega

/-- Window 3's block is its whole array at every point. -/
theorem w2blk_apply (c : Dev nD) (t : Fin cfg1.N) (k : Fin 10) (j : Fin 10) :
    (iblk1 (F := Ideal) V c 3 t : Vec Ideal S10x10 .f32) (ix2 k j) = w2 V c (ix2 k j) := by
  have e := whole_index t
  show w2 V c (((cfg1.win 3).blk t).view.emb (ix2 k j)) = w2 V c (ix2 k j)
  refine congrArg (w2 V c) (funext fun a => Fin.ext ?_)
  match a with
  | ⟨0, _⟩ => show win1_3.index t (0 : Fin 2) * 10 + 1 * k.val = k.val; omega
  | ⟨1, _⟩ => show win1_3.index t (1 : Fin 2) * 10 + 1 * j.val = j.val; omega

/-- Window 4's block is its whole array at every point. -/
theorem b2blk_apply (c : Dev nD) (t : Fin cfg1.N) (z : Fin 1) (j : Fin 10) :
    (iblk1 (F := Ideal) V c 4 t : Vec Ideal S1x10 .f32) (ix2 z j) = b2 V c (ix2 z j) := by
  have e := whole_index t
  show b2 V c (((cfg1.win 4).blk t).view.emb (ix2 z j)) = b2 V c (ix2 z j)
  refine congrArg (b2 V c) (funext fun a => Fin.ext ?_)
  match a with
  | ⟨0, _⟩ => show win1_4.index t (0 : Fin 2) * 1 + 1 * z.val = z.val; omega
  | ⟨1, _⟩ => show win1_4.index t (1 : Fin 2) * 10 + 1 * j.val = j.val; omega

/-- Window 5's block is its whole array at every point. -/
theorem w3blk_apply (c : Dev nD) (t : Fin cfg1.N) (k : Fin 10) (j : Fin 5) :
    (iblk1 (F := Ideal) V c 5 t : Vec Ideal S10x5 .f32) (ix2 k j) = w3 V c (ix2 k j) := by
  have e := whole_index t
  show w3 V c (((cfg1.win 5).blk t).view.emb (ix2 k j)) = w3 V c (ix2 k j)
  refine congrArg (w3 V c) (funext fun a => Fin.ext ?_)
  match a with
  | ⟨0, _⟩ => show win1_5.index t (0 : Fin 2) * 10 + 1 * k.val = k.val; omega
  | ⟨1, _⟩ => show win1_5.index t (1 : Fin 2) * 5 + 1 * j.val = j.val; omega

/-- Window 6's block is its whole array at every point. -/
theorem b3blk_apply (c : Dev nD) (t : Fin cfg1.N) (z : Fin 1) (j : Fin 5) :
    (iblk1 (F := Ideal) V c 6 t : Vec Ideal S1x5 .f32) (ix2 z j) = b3 V c (ix2 z j) := by
  have e := whole_index t
  show b3 V c (((cfg1.win 6).blk t).view.emb (ix2 z j)) = b3 V c (ix2 z j)
  refine congrArg (b3 V c) (funext fun a => Fin.ext ?_)
  match a with
  | ⟨0, _⟩ => show win1_6.index t (0 : Fin 2) * 1 + 1 * z.val = z.val; omega
  | ⟨1, _⟩ => show win1_6.index t (1 : Fin 2) * 5 + 1 * j.val = j.val; omega

/-- Entry (p, q) of the output's block at point `t` sits at row `10000 t + p`, column `q` of the output array. -/
theorem oblk_emb (t : Fin cfg1.N) (p : Fin 10000) (q : Fin 5) :
    (((cfg1.win 7).blk t).view.emb (ix2 p q) : S100000x5.Idx) = ix2 (row t p) q := by
  have e := rows_index t
  refine funext fun a => Fin.ext ?_
  match a with
  | ⟨0, _⟩ => show win1_7.index t (0 : Fin 2) * 10000 + 1 * p.val = t.val * 10000 + p.val; omega
  | ⟨1, _⟩ => show win1_7.index t (1 : Fin 2) * 5 + 1 * q.val = q.val; omega

/-- WHAT POINT `t` WRITES BACK is block `t` of the node stage of the operand arrays. -/
theorem flushed_eq (c : Dev nD) (t : Fin cfg1.N) :
    (dat1 (F := Ideal) V c).flushed 7 t = ((cfg1.win 7).blk t).view.read (Elt Ideal) (nodeStage V c) := by
  show (cfg1.win 7).cut (grid1.coords t) ((dat1 (F := Ideal) V c).after 7 t) = _
  rw [after1_7]
  unfold out1_7
  rw [View.canon_unit_zero zero_offsets]
  simp only [View.ld_unit_zero (S := S10000x10) zero_offsets, View.ld_unit_zero (S := S10x10) zero_offsets,
    View.ld_unit_zero (S := S1x10) zero_offsets, View.ld_unit_zero (S := S10x5) zero_offsets,
    View.ld_unit_zero (S := S1x5) zero_offsets]
  refine funext fun (y : S10000x5.Idx) => ?_
  obtain ⟨p, q, rfl⟩ : ∃ (p : Fin 10000) (q : Fin 5), y = ix2 p q := ⟨y 0, y 1, eq_ix2 y⟩
  refine (pay_apply (iblk1 V c 0 t) (iblk1 V c 1 t) (iblk1 V c 2 t) (iblk1 V c 3 t) (iblk1 V c 4 t) (iblk1 V c 5 t)
    (iblk1 V c 6 t) p q).trans ?_
  refine Eq.trans ?_ (congrArg (nodeStage V c) (oblk_emb t p q).symm)
  exact nodeMlp_congr _ _ _ _ _ _ _ _ _ _ _ _ _ _ p (row t p)
    (fun k => xblk_apply V c t p k) (fun k j => w1blk_apply V c t k j) (fun j => b1blk_apply V c t 0 j)
    (fun k j => w2blk_apply V c t k j) (fun j => b2blk_apply V c t 0 j)
    (fun k j => w3blk_apply V c t k j) (fun j => b3blk_apply V c t 0 j) q

/-- An index of the output array is in point `t`'s block iff each coordinate is in the block's range on its axis. -/
theorem mem_blk (t : Fin cfg1.N) (i : S100000x5.Idx) :
    i ∈ ((cfg1.win 7).blk t).view.set ↔ ∀ a : Fin 2, win1_7.index t a * S10000x5.size a ≤ (i a).val ∧ (i a).val < win1_7.index t a * S10000x5.size a + S10000x5.size a := by
  show i ∈ ((View.whole main_v17).slice (win1_7.rect t)).set ↔ _
  rw [View.set_slice_whole, Rect.mem_set_unit]
  exact Iff.rfl

/-- Every entry of the output array is written back: row `r` by point `r / 10000`. -/
theorem covered (i : S100000x5.Idx) :
    ∃ t : Fin cfg1.N, (cfg1.win 7).flush t = true ∧ i ∈ ((cfg1.win 7).blk t).view.set := by
  have hi0 : (i 0).val < 100000 := (i 0).isLt
  have hi1 : (i 1).val < 5 := (i 1).isLt
  have hN : cfg1.N = 10 := N_1
  have ht : (i 0).val / 10000 < cfg1.N := by rw [hN]; omega
  obtain ⟨-, -, e0, e1⟩ := rows_index ⟨(i 0).val / 10000, ht⟩
  refine ⟨⟨(i 0).val / 10000, ht⟩, flush1_7 _, ?_⟩
  rw [mem_blk]
  intro a
  match a with
  | ⟨0, _⟩ =>
    show win1_7.index ⟨(i 0).val / 10000, ht⟩ (0 : Fin 2) * 10000 ≤ (i 0).val ∧ (i 0).val < win1_7.index ⟨(i 0).val / 10000, ht⟩ (0 : Fin 2) * 10000 + 10000
    rw [e0]; show (i 0).val / 10000 * 10000 ≤ (i 0).val ∧ (i 0).val < (i 0).val / 10000 * 10000 + 10000; omega
  | ⟨1, _⟩ =>
    show win1_7.index ⟨(i 0).val / 10000, ht⟩ (1 : Fin 2) * 5 ≤ (i 1).val ∧ (i 1).val < win1_7.index ⟨(i 0).val / 10000, ht⟩ (1 : Fin 2) * 5 + 5
    rw [e1]; omega

/-- The node array after the region: entry (n, j) is the node stage of row n of the input. -/
theorem value (c : Dev nD) :
    ((dat1 (F := Ideal) V c).arrAt 7 cfg1.N : Vec Ideal S100000x5 .f32)
      = fun i => Cert.Spec.nodeMlp (fun n k => x V c (ix2 n k))
          (fun k j => w1 V c (ix2 k j)) (fun j => b1 V c (ix2 (0 : Fin 1) j))
          (fun k j => w2 V c (ix2 k j)) (fun j => b2 V c (ix2 (0 : Fin 1) j))
          (fun k j => w3 V c (ix2 k j)) (fun j => b3 V c (ix2 (0 : Fin 1) j)) (i 0) (i 1) := by
  exact (dat1 (F := Ideal) V c).arrAt_eq_of_cover 7 (nodeStage V c) (fun t _ => flushed_eq V c t) covered

end Cert.KernelIdeal.Node

end
-- ==== Proof.Region2.lean ====
/-
  The graph stage as the third region leaves it.  The region has one grid point: it reads the 5,000 pooled rows and the
  two weight matrices and biases whole and writes the 5,000 results.  The whole array is `Cert.Spec.graphMlp` of the
  whole operands.
-/
import proofs.«421814_j64630667870280_2_alg».proof.Proof.Gen.KernelIdeal.Frame
import proofs.«421814_j64630667870280_2_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Graph

open Idealize.ShloMosaic Idealize.ShloMosaic.TcCoe Idealize.ShloMosaic.ValueIdx Idealize.SL.Sem
open Idealize.ShloMosaic.Pipeline (Dat Cfg Window)
open Cert.KernelIdeal Cert.KernelIdeal.Gen
variable (V : (c : Dev nD) → (b : Ref sig .tc) → Buf (Elt Ideal) ((c : Thread nD τ).loc b))

/-- The region's operand arrays as it finds them, each at its literal shape. -/
abbrev g (c : Dev nD) : Vec Ideal S5000x5 .f32 := V c (Pipeline.arrRef spec2 0)
abbrev w4 (c : Dev nD) : Vec Ideal S5x5 .f32 := V c (Pipeline.arrRef spec2 1)
abbrev b4 (c : Dev nD) : Vec Ideal S1x5 .f32 := V c (Pipeline.arrRef spec2 2)
abbrev w5 (c : Dev nD) : Vec Ideal S5x1 .f32 := V c (Pipeline.arrRef spec2 3)
abbrev b5 (c : Dev nD) : Vec Ideal S1x1 .f32 := V c (Pipeline.arrRef spec2 4)

/-! ## The body's arithmetic read at one entry -/

/-- A one-row array spread over many rows reads, at row `p` and column `q`, its one row at `q`. -/
theorem rowSpread_apply {a b : ℕ} {α : Type} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-! The first product contracts axis 1 of its left operand with axis 0 of its right operand: at output entry `i` and
    contraction coordinate `q` the left operand is read at `(i 0, q)` and the right one at `(q, i 1)`. -/

theorem lhs_hidden_0 (i : S5000x5.Idx) (q : dot_S5000x5_S5x5_S5000x5_1_0_0_1_n_n.contr.Idx) :
    (dot_S5000x5_S5x5_S5000x5_1_0_0_1_n_n.lhsIdx i q 0).val = (i 0).val := by
  unfold DotDims.lhsIdx
  rw [dif_neg (show ¬(0 : Fin S5000x5.rank) ∈ dot_S5000x5_S5x5_S5000x5_1_0_0_1_n_n.lhsBatch by decide), dif_pos (show (0 : Fin S5000x5.rank) ∈ dot_S5000x5_S5x5_S5000x5_1_0_0_1_n_n.lhsNonContracting by decide)]
  rfl
theorem lhs_hidden_1 (i : S5000x5.Idx) (q : dot_S5000x5_S5x5_S5000x5_1_0_0_1_n_n.contr.Idx) :
    (dot_S5000x5_S5x5_S5000x5_1_0_0_1_n_n.lhsIdx i q 1).val = (q ⟨0, by decide⟩).val :=
  dot_S5000x5_S5x5_S5000x5_1_0_0_1_n_n.lhsIdx_val_of_single rfl i q
theorem rhs_hidden_0 (i : S5000x5.Idx) (q : dot_S5000x5_S5x5_S5000x5_1_0_0_1_n_n.contr.Idx) :
    (dot_S5000x5_S5x5_S5000x5_1_0_0_1_n_n.rhsIdx i q 0).val = (q ⟨0, by decide⟩).val :=
  dot_S5000x5_S5x5_S5000x5_1_0_0_1_n_n.rhsIdx_val_of_single rfl i q
theorem rhs_hidden_1 (i : S5000x5.Idx) (q : dot_S5000x5_S5x5_S5000x5_1_0_0_1_n_n.contr.Idx) :
    (dot_S5000x5_S5x5_S5000x5_1_0_0_1_n_n.rhsIdx i q 1).val = (i 1).val := by
  unfold DotDims.rhsIdx
  rw [dif_neg (show ¬(1 : Fin S5x5.rank) ∈ dot_S5000x5_S5x5_S5000x5_1_0_0_1_n_n.rhsBatch by decide), dif_pos (show (1 : Fin S5x5.rank) ∈ dot_S5000x5_S5x5_S5000x5_1_0_0_1_n_n.rhsNonContracting by decide)]
  rfl

/-- The first product into a zero accumulator, at row `r` and column `j`: the row of the left operand against the
    column of the right one. -/
theorem hiddenProduct_apply (a : FVec Ideal S5000x5 .bf16) (b : FVec Ideal S5x5 .bf16) (r : Fin 5000) (j : Fin 5) :
    matmul dot_S5000x5_S5x5_S5000x5_1_0_0_1_n_n none a b (constant (F := Ideal) S5000x5 .f32 0x00000000#32) (ix2 r j)
      = ∑ k : Fin 5, a (ix2 r k) * b (ix2 k j) := by
  refine (Ideal.matmul_constant_zero_apply dot_S5000x5_S5x5_S5000x5_1_0_0_1_n_n none a b (ix2 r j)).trans ?_
  rw [← Equiv.sum_comp (contrEquiv1 dot_S5000x5_S5x5_S5000x5_1_0_0_1_n_n 5 rfl rfl).symm]
  refine Finset.sum_congr rfl fun k _ => ?_
  have hk := contrEquiv1_symm_val dot_S5000x5_S5x5_S5000x5_1_0_0_1_n_n 5 rfl rfl k
  have el : dot_S5000x5_S5x5_S5000x5_1_0_0_1_n_n.lhsIdx (ix2 r j) ((contrEquiv1 dot_S5000x5_S5x5_S5000x5_1_0_0_1_n_n 5 rfl rfl).symm k) = ix2 r k := funext fun ax => Fin.ext (by
    match ax with
    | ⟨0, _⟩ => exact lhs_hidden_0 _ _
    | ⟨1, _⟩ => exact (lhs_hidden_1 _ _).trans hk)
  have er : dot_S5000x5_S5x5_S5000x5_1_0_0_1_n_n.rhsIdx (ix2 r j) ((contrEquiv1 dot_S5000x5_S5x5_S5000x5_1_0_0_1_n_n 5 rfl rfl).symm k) = ix2 k j := funext fun ax => Fin.ext (by
    match ax with
    | ⟨0, _⟩ => exact (rhs_hidden_0 _ _).trans hk
    | ⟨1, _⟩ => exact rhs_hidden_1 _ _)
  rw [el, er]

/-! The second product has the same dimension numbers, with one output column. -/

theorem lhs_out_0 (i : S5000x1.Idx) (q : dot_S5000x5_S5x1_S5000x1_1_0_0_1_n_n.contr.Idx) :
    (dot_S5000x5_S5x1_S5000x1_1_0_0_1_n_n.lhsIdx i q 0).val = (i 0).val := by
  unfold DotDims.lhsIdx
  rw [dif_neg (show ¬(0 : Fin S5000x5.rank) ∈ dot_S5000x5_S5x1_S5000x1_1_0_0_1_n_n.lhsBatch by decide), dif_pos (show (0 : Fin S5000x5.rank) ∈ dot_S5000x5_S5x1_S5000x1_1_0_0_1_n_n.lhsNonContracting by decide)]
  rfl
theorem lhs_out_1 (i : S5000x1.Idx) (q : dot_S5000x5_S5x1_S5000x1_1_0_0_1_n_n.contr.Idx) :
    (dot_S5000x5_S5x1_S5000x1_1_0_0_1_n_n.lhsIdx i q 1).val = (q ⟨0, by decide⟩).val :=
  dot_S5000x5_S5x1_S5000x1_1_0_0_1_n_n.lhsIdx_val_of_single rfl i q
theorem rhs_out_0 (i : S5000x1.Idx) (q : dot_S5000x5_S5x1_S5000x1_1_0_0_1_n_n.contr.Idx) :
    (dot_S5000x5_S5x1_S5000x1_1_0_0_1_n_n.rhsIdx i q 0).val = (q ⟨0, by decide⟩).val :=
  dot_S5000x5_S5x1_S5000x1_1_0_0_1_n_n.rhsIdx_val_of_single rfl i q
theorem rhs_out_1 (i : S5000x1.Idx) (q : dot_S5000x5_S5x1_S5000x1_1_0_0_1_n_n.contr.Idx) :
    (dot_S5000x5_S5x1_S5000x1_1_0_0_1_n_n.rhsIdx i q 1).val = (i 1).val := by
  unfold DotDims.rhsIdx
  rw [dif_neg (show ¬(1 : Fin S5x1.rank) ∈ dot_S5000x5_S5x1_S5000x1_1_0_0_1_n_n.rhsBatch by decide), dif_pos (show (1 : Fin S5x1.rank) ∈ dot_S5000x5_S5x1_S5000x1_1_0_0_1_n_n.rhsNonContracting by decide)]
  rfl

/-- The second product into a zero accumulator, at row `r` and its one column. -/
theorem outProduct_apply (a : FVec Ideal S5000x5 .bf16) (b : FVec Ideal S5x1 .bf16) (r : Fin 5000) (j : Fin 1) :
    matmul dot_S5000x5_S5x1_S5000x1_1_0_0_1_n_n none a b (constant (F := Ideal) S5000x1 .f32 0x00000000#32) (ix2 r j)
      = ∑ k : Fin 5, a (ix2 r k) * b (ix2 k j) := by
  refine (Ideal.matmul_constant_zero_apply dot_S5000x5_S5x1_S5000x1_1_0_0_1_n_n none a b (ix2 r j)).trans ?_
  rw [← Equiv.sum_comp (contrEquiv1 dot_S5000x5_S5x1_S5000x1_1_0_0_1_n_n 5 rfl rfl).symm]
  refine Finset.sum_congr rfl fun k _ => ?_
  have hk := contrEquiv1_symm_val dot_S5000x5_S5x1_S5000x1_1_0_0_1_n_n 5 rfl rfl k
  have el : dot_S5000x5_S5x1_S5000x1_1_0_0_1_n_n.lhsIdx (ix2 r j) ((contrEquiv1 dot_S5000x5_S5x1_S5000x1_1_0_0_1_n_n 5 rfl rfl).symm k) = ix2 r k := funext fun ax => Fin.ext (by
    match ax with
    | ⟨0, _⟩ => exact lhs_out_0 _ _
    | ⟨1, _⟩ => exact (lhs_out_1 _ _).trans hk)
  have er : dot_S5000x5_S5x1_S5000x1_1_0_0_1_n_n.rhsIdx (ix2 r j) ((contrEquiv1 dot_S5000x5_S5x1_S5000x1_1_0_0_1_n_n 5 rfl rfl).symm k) = ix2 k j := funext fun ax => Fin.ext (by
    match ax with
    | ⟨0, _⟩ => exact (rhs_out_0 _ _).trans hk
    | ⟨1, _⟩ => exact rhs_out_1 _ _)
  rw [el, er]

/-- The hidden layer as the body computes it: the first product, the bias row spread over the rows, the positive part. -/
def hidden (x0 : Vec Ideal S5000x5 .f32) (x1 : Vec Ideal S5x5 .f32) (x2 : Vec Ideal S1x5 .f32) : FVec Ideal S5000x5 .f32 :=
  maximumf
    (addf
      (matmul dot_S5000x5_S5x5_S5000x5_1_0_0_1_n_n none
        (truncf .bf16 (shapeCast S5000x5 x0 shapeCasts_S5000x5_S5000x5) bitsLt_bf16_f32) (truncf .bf16 x1 bitsLt_bf16_f32)
        (constant S5000x5 .f32 0x00000000#32))
      (broadcastTo S5000x5 (shapeCast S1x5 x2 shapeCasts_S1x5_S1x5) broadcasts_S1x5_S5000x5))
    (broadcast S5000x5 (Scalar.ofBits .f32 0x00000000#32))

/-- The body's stored value is the second product of the hidden layer, plus the bias spread over the rows. -/
theorem pay_eq (x0 : Vec Ideal S5000x5 .f32) (x1 : Vec Ideal S5x5 .f32) (x2 : Vec Ideal S1x5 .f32)
    (x3 : Vec Ideal S5x1 .f32) (x4 : Vec Ideal S1x1 .f32) :
    k2_pay1 (F := Ideal) x0 x1 x2 x3 x4
      = addf
          (matmul dot_S5000x5_S5x1_S5000x1_1_0_0_1_n_n none
            (truncf .bf16 (hidden x0 x1 x2) bitsLt_bf16_f32) (truncf .bf16 x3 bitsLt_bf16_f32)
            (constant S5000x1 .f32 0x00000000#32))
          (broadcastTo S5000x1 (shapeCast S1x1 x4 shapeCasts_S1x1_S1x1) broadcasts_S1x1_S5000x1) := rfl

/-- The hidden layer at row `r`, channel `k`: the row of the input against the column of the weights, the bias, the
    positive part. -/
theorem hidden_apply (x0 : Vec Ideal S5000x5 .f32) (x1 : Vec Ideal S5x5 .f32) (x2 : Vec Ideal S1x5 .f32)
    (r : Fin 5000) (k : Fin 5) :
    hidden x0 x1 x2 (ix2 r k)
      = Cert.Spec.pos ((∑ k' : Fin 5, x0 (ix2 r k') * x1 (ix2 k' k)) + x2 (ix2 (0 : Fin 1) k)) := by
  have e0 : shapeCast S5000x5 x0 shapeCasts_S5000x5_S5000x5 = x0 := shapeCast_self x0 _
  have e2 : shapeCast S1x5 x2 shapeCasts_S1x5_S1x5 = x2 := shapeCast_self x2 _
  unfold hidden
  rw [e0, e2]
  exact congrArg₂ max
    (congrArg₂ (· + ·) (hiddenProduct_apply (truncf .bf16 x0 bitsLt_bf16_f32) (truncf .bf16 x1 bitsLt_bf16_f32) r k)
      (rowSpread_apply x2 broadcasts_S1x5_S5000x5 r k))
    Ideal.ofBits_zero_f32

/-- The body's stored value at row `r` and its one column is the graph stage of row `r`. -/
theorem pay_apply (x0 : Vec Ideal S5000x5 .f32) (x1 : Vec Ideal S5x5 .f32) (x2 : Vec Ideal S1x5 .f32)
    (x3 : Vec Ideal S5x1 .f32) (x4 : Vec Ideal S1x1 .f32) (r : Fin 5000) (j : Fin 1) :
    k2_pay1 (F := Ideal) x0 x1 x2 x3 x4 (ix2 r j)
      = Cert.Spec.graphMlp (fun r k => x0 (ix2 r k)) (fun k j => x1 (ix2 k j)) (fun j => x2 (ix2 (0 : Fin 1) j))
          (fun k j => x3 (ix2 k j)) (fun j => x4 (ix2 (0 : Fin 1) j)) r j := by
  have e4 : shapeCast S1x1 x4 shapeCasts_S1x1_S1x1 = x4 := shapeCast_self x4 _
  rw [pay_eq, e4]
  refine (congrArg₂ (· + ·)
    (outProduct_apply (truncf .bf16 (hidden x0 x1 x2) bitsLt_bf16_f32) (truncf .bf16 x3 bitsLt_bf16_f32) r j)
    (rowSpread_apply x4 broadcasts_S1x1_S5000x1 r j)).trans ?_
  unfold Cert.Spec.graphMlp Cert.Spec.affine
  refine congrArg (· + x4 (ix2 (0 : Fin 1) j)) (Finset.sum_congr rfl fun k _ => ?_)
  exact congrArg (· * x3 (ix2 k j)) (hidden_apply x0 x1 x2 r k)

/-! ## From the one block to the array -/

theorem offsets_zero : (![0, 0] : Fin 2 → Nat) = fun _ => 0 := funext fun a => by fin_cases a <;> rfl

/-- The printed index maps, decided over the grid: every window's block index is zero on both axes, each block
    being its whole array. -/
theorem blockIndex_zero : ∀ t : Fin cfg2.N,
    win2_0.index t (0 : Fin 2) = 0 ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0 :=
  (by decide +kernel : ∀ t : Fin grid2.N, _)

/-! Each input window's block is its whole array: an entry of the block sits in the array at block index × block
    size + its own coordinate, and every block index is zero. -/

theorem block_g (c : Dev nD) (t : Fin cfg2.N) : (iblk2 (F := Ideal) V c 0 t : Vec Ideal S5000x5 .f32) = g V c := by
  obtain ⟨h0, h1, -⟩ := blockIndex_zero t
  funext y
  show g V c (((cfg2.win 0).blk t).view.emb y) = g V c y
  refine congrArg (g V c) (funext fun a => Fin.ext ?_)
  match a with
  | ⟨0, _⟩ => show win2_0.index t (0 : Fin 2) * 5000 + 1 * (y 0).val = (y 0).val; rw [h0]; omega
  | ⟨1, _⟩ => show win2_0.index t (1 : Fin 2) * 5 + 1 * (y 1).val = (y 1).val; rw [h1]; omega

theorem block_w4 (c : Dev nD) (t : Fin cfg2.N) : (iblk2 (F := Ideal) V c 1 t : Vec Ideal S5x5 .f32) = w4 V c := by
  obtain ⟨-, -, h0, h1, -⟩ := blockIndex_zero t
  funext y
  show w4 V c (((cfg2.win 1).blk t).view.emb y) = w4 V c y
  refine congrArg (w4 V c) (funext fun a => Fin.ext ?_)
  match a with
  | ⟨0, _⟩ => show win2_1.index t (0 : Fin 2) * 5 + 1 * (y 0).val = (y 0).val; rw [h0]; omega
  | ⟨1, _⟩ => show win2_1.index t (1 : Fin 2) * 5 + 1 * (y 1).val = (y 1).val; rw [h1]; omega

theorem block_b4 (c : Dev nD) (t : Fin cfg2.N) : (iblk2 (F := Ideal) V c 2 t : Vec Ideal S1x5 .f32) = b4 V c := by
  obtain ⟨-, -, -, -, h0, h1, -⟩ := blockIndex_zero t
  funext y
  show b4 V c (((cfg2.win 2).blk t).view.emb y) = b4 V c y
  refine congrArg (b4 V c) (funext fun a => Fin.ext ?_)
  match a with
  | ⟨0, _⟩ => show win2_2.index t (0 : Fin 2) * 1 + 1 * (y 0).val = (y 0).val; rw [h0]; omega
  | ⟨1, _⟩ => show win2_2.index t (1 : Fin 2) * 5 + 1 * (y 1).val = (y 1).val; rw [h1]; omega

theorem block_w5 (c : Dev nD) (t : Fin cfg2.N) : (iblk2 (F := Ideal) V c 3 t : Vec Ideal S5x1 .f32) = w5 V c := by
  obtain ⟨-, -, -, -, -, -, h0, h1, -⟩ := blockIndex_zero t
  funext y
  show w5 V c (((cfg2.win 3).blk t).view.emb y) = w5 V c y
  refine congrArg (w5 V c) (funext fun a => Fin.ext ?_)
  match a with
  | ⟨0, _⟩ => show win2_3.index t (0 : Fin 2) * 5 + 1 * (y 0).val = (y 0).val; rw [h0]; omega
  | ⟨1, _⟩ => show win2_3.index t (1 : Fin 2) * 1 + 1 * (y 1).val = (y 1).val; rw [h1]; omega

theorem block_b5 (c : Dev nD) (t : Fin cfg2.N) : (iblk2 (F := Ideal) V c 4 t : Vec Ideal S1x1 .f32) = b5 V c := by
  obtain ⟨-, -, -, -, -, -, -, -, h0, h1, -⟩ := blockIndex_zero t
  funext y
  show b5 V c (((cfg2.win 4).blk t).view.emb y) = b5 V c y
  refine congrArg (b5 V c) (funext fun a => Fin.ext ?_)
  match a with
  | ⟨0, _⟩ => show win2_4.index t (0 : Fin 2) * 1 + 1 * (y 0).val = (y 0).val; rw [h0]; omega
  | ⟨1, _⟩ => show win2_4.index t (1 : Fin 2) * 1 + 1 * (y 1).val = (y 1).val; rw [h1]; omega

/-- The function the result array ends holding: the graph stage of the operand arrays, entry by entry. -/
abbrev result (c : Dev nD) : Vec Ideal S5000x1 .f32 := fun i =>
  Cert.Spec.graphMlp (fun r k => g V c (ix2 r k))
    (fun k j => w4 V c (ix2 k j)) (fun j => b4 V c (ix2 (0 : Fin 1) j))
    (fun k j => w5 V c (ix2 k j)) (fun j => b5 V c (ix2 (0 : Fin 1) j)) (i 0) (i 1)

/-- An entry of the output window's block sits in the array where its own coordinates say. -/
theorem outEntry (t : Fin cfg2.N) (y : S5000x1.Idx) : ((cfg2.win 5).blk t).view.emb y = y := by
  obtain ⟨-, -, -, -, -, -, -, -, -, -, h0, h1⟩ := blockIndex_zero t
  refine funext fun a => Fin.ext ?_
  match a with
  | ⟨0, _⟩ => show win2_5.index t (0 : Fin 2) * 5000 + 1 * (y 0).val = (y 0).val; rw [h0]; omega
  | ⟨1, _⟩ => show win2_5.index t (1 : Fin 2) * 1 + 1 * (y 1).val = (y 1).val; rw [h1]; omega

/-- What point `t` writes back is block `t` of `result`. -/
theorem flushed_eq (c : Dev nD) (t : Fin cfg2.N) :
    (dat2 (F := Ideal) V c).flushed 5 t = ((cfg2.win 5).blk t).view.read (Elt Ideal) (result V c) := by
  show (cfg2.win 5).cut (grid2.coords t) ((dat2 (F := Ideal) V c).after 5 t) = _
  rw [after2_5]
  unfold out2_5
  rw [View.canon_unit_zero offsets_zero]
  simp only [View.ld_unit_zero (S := S5000x5) offsets_zero, View.ld_unit_zero (S := S5x5) offsets_zero,
    View.ld_unit_zero (S := S1x5) offsets_zero, View.ld_unit_zero (S := S5x1) offsets_zero,
    View.ld_unit_zero (S := S1x1) offsets_zero]
  rw [block_g V c t, block_w4 V c t, block_b4 V c t, block_w5 V c t, block_b5 V c t]
  funext y
  show k2_pay1 (F := Ideal) (g V c) (w4 V c) (b4 V c) (w5 V c) (b5 V c) y
    = result V c (((cfg2.win 5).blk t).view.emb y)
  rw [outEntry t y]
  obtain ⟨r, j, rfl⟩ : ∃ (r : Fin 5000) (j : Fin 1), y = ix2 r j := ⟨y 0, y 1, eq_ix2 y⟩
  exact pay_apply (g V c) (w4 V c) (b4 V c) (w5 V c) (b5 V c) r j

/-- An index of the array is in point `t`'s block iff each coordinate is in the block's range on its axis. -/
theorem mem_outBlock (t : Fin cfg2.N) (i : S5000x1.Idx) :
    i ∈ ((cfg2.win 5).blk t).view.set ↔ ∀ a : Fin 2, win2_5.index t a * S5000x1.size a ≤ (i a).val ∧ (i a).val < win2_5.index t a * S5000x1.size a + S5000x1.size a := by
  show i ∈ ((View.whole main_v23).slice (win2_5.rect t)).set ↔ _
  rw [View.set_slice_whole, Rect.mem_set_unit]
  exact Iff.rfl

/-- The one point's block covers the array. -/
theorem covered (i : S5000x1.Idx) :
    ∃ t : Fin cfg2.N, (cfg2.win 5).flush t = true ∧ i ∈ ((cfg2.win 5).blk t).view.set := by
  obtain ⟨-, -, -, -, -, -, -, -, -, -, h0, h1⟩ := blockIndex_zero t2_0
  refine ⟨t2_0, flush2_5 t2_0, ?_⟩
  rw [mem_outBlock]
  intro a
  have hi0 : (i 0).val < 5000 := idx2_lt0 i
  have hi1 : (i 1).val < 1 := idx2_lt1 i
  match a with
  | ⟨0, _⟩ => show win2_5.index t2_0 (0 : Fin 2) * 5000 ≤ (i 0).val ∧ (i 0).val < win2_5.index t2_0 (0 : Fin 2) * 5000 + 5000; rw [h0]; omega
  | ⟨1, _⟩ => show win2_5.index t2_0 (1 : Fin 2) * 1 ≤ (i 1).val ∧ (i 1).val < win2_5.index t2_0 (1 : Fin 2) * 1 + 1; rw [h1]; omega

/-- The result array after the region: entry (g, 0) is the graph stage of row g of the pooled input. -/
theorem value (c : Dev nD) :
    ((dat2 (F := Ideal) V c).arrAt 5 cfg2.N : Vec Ideal S5000x1 .f32)
      = fun i => Cert.Spec.graphMlp (fun r k => g V c (ix2 r k))
          (fun k j => w4 V c (ix2 k j)) (fun j => b4 V c (ix2 (0 : Fin 1) j))
          (fun k j => w5 V c (ix2 k j)) (fun j => b5 V c (ix2 (0 : Fin 1) j)) (i 0) (i 1) :=
  (dat2 (F := Ideal) V c).arrAt_eq_of_cover 5 (result V c) (fun t _ => flushed_eq V c t) covered

end Cert.KernelIdeal.Graph

end
-- ==== Proof.KernelValue.lean ====
/-
  The program's result as one term of the arrays it was launched with.  Reading the boundary contents back from the
  result buffer: the result is the graph stage of the pooled node features; those are the scatter-add, by graph index,
  of the node stage of the aggregated messages; those the scatter-add, by destination node, of the edge stage of the two
  gathered feature arrays, the edge features, the three row blocks of the weight matrix and the bias.  Each region's
  output is its stage's function of what it finds (the three region modules), and what it finds is a whole-array
  operation on launch arrays or on the region before's output (the module on what the regions find).
-/
import proofs.«421814_j64630667870280_2_alg».proof.Proof.KernelHost
import proofs.«421814_j64630667870280_2_alg».proof.Proof.KernelRun
import proofs.«421814_j64630667870280_2_alg».proof.Proof.Region0
import proofs.«421814_j64630667870280_2_alg».proof.Proof.Region1
import proofs.«421814_j64630667870280_2_alg».proof.Proof.Region2

set_option maxRecDepth 16384

noncomputable section

open scoped BigOperators

namespace Cert.KernelIdeal.Chain

open Idealize.ShloMosaic Idealize.ShloMosaic.TcCoe Idealize.ShloMosaic.ValueIdx Idealize.SL.Sem
open Idealize.ShloMosaic.Pipeline (Dat Cfg Window)
open Cert.KernelIdeal Cert.KernelIdeal.Gen
open Cert.KernelIdeal.Windows Cert.KernelIdeal.Host

variable (m : (ℓ : Loc nD τ sig) → Buf (Elt Ideal) ℓ) (ρ : Dev nD → PrngReg)

/-! ## The result as a term of the launch arrays -/

/-- The messages: the edge stage of the gathered source rows, the gathered destination rows, the edge features, the
    three row blocks of the weight matrix and the bias. -/
def msgs (c : Dev nD) : Vec Ideal S3200000x10 .f32 := fun i =>
  Cert.Spec.edgeMsg3 (fun e k => gathered m c (srcIdx m c) (ix2 e k)) (fun e k => gathered m c (dstIdx m c) (ix2 e k))
    (fun e k => edgeAttr m c (ix2 e k))
    (fun k j => extractStridedSlice S8x10 ![0, 0] (wm m c) slices_S20x10_S8x10_0_0 (ix2 k j))
    (fun k j => extractStridedSlice S8x10 ![8, 0] (wm m c) slices_S20x10_S8x10_8_0 (ix2 k j))
    (fun k j => extractStridedSlice S4x10 ![16, 0] (wm m c) slices_S20x10_S4x10_16_0 (ix2 k j))
    (fun j => shapeCast S1x10 (bmArg m c) shapeCasts_S10_S1x10 (ix2 (0 : Fin 1) j)) (i 0) (i 1)

/-- The aggregated messages: the messages added into a zero array at their destination nodes. -/
def aggregated (c : Dev nD) : Vec Ideal S100000x10 .f32 :=
  Host.scatterAdd (F := Ideal) (φ := .f32) scatter_S100000x10_S3200000x1_S3200000x10_1_0_0_1
    (broadcastInDim S100000x10 ![] bcast_S_S100000x10 (constant (F := Ideal) S_ .f32 0x00000000#32))
    (broadcastInDim S3200000x1 ![0] bcast_S3200000_S3200000x1_0 (dstIdx m c)) (msgs m c)

/-- The node features: the node stage of the aggregated messages. -/
def nodes (c : Dev nD) : Vec Ideal S100000x5 .f32 := fun i =>
  Cert.Spec.nodeMlp (fun n k => aggregated m c (ix2 n k))
    (fun k j => w1Arg m c (ix2 k j)) (fun j => shapeCast S1x10 (b1Arg m c) shapeCasts_S10_S1x10 (ix2 (0 : Fin 1) j))
    (fun k j => w2Arg m c (ix2 k j)) (fun j => shapeCast S1x10 (b2Arg m c) shapeCasts_S10_S1x10 (ix2 (0 : Fin 1) j))
    (fun k j => w3Arg m c (ix2 k j)) (fun j => shapeCast S1x5 (b3Arg m c) shapeCasts_S5_S1x5 (ix2 (0 : Fin 1) j)) (i 0) (i 1)

/-- The pooled node features: the node features added into a zero array at their graph indices. -/
def pooled (c : Dev nD) : Vec Ideal S5000x5 .f32 :=
  Host.scatterAdd (F := Ideal) (φ := .f32) scatter_S5000x5_S100000x1_S100000x5_1_0_0_1
    (broadcastInDim S5000x5 ![] bcast_S_S5000x5 (constant (F := Ideal) S_ .f32 0x00000000#32))
    (broadcastInDim S100000x1 ![0] bcast_S100000_S100000x1_0 (batchIdx m c)) (nodes m c)

/-- The result: the graph stage of the pooled node features. -/
def result (c : Dev nD) : Vec Ideal S5000x1 .f32 := fun i =>
  Cert.Spec.graphMlp (fun r k => pooled m c (ix2 r k))
    (fun k j => w4Arg m c (ix2 k j)) (fun j => shapeCast S1x5 (b4Arg m c) shapeCasts_S5_S1x5 (ix2 (0 : Fin 1) j))
    (fun k j => w5Arg m c (ix2 k j)) (fun j => shapeCast S1x1 (b5Arg m c) shapeCasts_S1_S1x1 (ix2 (0 : Fin 1) j)) (i 0) (i 1)

/-! ## The three regions' outputs are those terms -/

variable (hpre : ∀ c : Dev nD, Cert.Pre_finite_inputs.fn (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) = (fun _ => 1#1))
include hpre

/-- Region 0 leaves the messages. -/
theorem msgOut_eq (c : Dev nD) : msgOut m ρ c = msgs m c := by
  have hxs : Edge.xs (V4 m ρ) c = gathered m c (srcIdx m c) := e_xs_eq m ρ c (hpre c)
  have hxd : Edge.xd (V4 m ρ) c = gathered m c (dstIdx m c) := e_xd_eq m ρ c (hpre c)
  have hea : Edge.ea (V4 m ρ) c = edgeAttr m c := e_ea_eq m ρ c
  have hwa : Edge.wa (V4 m ρ) c = extractStridedSlice S8x10 ![0, 0] (wm m c) slices_S20x10_S8x10_0_0 := e_wa_eq m ρ c
  have hwb : Edge.wb (V4 m ρ) c = extractStridedSlice S8x10 ![8, 0] (wm m c) slices_S20x10_S8x10_8_0 := e_wb_eq m ρ c
  have hwc : Edge.wc (V4 m ρ) c = extractStridedSlice S4x10 ![16, 0] (wm m c) slices_S20x10_S4x10_16_0 := e_wc_eq m ρ c
  have hbm : Edge.bm (V4 m ρ) c = shapeCast S1x10 (bmArg m c) shapeCasts_S10_S1x10 := e_bm_eq m ρ c
  have hout : msgOut m ρ c = (dat0 (F := Ideal) (V4 m ρ) c).arrAt 7 cfg0.N := W5_arr m ρ c 7
  rw [hout, Edge.value (V4 m ρ) c, hxs, hxd, hea, hwa, hwb, hwc, hbm]
  rfl

/-- Region 1 leaves the node features. -/
theorem nodeOut_eq (c : Dev nD) : nodeOut m ρ c = nodes m c := by
  have hx : Node.x (V6 m ρ) c = aggregated m c := by
    have h := n_x_eq m ρ c
    rw [msgOut_eq m ρ hpre c] at h
    exact h
  have hw1 : Node.w1 (V6 m ρ) c = w1Arg m c := n_w1_eq m ρ c
  have hb1 : Node.b1 (V6 m ρ) c = shapeCast S1x10 (b1Arg m c) shapeCasts_S10_S1x10 := n_b1_eq m ρ c
  have hw2 : Node.w2 (V6 m ρ) c = w2Arg m c := n_w2_eq m ρ c
  have hb2 : Node.b2 (V6 m ρ) c = shapeCast S1x10 (b2Arg m c) shapeCasts_S10_S1x10 := n_b2_eq m ρ c
  have hw3 : Node.w3 (V6 m ρ) c = w3Arg m c := n_w3_eq m ρ c
  have hb3 : Node.b3 (V6 m ρ) c = shapeCast S1x5 (b3Arg m c) shapeCasts_S5_S1x5 := n_b3_eq m ρ c
  have hout : nodeOut m ρ c = (dat1 (F := Ideal) (V6 m ρ) c).arrAt 7 cfg1.N := W7_arr m ρ c 7
  rw [hout, Node.value (V6 m ρ) c, hx, hw1, hb1, hw2, hb2, hw3, hb3]
  rfl

/-- Region 2 leaves the result. -/
theorem result_eq (c : Dev nD) :
    (W9 (F := Ideal) m ρ c (Proc.devRef .tc main_v23) : Vec Ideal S5000x1 .f32) = result m c := by
  have hg : Graph.g (V8 m ρ) c = pooled m c := by
    have h := g_x_eq m ρ c
    rw [nodeOut_eq m ρ hpre c] at h
    exact h
  have hw4 : Graph.w4 (V8 m ρ) c = w4Arg m c := g_w4_eq m ρ c
  have hb4 : Graph.b4 (V8 m ρ) c = shapeCast S1x5 (b4Arg m c) shapeCasts_S5_S1x5 := g_b4_eq m ρ c
  have hw5 : Graph.w5 (V8 m ρ) c = w5Arg m c := g_w5_eq m ρ c
  have hb5 : Graph.b5 (V8 m ρ) c = shapeCast S1x1 (b5Arg m c) shapeCasts_S1_S1x1 := g_b5_eq m ρ c
  have hout : (W9 (F := Ideal) m ρ c (Proc.devRef .tc main_v23) : Vec Ideal S5000x1 .f32)
      = (dat2 (F := Ideal) (V8 m ρ) c).arrAt 5 cfg2.N := W9_arr m ρ c 5
  rw [hout, Graph.value (V8 m ρ) c, hg, hw4, hb4, hw5, hb5]
  rfl

/-- Every weakly fair execution of the program from a memory satisfying the precondition terminates without a fault
    with the result buffer at `result` and the sixteen argument arrays as launched. -/
theorem run : θ_run defs (onTc (τ := τ) (main (F := Ideal))) ⟨m, fun _ => 0, ρ⟩ (fun r => ∀ c : Dev nD,
      r.2.mem ((c.tc : Thread nD τ).loc main_v23) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)) :=
  (θ_run defs _ _).mono (fun r h c => ⟨(h c).1.trans (result_eq m ρ hpre c), (h c).2⟩)
    (Cert.KernelIdeal.Run.run_result (F := Ideal) m ρ)

end Cert.KernelIdeal.Chain

end
-- ==== Proof.RefValue.lean ====
/-
  The reference program's three dense stages, entry by entry.  Its edge stage joins the gathered source row, the gathered
  destination row and the edge's own row into one row of length 20 and contracts it against the whole weight matrix: the
  contraction's sum of twenty terms is the sum of its first eight, its next eight and its last four
  (`Cert.Spec.sum_fin20_split`), which is the form `Cert.Spec.edgeMsg` has.  The node and graph stages are the same
  affine layers and positive parts as `Cert.Spec.nodeMlp` and `Cert.Spec.graphMlp`, read operation by operation.
  The two gathers and the two scatter-adds are carried whole, never opened.
-/
import proofs.«421814_j64630667870280_2_alg».proof.Proof.Gen.ReferenceIdeal.Read
import proofs.«421814_j64630667870280_2_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.ReferenceIdeal.RefValue

open Idealize.ShloMosaic Idealize.ShloMosaic.TcCoe Idealize.ShloMosaic.ValueIdx Idealize.SL.Sem
open Cert.ReferenceIdeal Cert.ReferenceIdeal.Gen Cert.ReferenceIdeal.Read

/-! ### The edge stage: the joined row read in each of its three column ranges, and the index equations -/

/-- Columns 0–7 of the joined row are the first piece's row. -/
theorem cat_fst (y₁ y₂ : (⟨S3200000x8, .f32⟩ : BufTy).Contents (Elt Ideal)) (y₃ : (⟨S3200000x4, .f32⟩ : BufTy).Contents (Elt Ideal))
    (e : Fin 3200000) (k : Fin 8) :
    concatenate S3200000x20 1 [⟨S3200000x8, y₁⟩, ⟨S3200000x8, y₂⟩, ⟨S3200000x4, y₃⟩]
        concatenates_S3200000x8_S3200000x8_S3200000x4_S3200000x20_d1 (ix2 e (⟨k.val, by omega⟩ : Fin 20)) = y₁ (ix2 e k) :=
  concatenate_apply_piece (t := S3200000x20) 1 _ _ _ 0 (by simp) S3200000x8 y₁ rfl rfl 0 rfl (ix2 e k)
    (fun b hb => by match b with | ⟨0, _⟩ => rfl | ⟨1, _⟩ => exact absurd rfl hb) (Nat.zero_add _)

/-- Columns 8–15 of the joined row are the second piece's row. -/
theorem cat_snd (y₁ y₂ : (⟨S3200000x8, .f32⟩ : BufTy).Contents (Elt Ideal)) (y₃ : (⟨S3200000x4, .f32⟩ : BufTy).Contents (Elt Ideal))
    (e : Fin 3200000) (k : Fin 8) :
    concatenate S3200000x20 1 [⟨S3200000x8, y₁⟩, ⟨S3200000x8, y₂⟩, ⟨S3200000x4, y₃⟩]
        concatenates_S3200000x8_S3200000x8_S3200000x4_S3200000x20_d1 (ix2 e (⟨8 + k.val, by omega⟩ : Fin 20)) = y₂ (ix2 e k) :=
  concatenate_apply_piece (t := S3200000x20) 1 _ _ _ 1 (by simp) S3200000x8 y₂ rfl rfl 8 rfl (ix2 e k)
    (fun b hb => by match b with | ⟨0, _⟩ => rfl | ⟨1, _⟩ => exact absurd rfl hb) rfl

/-- Columns 16–19 of the joined row are the third piece's row. -/
theorem cat_trd (y₁ y₂ : (⟨S3200000x8, .f32⟩ : BufTy).Contents (Elt Ideal)) (y₃ : (⟨S3200000x4, .f32⟩ : BufTy).Contents (Elt Ideal))
    (e : Fin 3200000) (k : Fin 4) :
    concatenate S3200000x20 1 [⟨S3200000x8, y₁⟩, ⟨S3200000x8, y₂⟩, ⟨S3200000x4, y₃⟩]
        concatenates_S3200000x8_S3200000x8_S3200000x4_S3200000x20_d1 (ix2 e (⟨16 + k.val, by omega⟩ : Fin 20)) = y₃ (ix2 e k) :=
  concatenate_apply_piece (t := S3200000x20) 1 _ _ _ 2 (by simp) S3200000x4 y₃ rfl rfl 16 rfl (ix2 e k)
    (fun b hb => by match b with | ⟨0, _⟩ => rfl | ⟨1, _⟩ => exact absurd rfl hb) rfl

/-- The joined row against a weight column: the twenty-term sum is the first piece's eight terms, the second piece's
    eight and the third piece's four, each against its own rows of the weight matrix. -/
theorem joined_dot (y₁ y₂ : (⟨S3200000x8, .f32⟩ : BufTy).Contents (Elt Ideal)) (y₃ : (⟨S3200000x4, .f32⟩ : BufTy).Contents (Elt Ideal))
    (W : (⟨S20x10, .f32⟩ : BufTy).Contents (Elt Ideal)) (e : Fin 3200000) (j : Fin 10) :
    (∑ k : Fin 20, concatenate S3200000x20 1 [⟨S3200000x8, y₁⟩, ⟨S3200000x8, y₂⟩, ⟨S3200000x4, y₃⟩]
        concatenates_S3200000x8_S3200000x8_S3200000x4_S3200000x20_d1 (ix2 e k) * W (ix2 k j))
      = ((∑ k : Fin 8, y₁ (ix2 e k) * W (ix2 (⟨k.val, by omega⟩ : Fin 20) j))
          + (∑ k : Fin 8, y₂ (ix2 e k) * W (ix2 (⟨8 + k.val, by omega⟩ : Fin 20) j)))
        + (∑ k : Fin 4, y₃ (ix2 e k) * W (ix2 (⟨16 + k.val, by omega⟩ : Fin 20) j)) := by
  rw [Cert.Spec.sum_fin20_split]
  refine congrArg₂ (· + ·) (congrArg₂ (· + ·) (Finset.sum_congr rfl fun k _ => ?_) (Finset.sum_congr rfl fun k _ => ?_))
    (Finset.sum_congr rfl fun k _ => ?_)
  · rw [cat_fst]
  · rw [cat_snd]
  · rw [cat_trd]

theorem lidx19 (e : Fin 3200000) (j : Fin 10) (k : Fin 20) : lidx_main_v19 (ix2 e j) k = ix2 e k :=
  funext fun a => Fin.ext (by match a with | ⟨0, _⟩ => rfl | ⟨1, _⟩ => rfl)
theorem ridx19 (e : Fin 3200000) (j : Fin 10) (k : Fin 20) : ridx_main_v19 (ix2 e j) k = ix2 k j :=
  funext fun a => Fin.ext (by match a with | ⟨0, _⟩ => rfl | ⟨1, _⟩ => rfl)
theorem idx20_21 (e : Fin 3200000) (j : Fin 10) : idx_main_v20 (idx_main_v21 (ix2 e j)) = ix1 j :=
  funext fun a => Fin.ext (by match a with | ⟨0, _⟩ => rfl)

/-! ### The node stage: index equations of the three contractions and the three biases -/

theorem lidx27 (p : Fin 100000) (q : Fin 10) (k : Fin 10) : lidx_main_v27 (ix2 p q) k = ix2 p k :=
  funext fun a => Fin.ext (by match a with | ⟨0, _⟩ => rfl | ⟨1, _⟩ => rfl)
theorem ridx27 (p : Fin 100000) (q : Fin 10) (k : Fin 10) : ridx_main_v27 (ix2 p q) k = ix2 k q :=
  funext fun a => Fin.ext (by match a with | ⟨0, _⟩ => rfl | ⟨1, _⟩ => rfl)
theorem lidx32 (p : Fin 100000) (q : Fin 10) (k : Fin 10) : lidx_main_v32 (ix2 p q) k = ix2 p k :=
  funext fun a => Fin.ext (by match a with | ⟨0, _⟩ => rfl | ⟨1, _⟩ => rfl)
theorem ridx32 (p : Fin 100000) (q : Fin 10) (k : Fin 10) : ridx_main_v32 (ix2 p q) k = ix2 k q :=
  funext fun a => Fin.ext (by match a with | ⟨0, _⟩ => rfl | ⟨1, _⟩ => rfl)
theorem lidx37 (p : Fin 100000) (q : Fin 5) (k : Fin 10) : lidx_main_v37 (ix2 p q) k = ix2 p k :=
  funext fun a => Fin.ext (by match a with | ⟨0, _⟩ => rfl | ⟨1, _⟩ => rfl)
theorem ridx37 (p : Fin 100000) (q : Fin 5) (k : Fin 10) : ridx_main_v37 (ix2 p q) k = ix2 k q :=
  funext fun a => Fin.ext (by match a with | ⟨0, _⟩ => rfl | ⟨1, _⟩ => rfl)
theorem idx28_29 (p : Fin 100000) (q : Fin 10) : idx_main_v28 (idx_main_v29 (ix2 p q)) = ix1 q :=
  funext fun a => Fin.ext (by match a with | ⟨0, _⟩ => rfl)
theorem idx33_34 (p : Fin 100000) (q : Fin 10) : idx_main_v33 (idx_main_v34 (ix2 p q)) = ix1 q :=
  funext fun a => Fin.ext (by match a with | ⟨0, _⟩ => rfl)
theorem idx38_39 (p : Fin 100000) (q : Fin 5) : idx_main_v38 (idx_main_v39 (ix2 p q)) = ix1 q :=
  funext fun a => Fin.ext (by match a with | ⟨0, _⟩ => rfl)

/-! ### The graph stage: index equations of the two contractions and the two biases -/

theorem lidx50 (p : Fin 5000) (q : Fin 1) (k : Fin 5) : lidx_main_v50 (ix2 p q) k = ix2 p k :=
  funext fun a => Fin.ext (by match a with | ⟨0, _⟩ => rfl | ⟨1, _⟩ => rfl)
theorem ridx50 (p : Fin 5000) (q : Fin 1) (k : Fin 5) : ridx_main_v50 (ix2 p q) k = ix2 k q :=
  funext fun a => Fin.ext (by match a with | ⟨0, _⟩ => rfl | ⟨1, _⟩ => rfl)
theorem lidx45 (p : Fin 5000) (q : Fin 5) (k : Fin 5) : lidx_main_v45 (ix2 p q) k = ix2 p k :=
  funext fun a => Fin.ext (by match a with | ⟨0, _⟩ => rfl | ⟨1, _⟩ => rfl)
theorem ridx45 (p : Fin 5000) (q : Fin 5) (k : Fin 5) : ridx_main_v45 (ix2 p q) k = ix2 k q :=
  funext fun a => Fin.ext (by match a with | ⟨0, _⟩ => rfl | ⟨1, _⟩ => rfl)
theorem idx46_47 (p : Fin 5000) (q : Fin 5) : idx_main_v46 (idx_main_v47 (ix2 p q)) = ix1 q :=
  funext fun a => Fin.ext (by match a with | ⟨0, _⟩ => rfl)
theorem idx51_52 (p : Fin 5000) (q : Fin 1) : idx_main_v51 (idx_main_v52 (ix2 p q)) = ix1 q :=
  funext fun a => Fin.ext (by match a with | ⟨0, _⟩ => exact (Nat.lt_one_iff.1 q.isLt).symm)

/-- The messages: entry (e, j) is the edge stage of row e of the two gathered arrays and of the edge features. -/
theorem edge (x0 : (⟨S2x3200000, .i32⟩ : BufTy).Contents (Elt Ideal)) (x1 : (⟨S100000x8, .f32⟩ : BufTy).Contents (Elt Ideal)) (x2 : (⟨S3200000x4, .f32⟩ : BufTy).Contents (Elt Ideal)) (x4 : (⟨S20x10, .f32⟩ : BufTy).Contents (Elt Ideal)) (x5 : (⟨S10, .f32⟩ : BufTy).Contents (Elt Ideal)) :
    val_main_v23 (F := Ideal) x0 x1 x2 x4 x5
      = fun i => Cert.Spec.edgeMsg (fun e k => val_main_v10 (F := Ideal) x0 x1 (ix2 e k)) (fun e k => val_main_v17 (F := Ideal) x0 x1 (ix2 e k))
          (fun e k => x2 (ix2 e k)) (fun k j => x4 (ix2 k j)) (fun j => x5 (ix1 j)) (i 0) (i 1) := by
  funext i
  obtain ⟨e, j, rfl⟩ : ∃ (e : Fin 3200000) (j : Fin 10), i = ix2 e j := ⟨i 0, i 1, eq_ix2 i⟩
  -- entry (e, j): the positive part of (row e of the joined array against column j of the weights, plus bias j)
  rw [val_main_v23_apply, val_main_v22_apply, val_main_v19_apply, val_main_v21_apply, val_main_v20_apply,
    val_main_call0_v0_apply, val_main_call0_cst_apply, idx20_21, Ideal.maximumf_def, Ideal.addf_def, Ideal.ofBits_def,
    Ideal.ofBits_zero_f32]
  simp (config := { implicitDefEqProofs := false }) only [lidx19, ridx19]
  -- the two gathered arrays enter only through their entries
  unfold val_main_v18
  generalize val_main_v10 (F := Ideal) x0 x1 = y₁
  generalize val_main_v17 (F := Ideal) x0 x1 = y₂
  -- the twenty-term sum is cut 8 + 8 + 4, which is the three-block form of the message
  rw [joined_dot]
  rfl

/-- The node features: entry (n, j) is the node stage of row n of the aggregated messages. -/
theorem node (x0 : (⟨S2x3200000, .i32⟩ : BufTy).Contents (Elt Ideal)) (x1 : (⟨S100000x8, .f32⟩ : BufTy).Contents (Elt Ideal)) (x2 : (⟨S3200000x4, .f32⟩ : BufTy).Contents (Elt Ideal)) (x4 : (⟨S20x10, .f32⟩ : BufTy).Contents (Elt Ideal)) (x5 : (⟨S10, .f32⟩ : BufTy).Contents (Elt Ideal)) (x6 : (⟨S10x10, .f32⟩ : BufTy).Contents (Elt Ideal)) (x7 : (⟨S10, .f32⟩ : BufTy).Contents (Elt Ideal)) (x8 : (⟨S10x10, .f32⟩ : BufTy).Contents (Elt Ideal)) (x9 : (⟨S10, .f32⟩ : BufTy).Contents (Elt Ideal)) (x10 : (⟨S10x5, .f32⟩ : BufTy).Contents (Elt Ideal)) (x11 : (⟨S5, .f32⟩ : BufTy).Contents (Elt Ideal)) :
    val_main_v41 (F := Ideal) x0 x1 x2 x4 x5 x6 x7 x8 x9 x10 x11
      = fun i => Cert.Spec.nodeMlp (fun n k => val_main_v26 (F := Ideal) x0 x1 x2 x4 x5 (ix2 n k))
          (fun k j => x6 (ix2 k j)) (fun j => x7 (ix1 j)) (fun k j => x8 (ix2 k j)) (fun j => x9 (ix1 j))
          (fun k j => x10 (ix2 k j)) (fun j => x11 (ix1 j)) (i 0) (i 1) := by
  funext i
  obtain ⟨p, q, rfl⟩ : ∃ (p : Fin 100000) (q : Fin 5), i = ix2 p q := ⟨i 0, i 1, eq_ix2 i⟩
  -- the outer layer at (n, j), then the two inner layers under its sum: each a row against a weight column, plus its
  -- bias, then the positive part
  rw [val_main_v41_apply, val_main_v40_apply, val_main_v37_apply, val_main_v39_apply, val_main_v38_apply,
    val_main_call3_v0_apply, val_main_call3_cst_apply]
  simp (config := { implicitDefEqProofs := false }) only [val_main_v36_apply, val_main_v35_apply, val_main_v32_apply, val_main_v34_apply, val_main_v33_apply,
    val_main_call2_v0_apply, val_main_call2_cst_apply,
    val_main_v31_apply, val_main_v30_apply, val_main_v27_apply, val_main_v29_apply, val_main_v28_apply,
    val_main_call1_v0_apply, val_main_call1_cst_apply,
    lidx37, ridx37, lidx32, ridx32, lidx27, ridx27, idx38_39, idx33_34, idx28_29,
    Ideal.addf_def, Ideal.maximumf_def, Ideal.ofBits_def, Ideal.ofBits_zero_f32]
  -- the aggregated messages enter only through their entries
  generalize val_main_v26 (F := Ideal) x0 x1 x2 x4 x5 = y
  rfl

/-- The result: entry (g, 0) is the graph stage of row g of the pooled node features. -/
theorem graph (x0 : (⟨S2x3200000, .i32⟩ : BufTy).Contents (Elt Ideal)) (x1 : (⟨S100000x8, .f32⟩ : BufTy).Contents (Elt Ideal)) (x2 : (⟨S3200000x4, .f32⟩ : BufTy).Contents (Elt Ideal)) (x3 : (⟨S100000, .i32⟩ : BufTy).Contents (Elt Ideal)) (x4 : (⟨S20x10, .f32⟩ : BufTy).Contents (Elt Ideal)) (x5 : (⟨S10, .f32⟩ : BufTy).Contents (Elt Ideal)) (x6 : (⟨S10x10, .f32⟩ : BufTy).Contents (Elt Ideal)) (x7 : (⟨S10, .f32⟩ : BufTy).Contents (Elt Ideal)) (x8 : (⟨S10x10, .f32⟩ : BufTy).Contents (Elt Ideal)) (x9 : (⟨S10, .f32⟩ : BufTy).Contents (Elt Ideal)) (x10 : (⟨S10x5, .f32⟩ : BufTy).Contents (Elt Ideal)) (x11 : (⟨S5, .f32⟩ : BufTy).Contents (Elt Ideal)) (x12 : (⟨S5x5, .f32⟩ : BufTy).Contents (Elt Ideal)) (x13 : (⟨S5, .f32⟩ : BufTy).Contents (Elt Ideal)) (x14 : (⟨S5x1, .f32⟩ : BufTy).Contents (Elt Ideal)) (x15 : (⟨S1, .f32⟩ : BufTy).Contents (Elt Ideal)) :
    val_main_v53 (F := Ideal) x0 x1 x2 x3 x4 x5 x6 x7 x8 x9 x10 x11 x12 x13 x14 x15
      = fun i => Cert.Spec.graphMlp (fun r k => val_main_v44 (F := Ideal) x0 x1 x2 x3 x4 x5 x6 x7 x8 x9 x10 x11 (ix2 r k))
          (fun k j => x12 (ix2 k j)) (fun j => x13 (ix1 j)) (fun k j => x14 (ix2 k j)) (fun j => x15 (ix1 j)) (i 0) (i 1) := by
  funext i
  obtain ⟨p, q, rfl⟩ : ∃ (p : Fin 5000) (q : Fin 1), i = ix2 p q := ⟨i 0, i 1, eq_ix2 i⟩
  -- the outer affine layer at (g, 0), then under its sum the inner layer with its positive part
  rw [val_main_v53_apply, val_main_v50_apply, val_main_v52_apply, val_main_v51_apply]
  simp (config := { implicitDefEqProofs := false }) only [val_main_v49_apply, val_main_v48_apply, val_main_v45_apply, val_main_v47_apply, val_main_v46_apply,
    val_main_call4_v0_apply, val_main_call4_cst_apply, lidx50, ridx50, lidx45, ridx45, idx46_47, idx51_52,
    Ideal.addf_def, Ideal.maximumf_def, Ideal.ofBits_def, Ideal.ofBits_zero_f32]
  -- the pooled node features enter only through their entries
  generalize val_main_v44 (F := Ideal) x0 x1 x2 x3 x4 x5 x6 x7 x8 x9 x10 x11 = y
  rfl

end Cert.ReferenceIdeal.RefValue

end
-- ==== Proof.Views.lean ====
/-
  Two ways the program presents a small operand to a region, read at an entry.  A bias vector of length n is handed
  over as a 1-by-n array: its entry (0, j) is the vector's entry j.  The weight matrix of twenty rows is handed over as
  three row blocks: entry (k, j) of the block that starts at row r is the matrix's entry (r + k, j).
-/
import proofs.«421814_j64630667870280_2_alg».proof.Proof.Gen.KernelIdeal
import Idealize.ShloMosaic.PureOps.Ideal
import Idealize.ShloMosaic.Lib.Pipeline.Value
import Idealize.ShloMosaic.Lib.ValueIdx

noncomputable section

namespace Cert.KernelIdeal.Views

open Idealize.ShloMosaic Idealize.ShloMosaic.ValueIdx Cert.KernelIdeal Cert.KernelIdeal.Facts₀

/-- A vector of length 10 as a 1-by-10 array, at (0, j). -/
theorem bias10 (b : Vec Ideal S10 .f32) (j : Fin 10) :
    shapeCast S1x10 b shapeCasts_S10_S1x10 (ix2 (0 : Fin 1) j) = b (ix1 j) := by
  refine (shapeCast_addUnit_apply ![10] b shapeCasts_S10_S1x10 (ix2 (0 : Fin 1) j)).trans (congrArg b ?_)
  funext a; match a with | ⟨0, _⟩ => rfl

/-- A vector of length 5 as a 1-by-5 array, at (0, j). -/
theorem bias5 (b : Vec Ideal S5 .f32) (j : Fin 5) :
    shapeCast S1x5 b shapeCasts_S5_S1x5 (ix2 (0 : Fin 1) j) = b (ix1 j) := by
  refine (shapeCast_addUnit_apply ![5] b shapeCasts_S5_S1x5 (ix2 (0 : Fin 1) j)).trans (congrArg b ?_)
  funext a; match a with | ⟨0, _⟩ => rfl

/-- A vector of length 1 as a 1-by-1 array, at (0, j). -/
theorem bias1 (b : Vec Ideal S1 .f32) (j : Fin 1) :
    shapeCast S1x1 b shapeCasts_S1_S1x1 (ix2 (0 : Fin 1) j) = b (ix1 j) := by
  refine (shapeCast_addUnit_apply ![1] b shapeCasts_S1_S1x1 (ix2 (0 : Fin 1) j)).trans (congrArg b ?_)
  funext a; match a with | ⟨0, _⟩ => rfl

/-- Rows 0–7 of the weight matrix, at (k, j). -/
theorem rows0 (W : Vec Ideal S20x10 .f32) (k : Fin 8) (j : Fin 10) :
    extractStridedSlice S8x10 ![0, 0] W slices_S20x10_S8x10_0_0 (ix2 k j) = W (ix2 (⟨k.val, by omega⟩ : Fin 20) j) :=
  extractStridedSlice_apply ![0, 0] W slices_S20x10_S8x10_0_0 (ix2 k j) (ix2 (⟨k.val, by omega⟩ : Fin 20) j)
    (fun a => match a with
      | ⟨0, _⟩ => by show k.val = 0 + k.val; omega
      | ⟨1, _⟩ => by show j.val = 0 + j.val; omega)

/-- Rows 8–15 of the weight matrix, at (k, j). -/
theorem rows8 (W : Vec Ideal S20x10 .f32) (k : Fin 8) (j : Fin 10) :
    extractStridedSlice S8x10 ![8, 0] W slices_S20x10_S8x10_8_0 (ix2 k j) = W (ix2 (⟨8 + k.val, by omega⟩ : Fin 20) j) :=
  extractStridedSlice_apply ![8, 0] W slices_S20x10_S8x10_8_0 (ix2 k j) (ix2 (⟨8 + k.val, by omega⟩ : Fin 20) j)
    (fun a => match a with
      | ⟨0, _⟩ => by show 8 + k.val = 8 + k.val; rfl
      | ⟨1, _⟩ => by show j.val = 0 + j.val; omega)

/-- Rows 16–19 of the weight matrix, at (k, j). -/
theorem rows16 (W : Vec Ideal S20x10 .f32) (k : Fin 4) (j : Fin 10) :
    extractStridedSlice S4x10 ![16, 0] W slices_S20x10_S4x10_16_0 (ix2 k j) = W (ix2 (⟨16 + k.val, by omega⟩ : Fin 20) j) :=
  extractStridedSlice_apply ![16, 0] W slices_S20x10_S4x10_16_0 (ix2 k j) (ix2 (⟨16 + k.val, by omega⟩ : Fin 20) j)
    (fun a => match a with
      | ⟨0, _⟩ => by show 16 + k.val = 16 + k.val; rfl
      | ⟨1, _⟩ => by show j.val = 0 + j.val; omega)

end Cert.KernelIdeal.Views

end
-- ==== Proof.Bridge.lean ====
/-
  The two programs compute one function.  The reference's result is, stage by stage, the graph stage of a scatter-add of
  the node stage of a scatter-add of the edge stage of two gathers (the module on the reference's stages); the kernel
  program's result is the same tower (the module on the program's result).  The gathers, the scatter-adds, the index
  columns and the zero arrays are the same operations in both programs.  What differs is how the small operands are
  presented: the kernel program's regions receive each bias vector as a one-row array and the weight matrix of the edge
  stage as three row blocks, and a one-row array's entry (0, j) is the vector's entry j, a row block's entry (k, j) the
  matrix's entry (r + k, j).
-/
import proofs.«421814_j64630667870280_2_alg».proof.Defs
import proofs.«421814_j64630667870280_2_alg».proof.Proof.Gen.Kernel.Frame
import proofs.«421814_j64630667870280_2_alg».proof.Proof.KernelValue
import proofs.«421814_j64630667870280_2_alg».proof.Proof.RefValue
import proofs.«421814_j64630667870280_2_alg».proof.Proof.Views
import proofs.«421814_j64630667870280_2_alg».proof.Proof.Gen.ReferenceIdeal.Run

set_option maxRecDepth 16384

noncomputable section

open scoped BigOperators

namespace Cert.Proof.Bridge

open Idealize.ShloMosaic Idealize.ShloMosaic.TcCoe Idealize.ShloMosaic.ValueIdx Idealize.SL.Sem
open Cert.KernelIdeal Cert.KernelIdeal.Host Cert.KernelIdeal.Chain
open Cert.ReferenceIdeal.Read

variable (m : (ℓ : Loc Cert.KernelIdeal.nD Cert.KernelIdeal.τ Cert.KernelIdeal.sig) → Buf (Elt Ideal) ℓ) (c : Dev Cert.KernelIdeal.nD)

/-- The reference's messages are the kernel program's. -/
theorem msgs_eq : val_main_v23 (F := Ideal) (edgeIndex m c) (nodeAttr m c) (edgeAttr m c) (wm m c) (bmArg m c) = msgs m c := by
  rw [Cert.ReferenceIdeal.RefValue.edge]
  have hA : (fun (k : Fin 8) (j : Fin 10) => extractStridedSlice S8x10 ![0, 0] (wm m c) Cert.KernelIdeal.Facts₀.slices_S20x10_S8x10_0_0 (ix2 k j))
      = Cert.Spec.rowsA (fun k j => wm m c (ix2 k j)) := funext fun k => funext fun j => Cert.KernelIdeal.Views.rows0 (wm m c) k j
  have hB : (fun (k : Fin 8) (j : Fin 10) => extractStridedSlice S8x10 ![8, 0] (wm m c) Cert.KernelIdeal.Facts₀.slices_S20x10_S8x10_8_0 (ix2 k j))
      = Cert.Spec.rowsB (fun k j => wm m c (ix2 k j)) := funext fun k => funext fun j => Cert.KernelIdeal.Views.rows8 (wm m c) k j
  have hC : (fun (k : Fin 4) (j : Fin 10) => extractStridedSlice S4x10 ![16, 0] (wm m c) Cert.KernelIdeal.Facts₀.slices_S20x10_S4x10_16_0 (ix2 k j))
      = Cert.Spec.rowsC (fun k j => wm m c (ix2 k j)) := funext fun k => funext fun j => Cert.KernelIdeal.Views.rows16 (wm m c) k j
  have hb : (fun (j : Fin 10) => shapeCast S1x10 (bmArg m c) Cert.KernelIdeal.Facts₀.shapeCasts_S10_S1x10 (ix2 (0 : Fin 1) j))
      = fun j => bmArg m c (ix1 j) := funext fun j => Cert.KernelIdeal.Views.bias10 (bmArg m c) j
  unfold msgs
  rw [hA, hB, hC, hb]
  rfl

/-- The reference's aggregated messages are the kernel program's. -/
theorem aggregated_eq : val_main_v26 (F := Ideal) (edgeIndex m c) (nodeAttr m c) (edgeAttr m c) (wm m c) (bmArg m c) = aggregated m c := by
  unfold val_main_v26 aggregated
  rw [msgs_eq m c]
  rfl

/-- The reference's node features are the kernel program's. -/
theorem nodes_eq : val_main_v41 (F := Ideal) (edgeIndex m c) (nodeAttr m c) (edgeAttr m c) (wm m c) (bmArg m c) (w1Arg m c) (b1Arg m c) (w2Arg m c) (b2Arg m c) (w3Arg m c) (b3Arg m c) = nodes m c := by
  rw [Cert.ReferenceIdeal.RefValue.node, aggregated_eq m c]
  have hb1 : (fun (j : Fin 10) => shapeCast S1x10 (b1Arg m c) Cert.KernelIdeal.Facts₀.shapeCasts_S10_S1x10 (ix2 (0 : Fin 1) j))
      = fun j => b1Arg m c (ix1 j) := funext fun j => Cert.KernelIdeal.Views.bias10 (b1Arg m c) j
  have hb2 : (fun (j : Fin 10) => shapeCast S1x10 (b2Arg m c) Cert.KernelIdeal.Facts₀.shapeCasts_S10_S1x10 (ix2 (0 : Fin 1) j))
      = fun j => b2Arg m c (ix1 j) := funext fun j => Cert.KernelIdeal.Views.bias10 (b2Arg m c) j
  have hb3 : (fun (j : Fin 5) => shapeCast S1x5 (b3Arg m c) Cert.KernelIdeal.Facts₀.shapeCasts_S5_S1x5 (ix2 (0 : Fin 1) j))
      = fun j => b3Arg m c (ix1 j) := funext fun j => Cert.KernelIdeal.Views.bias5 (b3Arg m c) j
  unfold nodes
  rw [hb1, hb2, hb3]

/-- The reference's pooled node features are the kernel program's. -/
theorem pooled_eq : val_main_v44 (F := Ideal) (edgeIndex m c) (nodeAttr m c) (edgeAttr m c) (batchIdx m c) (wm m c) (bmArg m c) (w1Arg m c) (b1Arg m c) (w2Arg m c) (b2Arg m c) (w3Arg m c) (b3Arg m c) = pooled m c := by
  unfold val_main_v44 pooled
  rw [nodes_eq m c]
  rfl

/-- The reference's result is the kernel program's. -/
theorem result_eq : val_main_v53 (F := Ideal) (edgeIndex m c) (nodeAttr m c) (edgeAttr m c) (batchIdx m c) (wm m c) (bmArg m c) (w1Arg m c) (b1Arg m c) (w2Arg m c) (b2Arg m c) (w3Arg m c) (b3Arg m c) (w4Arg m c) (b4Arg m c) (w5Arg m c) (b5Arg m c) = result m c := by
  rw [Cert.ReferenceIdeal.RefValue.graph, pooled_eq m c]
  have hb4 : (fun (j : Fin 5) => shapeCast S1x5 (b4Arg m c) Cert.KernelIdeal.Facts₀.shapeCasts_S5_S1x5 (ix2 (0 : Fin 1) j))
      = fun j => b4Arg m c (ix1 j) := funext fun j => Cert.KernelIdeal.Views.bias5 (b4Arg m c) j
  have hb5 : (fun (j : Fin 1) => shapeCast S1x1 (b5Arg m c) Cert.KernelIdeal.Facts₀.shapeCasts_S1_S1x1 (ix2 (0 : Fin 1) j))
      = fun j => b5Arg m c (ix1 j) := funext fun j => Cert.KernelIdeal.Views.bias1 (b5Arg m c) j
  unfold result
  rw [hb4, hb5]

end Cert.Proof.Bridge

/-! ## The claims -/

namespace Cert.Proof.Claims

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- This conjunct has one part per rewrite the idealization pass records for the program; it records none here, and
    the conjunct is the proposition `True`. -/
theorem preserves : Cert.preserves_Kernel_KernelIdeal := trivial

/-- From memories that agree on the sixteen arguments and satisfy the precondition, the kernel program ends with its
    result buffer at the tower of stages of its launch arrays, the reference with its own at the same tower of ITS launch
    arrays; the arrays agree, so the results do. -/
theorem algebraic : Cert.algebraic_KernelIdeal_ReferenceIdeal := by
  intro m ρ m' ρ' hpre hagree
  refine ⟨fun c => Cert.KernelIdeal.Chain.result m c, Cert.KernelIdeal.Chain.run m ρ hpre, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14, h15⟩ := hagree c
  rw [Cert.ReferenceIdeal.Read.val_main_v53_eq, h0, h1, h2, h3, h4, h5, h6, h7, h8, h9, h10, h11, h12, h13, h14, h15]
  exact Cert.Proof.Bridge.result_eq m c

end Cert.Proof.Claims

end
-- ==== Proof.lean ====
/-
  A message-passing network on a graph of 100,000 nodes and 3,200,000 edges: per edge, an affine layer and the positive
  part over the joined source row, destination row and edge row; the messages summed into their destination nodes; per
  node, three affine layers each followed by the positive part; the node features summed into their graphs; per graph,
  an affine layer, the positive part and an affine layer.  The kernel program runs the three dense stages as pipelined
  regions over row blocks and keeps the gathers and the sums as whole-array operations; the reference is whole-array
  throughout and contracts the joined row against the whole weight matrix where the kernel program contracts its three
  parts against three row blocks.  Over the extended reals the two are one function: a sum of twenty terms is the sum of
  its first eight, next eight and last four, and every other operation is the same operation on the same operands.
  The edge indices are assumed to be valid row indices in numpy's sense (-100000 <= i < 100000): both programs wrap a
  negative index, and within that range the kernel program's guarded gather keeps every gathered row.
-/
import proofs.«421814_j64630667870280_2_alg».proof.Defs
import proofs.«421814_j64630667870280_2_alg».proof.Proof.Gen.Kernel
import proofs.«421814_j64630667870280_2_alg».proof.Proof.Gen.Kernel.Skeleton
import proofs.«421814_j64630667870280_2_alg».proof.Proof.Gen.Kernel.Launch
import proofs.«421814_j64630667870280_2_alg».proof.Proof.Gen.Kernel.Points
import proofs.«421814_j64630667870280_2_alg».proof.Proof.Gen.Kernel.Frame
import proofs.«421814_j64630667870280_2_alg».proof.Proof.Gen.KernelIdeal
import proofs.«421814_j64630667870280_2_alg».proof.Proof.Gen.KernelIdeal.Skeleton
import proofs.«421814_j64630667870280_2_alg».proof.Proof.Gen.KernelIdeal.Launch
import proofs.«421814_j64630667870280_2_alg».proof.Proof.Gen.KernelIdeal.Points
import proofs.«421814_j64630667870280_2_alg».proof.Proof.Gen.KernelIdeal.Frame
import proofs.«421814_j64630667870280_2_alg».proof.Proof.Gen.ReferenceIdeal
import proofs.«421814_j64630667870280_2_alg».proof.Proof.Gen.ReferenceIdeal.Run
import proofs.«421814_j64630667870280_2_alg».proof.Proof.Gen.ReferenceIdeal.Read
import proofs.«421814_j64630667870280_2_alg».proof.Proof.Gen.Pre_finite_inputs
import Idealize.ShloMosaic.Adequacy
import Idealize.ShloMosaic.Init

import proofs.«421814_j64630667870280_2_alg».proof.Proof.Bridge

noncomputable section

namespace Cert.Proof

theorem claim : Cert.Claim := ⟨Cert.Kernel.Gen.facts, Cert.KernelIdeal.Gen.facts, Cert.ReferenceIdeal.Gen.facts, Cert.Pre_finite_inputs.Gen.facts,
  Cert.Proof.Claims.frame_k, Cert.Proof.Claims.frame_ki, Cert.Proof.Claims.frame_ri, Cert.Proof.Claims.preserves, Cert.Proof.Claims.algebraic⟩

end Cert.Proof

end
